-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x256 .f32 .bf16
  ∧ IdealRules.truncf_extf.Statement Cert.KernelIdeal.S2048x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S1000x256 : Shape := ⟨2, ![1000, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S262144x256 .f32) (main_arg1 : IVec S262144 32) (main_arg2 : FVec F S1000x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S1000x256 .f32 := Host.absf main_arg2
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg1 main_v9
  let main_c_3 : IVec S_ 1 := constantI S_ 1 1#1
  let main_v11 : IVec S_ 1 := (fun x v => Host.reduce IntOp.andi x v reducesTo_S262144_S_d0 h_S_) main_v10 main_c_3
  let main_v12 : IVec S_ 1 := andi main_v8 main_v11
  let main_c_4 : IVec S_ 32 := constantI S_ 32 1000#32
  let main_v13 : IVec S262144 32 := broadcastInDim S262144 ![] bcast_S_S262144 main_c_4
  let main_v14 : IVec S262144 1 := cmpi .slt main_arg1 main_v13
  let main_c_5 : IVec S_ 1 := constantI S_ 1 1#1
  let main_v15 : IVec S_ 1 := (fun x v => Host.reduce IntOp.andi x v reducesTo_S262144_S_d0 h_S_) main_v14 main_c_5
  fn_part1 (F := F) main_v12 main_v15
-- ==== Kernel.lean ====
abbrev S262144x256 : Shape := ⟨2, ![262144, 256]⟩
abbrev S262144 : Shape := ⟨1, ![262144]⟩
abbrev S1000x256 : Shape := ⟨2, ![1000, 256]⟩
abbrev S2x131072x256 : Shape := ⟨3, ![2, 131072, 256]⟩
abbrev S2x131072x1 : Shape := ⟨3, ![2, 131072, 1]⟩
abbrev S_ : Shape := ⟨0, ![]⟩
abbrev S1024x256 : Shape := ⟨2, ![1024, 256]⟩
abbrev S2x1024x256 : Shape := ⟨3, ![2, 1024, 256]⟩
abbrev S2x1x1024 : Shape := ⟨3, ![2, 1, 1024]⟩
abbrev S2x1x1 : Shape := ⟨3, ![2, 1, 1]⟩
abbrev S1x2048x256 : Shape := ⟨3, ![1, 2048, 256]⟩
abbrev S1x2048x1 : Shape := ⟨3, ![1, 2048, 1]⟩
abbrev S1x1024x256 : Shape := ⟨3, ![1, 1024, 256]⟩
abbrev S1x1x1024 : Shape := ⟨3, ![1, 1, 1024]⟩
abbrev S1x1x1 : Shape := ⟨3, ![1, 1, 1]⟩
abbrev S1x1024 : Shape := ⟨2, ![1, 1024]⟩
abbrev S1x1 : Shape := ⟨2, ![1, 1]⟩
abbrev S2048x256 : Shape := ⟨2, ![2048, 256]⟩
abbrev S2048x1 : Shape := ⟨2, ![2048, 1]⟩
abbrev S2048x1024 : Shape := ⟨2, ![2048, 1024]⟩
abbrev S1024 : Shape := ⟨1, ![1024]⟩
abbrev S2048 : Shape := ⟨1, ![2048]⟩
abbrev S1 : Shape := ⟨1, ![1]⟩
abbrev S1x1000 : Shape := ⟨2, ![1, 1000]⟩
abbrev S1000 : Shape := ⟨1, ![1000]⟩
abbrev S1000x1 : Shape := ⟨2, ![1000, 1]⟩

abbrev nBuf : Space → Nat
  | .hbm => 41
  | .vmem => 16
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S1000x256, .f32⟩
  | .hbm, ⟨3, _⟩ => ⟨S2x131072x256, .f32⟩
  | .hbm, ⟨4, _⟩ => ⟨S2x131072x1, .i32⟩
  | .hbm, ⟨5, _⟩ => ⟨S_, .i32⟩
  | .hbm, ⟨6, _⟩ => ⟨S_, .f32⟩
  | .hbm, ⟨7, _⟩ => ⟨S1024x256, .f32⟩
  | .hbm, ⟨8, _⟩ => ⟨S2x1024x256, .f32⟩
  | .hbm, ⟨9, _⟩ => ⟨S2x1x1024, .f32⟩
  | .hbm, ⟨10, _⟩ => ⟨S2x1x1, .f32⟩
  | .hbm, ⟨11, _⟩ => ⟨S_, .f32⟩
  | .hbm, ⟨12, _⟩ => ⟨S1024x256, .f32⟩
  | .hbm, ⟨13, _⟩ => ⟨S1000x256, .f32⟩
  | .hbm, ⟨14, _⟩ => ⟨S_, .f32⟩
  | .hbm, ⟨15, _⟩ => ⟨S1x1024, .f32⟩
  | .hbm, ⟨16, _⟩ => ⟨S1x1000, .f32⟩
  | .hbm, ⟨17, _⟩ => ⟨S1000, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1000, .f32⟩
  | .hbm, ⟨26, _⟩ => ⟨S1000, .f32⟩
  | .hbm, ⟨27, _⟩ => ⟨S1000x1, .f32⟩
  | .hbm, ⟨28, _⟩ => ⟨S1000x256, .f32⟩
  | .hbm, ⟨29, _⟩ => ⟨S1000x256, .f32⟩
  | .hbm, ⟨30, _⟩ => ⟨S1000x256, .f32⟩
  | .hbm, ⟨31, _⟩ => ⟨S1000x1, .f32⟩
  | .hbm, ⟨32, _⟩ => ⟨S_, .f32⟩
  | .hbm, ⟨33, _⟩ => ⟨S1000x1, .f32⟩
  | .hbm, ⟨34, _⟩ => ⟨S1000x1, .i1⟩
  | .hbm, ⟨35, _⟩ => ⟨S_, .f32⟩
  | .hbm, ⟨36, _⟩ => ⟨S1000x256, .f32⟩
  | .hbm, ⟨37, _⟩ => ⟨S1000x256, .f32⟩
  | .hbm, ⟨38, _⟩ => ⟨S1000x256, .f32⟩
  | .hbm, ⟨39, _⟩ => ⟨S1000x256, .i1⟩
  | .hbm, ⟨40, _⟩ => ⟨S1000x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x1, .i32⟩
  | .local _ .vmem, ⟨3, _⟩ => ⟨S1x2048x1, .i32⟩
  | .local _ .vmem, ⟨4, _⟩ => ⟨S1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1, .f32⟩
  | .local _ .vmem, ⟨10, _⟩ => ⟨S1x1x1, .f32⟩
  | .local _ .vmem, ⟨11, _⟩ => ⟨S1024x256, .f32⟩
  | .local _ .vmem, ⟨12, _⟩ => ⟨S1x1024, .f32⟩
  | .local _ .vmem, ⟨13, _⟩ => ⟨S1x1, .f32⟩
  | .local _ .vmem, ⟨14, _⟩ => ⟨S1024x256, .bf16⟩
  | .local _ .vmem, ⟨15, _⟩ => ⟨S1024x256, .bf16⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_v0 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v51 : BitVec 1 := Scalar.cmpi .eq arg1 c63_i32
  let v52 : BitVec 32 := Scalar.extui v51
  let c0_i32_28 : BitVec 32 := 0#32
  let v53 : BitVec 1 := Scalar.cmpi .ne v52 c0_i32_28
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S262144x256_S2x131072x256 : S262144x256.ShapeCasts S2x131072x256
  shapeCasts_S262144_S2x131072x1 : S262144.ShapeCasts S2x131072x1
  pads_S1000x256_S1024x256_0240_000 : S1000x256.Pads (![0, 0] : Fin 2 → Nat) ![24, 0] ![0, 0] S1024x256
  h_S_ : 0 < S_.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  iota_S2048x1024_d1_w32 : S2048x1024.Iotas .tc 32 [1]
  broadcasts_S2048x1_S2048x1024 : S2048x1.Broadcasts S2048x1024
  natLt_1_32 : 1 < 32
  reduces_S2048x1024_S1024 : S2048x1024.Reduces [0] S1024
  shapeCasts_S1024_S1x1024 : S1024.ShapeCasts S1x1024
  reduces_S2048x256_S2048 : S2048x256.Reduces [1] S2048
  shapeCasts_S2048_S2048x1 : S2048.ShapeCasts S2048x1
  reduces_S2048x1_S1 : S2048x1.Reduces [0] S1
  shapeCasts_S1_S1x1 : S1.ShapeCasts S1x1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1024x256_S1024x256_d0 : S2x1024x256.ReducesTo [0] S1024x256
  slices_S1024x256_S1000x256_0_0 : S1024x256.Slices ![0, 0] S1000x256
  reducesTo_S2x1x1024_S1x1024_d0 : S2x1x1024.ReducesTo [0] S1x1024
  slices_S1x1024_S1x1000_0_0 : S1x1024.Slices ![0, 0] S1x1000
  shapeCasts_S1x1000_S1000 : S1x1000.ShapeCasts S1000
  reducesTo_S2x1x1_S_d0_1_2 : S2x1x1.ReducesTo [0, 1, 2] S_
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  bcast_S_S1000x1 : S_.BroadcastsInDim S1000x1 (![] : Fin 0 → Fin S1000x1.rank)
  bcast_S_S1000x256 : S_.BroadcastsInDim S1000x256 (![] : Fin 0 → Fin S1000x256.rank)
  dot_S2048x1024_S1024x256_S2048x256_1_0_0_1_n_n_wf : DotDims.WF S2048x1024 S1024x256 S2048x256 [1] [0] [0] [1] [] []
  dot_S2048x1024_S2048x256_S1024x256_0_0_1_1_n_n_wf : DotDims.WF S2048x1024 S2048x256 S1024x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S2x131072x256.size a
  hwx0_0 : ∀ i : grid0.Coords, EltTy.bits .f32 = 32 ∨ (Rect.block (s := S2x131072x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S2x131072x1.size a
  hwx0_1 : ∀ i : grid0.Coords, EltTy.bits .i32 = 32 ∨ (Rect.block (s := S2x131072x1) S1x2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S2x1024x256.size a
  hwx0_3 : ∀ i : grid0.Coords, EltTy.bits .f32 = 32 ∨ (Rect.block (s := S2x1024x256) S1x1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S2x1x1024.size a
  hwx0_4 : ∀ i : grid0.Coords, EltTy.bits .f32 = 32 ∨ (Rect.block (s := S2x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x1024_S2048x256_S1024x256_0_0_1_1_n_n : DotDims S2048x1024 S2048x256 S1024x256 where
  lhsContracting := [0]
  rhsContracting := [0]
  lhsNonContracting := [1]
  rhsNonContracting := [1]
  lhsBatch := []
  rhsBatch := []
  wf := dot_S2048x1024_S2048x256_S1024x256_0_0_1_1_n_n_wf

abbrev win0_0 : Pipeline.Window sig grid0 :=
  Pipeline.Window.ofSpec (Memref.whole main_v0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S262144x256 : Shape := ⟨2, ![262144, 256]⟩
abbrev S262144 : Shape := ⟨1, ![262144]⟩
abbrev S1000x256 : Shape := ⟨2, ![1000, 256]⟩
abbrev S_ : Shape := ⟨0, ![]⟩
abbrev S262144x1 : Shape := ⟨2, ![262144, 1]⟩
abbrev S1000 : Shape := ⟨1, ![1000]⟩
abbrev S1000x1 : Shape := ⟨2, ![1000, 1]⟩

abbrev nBuf : Space → Nat
  | .hbm => 50
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S1000x256, .f32⟩
  | .hbm, ⟨3, _⟩ => ⟨S_, .i32⟩
  | .hbm, ⟨4, _⟩ => ⟨S262144, .i32⟩
  | .hbm, ⟨5, _⟩ => ⟨S262144, .i1⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S262144, .i32⟩
  | .hbm, ⟨10, _⟩ => ⟨S262144x1, .i32⟩
  | .hbm, ⟨11, _⟩ => ⟨S262144x256, .f32⟩
  | .hbm, ⟨12, _⟩ => ⟨S262144x256, .f32⟩
  | .hbm, ⟨13, _⟩ => ⟨S262144x256, .f32⟩
  | .hbm, ⟨14, _⟩ => ⟨S_, .f32⟩
  | .hbm, ⟨15, _⟩ => ⟨S262144, .f32⟩
  | .hbm, ⟨16, _⟩ => ⟨S262144, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1000x256, .f32⟩
  | .hbm, ⟨25, _⟩ => ⟨S262144x1, .i32⟩
  | .hbm, ⟨26, _⟩ => ⟨S1000x256, .f32⟩
  | .hbm, ⟨27, _⟩ => ⟨S_, .f32⟩
  | .hbm, ⟨28, _⟩ => ⟨S262144, .f32⟩
  | .hbm, ⟨29, _⟩ => ⟨S_, .f32⟩
  | .hbm, ⟨30, _⟩ => ⟨S1000, .f32⟩
  | .hbm, ⟨31, _⟩ => ⟨S262144x1, .i32⟩
  | .hbm, ⟨32, _⟩ => ⟨S1000, .f32⟩
  | .hbm, ⟨33, _⟩ => ⟨S_, .f32⟩
  | .hbm, ⟨34, _⟩ => ⟨S1000, .f32⟩
  | .hbm, ⟨35, _⟩ => ⟨S1000, .f32⟩
  | .hbm, ⟨36, _⟩ => ⟨S1000x1, .f32⟩
  | .hbm, ⟨37, _⟩ => ⟨S1000x256, .f32⟩
  | .hbm, ⟨38, _⟩ => ⟨S1000x256, .f32⟩
  | .hbm, ⟨39, _⟩ => ⟨S1000x256, .f32⟩
  | .hbm, ⟨40, _⟩ => ⟨S1000x1, .f32⟩
  | .hbm, ⟨41, _⟩ => ⟨S_, .f32⟩
  | .hbm, ⟨42, _⟩ => ⟨S1000x1, .f32⟩
  | .hbm, ⟨43, _⟩ => ⟨S1000x1, .i1⟩
  | .hbm, ⟨44, _⟩ => ⟨S_, .f32⟩
  | .hbm, ⟨45, _⟩ => ⟨S1000x256, .f32⟩
  | .hbm, ⟨46, _⟩ => ⟨S1000x256, .f32⟩
  | .hbm, ⟨47, _⟩ => ⟨S1000x256, .f32⟩
  | .hbm, ⟨48, _⟩ => ⟨S1000x256, .i1⟩
  | .hbm, ⟨49, _⟩ => ⟨S1000x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  reducesTo_S262144x256_S262144_d1 : S262144x256.ReducesTo [1] S262144
  h_S_ : 0 < S_.numel
  reducesTo_S262144_S_d0 : S262144.ReducesTo [0] S_
  bcast_S_S1000x256 : S_.BroadcastsInDim S1000x256 (![] : Fin 0 → Fin S1000x256.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  bcast_S_S1000x1 : S_.BroadcastsInDim S1000x1 (![] : Fin 0 → Fin S1000x1.rank)
  gather_S1000x256_S262144x1_S262144x256_1_0_n_n_0_1_1256_wf : GatherDims.WF S1000x256 S262144x1 S262144x256 [1] [0] [] [0] [] 1 ![1, 256]
  scatter_S1000x256_S262144x1_S262144x256_1_0_0_1_wf : ScatterDims.WF S1000x256 S262144x1 S262144x256 [1] [0] [0] 1
  scatter_S1000_S262144x1_S262144_n_0_0_1_wf : ScatterDims.WF S1000 S262144x1 S262144 [] [0] [0] 1

variable [Facts₀]

def gather_S1000x256_S262144x1_S262144x256_1_0_n_n_0_1_1256 : GatherDims S1000x256 S262144x1 S262144x256 where
  offsetDims := [1]
  collapsedSliceDims := [0]
  operandBatchingDims := []
  startIndicesBatchingDims := []
  startIndexMap := [0]
  indexVectorDim := 1
  sliceSizes := ![1, 256]
  wf := gather_S1000x256_S262144x1_S262144x256_1_0_n_n_0_1_1256_wf
def scatter_S1000x256_S262144x1_S262144x256_1_0_0_1 : ScatterDims S1000x256 S262144x1 S262144x256 where
  updateWindowDims := [1]
  insertedWindowDims := [0]
  scatterDimsToOperandDims := [0]
  indexVectorDim := 1
  wf := scatter_S1000x256_S262144x1_S262144x256_1_0_0_1_wf
def scatter_S1000_S262144x1_S262144_n_0_0_1 : ScatterDims S1000 S262144x1 S262144 where
  updateWindowDims := []
  insertedWindowDims := [0]
  scatterDimsToOperandDims := [0]
  indexVectorDim := 1
  wf := scatter_S1000_S262144x1_S262144_n_0_0_1_wf

class Facts : Prop extends Facts₀ where

variable [Facts]
-- ==== Proof.PreFacts.lean ====
import proofs.«422883_j76115410420300_3_alg».proof.Defs
import proofs.«422883_j76115410420300_3_alg».proof.Proof.Gen.Pre_finite_inputs
import Idealize.ShloMosaic.Lib.ReduceAll
import Idealize.ShloMosaic.Lib.StableHlo.Predicate

/-!
  What the precondition says of the argument arrays at the exact-real instance: every entry of the samples and of the
  centers is a real number, and every label word, read as a number, is below 1000 (it is at least 0 as a signed
  word and below 1000 as a signed word, so its unsigned value is that same number).
-/

noncomputable section

namespace Cert.CenterPre

open Idealize.ShloMosaic Idealize.SL.Sem

/-- The scalar shape has one index. -/
instance scalarIdx_subsingleton : Subsingleton Cert.Pre_finite_inputs.S_.Idx := ⟨fun a b => funext fun d => d.elim0⟩

/-- An extended real whose absolute value, max x (-x), is below +∞ (the value the pattern 0x7F800000 denotes)
    is neither infinity: it is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | top => simp [Ideal.cmp] at h
  | coe r => exact ⟨r, rfl⟩

/-- A 32-bit word that is at least 0 and below 1000 as a signed number has an unsigned value below 1000:
    being nonnegative signed, its signed and unsigned readings agree. -/
theorem toNat_lt_of_signed (w : BitVec 32) (h0 : IntOp.cmpi .sge w (0#32) = 1#1)
    (h1 : IntOp.cmpi .slt w (1000#32) = 1#1) : w.toNat < 1000 := by
  have g0 := IntOp.cmpi_sge.1 h0
  have g1 := IntOp.cmpi_slt.1 h1
  have z0 : (0#32 : BitVec 32).toInt = 0 := by decide
  have z1 : (1000#32 : BitVec 32).toInt = 1000 := by decide
  rw [z0] at g0
  rw [z1] at g1
  have hc := BitVec.toInt_eq_toNat_cond w
  have hlt := w.isLt
  split at hc <;> omega

variable (m : (ℓ : Loc Cert.KernelIdeal.nD Cert.KernelIdeal.τ Cert.KernelIdeal.sig) → Buf (Elt Ideal) ℓ)

/-- The precondition taken apart. Its value at the one scalar index is a conjunction of four reductions by "and";
    each being 1, every element it reduces is 1: |x| < +∞ at every sample entry, the same at every center entry,
    and at every label word both signed comparisons, 0 ≤ w and w < 1000. -/
theorem pre_parts (hpre : Cert.Pre_KernelIdeal (hPre_finite_inputs := Cert.Pre_finite_inputs.Gen.facts) m)
    (c : Dev Cert.KernelIdeal.nD) :
    (∀ i : Cert.KernelIdeal.S262144x256.Idx,
        ∃ r : ℝ, m ((c.tc : Thread Cert.KernelIdeal.nD Cert.KernelIdeal.τ).loc Cert.KernelIdeal.main_arg0) i = (r : EReal))
    ∧ (∀ i : Cert.KernelIdeal.S1000x256.Idx,
        ∃ r : ℝ, m ((c.tc : Thread Cert.KernelIdeal.nD Cert.KernelIdeal.τ).loc Cert.KernelIdeal.main_arg2) i = (r : EReal))
    ∧ (∀ i : Cert.KernelIdeal.S262144.Idx,
        (m ((c.tc : Thread Cert.KernelIdeal.nD Cert.KernelIdeal.τ).loc Cert.KernelIdeal.main_arg1) i).toNat < 1000) := by
  have e := congrFun (hpre c) (fun a => a.elim0)
  dsimp only [Cert.Pre_finite_inputs.fn, Cert.Pre_finite_inputs.fn_part1] at e
  simp only [Idealize.ShloMosaic.andi, IntOp.andi_eq_one] at e
  obtain ⟨⟨⟨hx, hc⟩, hl0⟩, hl1⟩ := e
  refine ⟨fun i => ?_, fun i => ?_, fun i => ?_⟩
  · exact real_of_abs_lt _ (Host.reduce_andi_all _ _ _ _ _ hx i)
  · exact real_of_abs_lt _ (Host.reduce_andi_all _ _ _ _ _ hc i)
  · exact toNat_lt_of_signed _ (Host.reduce_andi_all _ _ _ _ _ hl0 i) (Host.reduce_andi_all _ _ _ _ _ hl1 i)

/-- Under the precondition every sample entry is a real number. -/
theorem x_real (hpre : Cert.Pre_KernelIdeal (hPre_finite_inputs := Cert.Pre_finite_inputs.Gen.facts) m)
    (c : Dev Cert.KernelIdeal.nD) (i : Cert.KernelIdeal.S262144x256.Idx) :
    ∃ r : ℝ, m ((c.tc : Thread Cert.KernelIdeal.nD Cert.KernelIdeal.τ).loc Cert.KernelIdeal.main_arg0) i = (r : EReal) := by
  exact (pre_parts m hpre c).1 i

/-- Under the precondition every center entry is a real number. -/
theorem cen_real (hpre : Cert.Pre_KernelIdeal (hPre_finite_inputs := Cert.Pre_finite_inputs.Gen.facts) m)
    (c : Dev Cert.KernelIdeal.nD) (i : Cert.KernelIdeal.S1000x256.Idx) :
    ∃ r : ℝ, m ((c.tc : Thread Cert.KernelIdeal.nD Cert.KernelIdeal.τ).loc Cert.KernelIdeal.main_arg2) i = (r : EReal) := by
  exact (pre_parts m hpre c).2.1 i

/-- Under the precondition every label word has a value below 1000. -/
theorem lab_lt (hpre : Cert.Pre_KernelIdeal (hPre_finite_inputs := Cert.Pre_finite_inputs.Gen.facts) m)
    (c : Dev Cert.KernelIdeal.nD) (i : Cert.KernelIdeal.S262144.Idx) :
    (m ((c.tc : Thread Cert.KernelIdeal.nD Cert.KernelIdeal.τ).loc Cert.KernelIdeal.main_arg1) i).toNat < 1000 := by
  exact (pre_parts m hpre c).2.2 i

end Cert.CenterPre

end
-- ==== Proof.LibScatterLand.lean ====
import Idealize.ShloMosaic.PureOps.Dims

/-!
  Where an update of a `stablehlo.scatter` lands.

  For any scatter dimension numbers, update index `j` lands on operand element `i` exactly when, on every
  operand axis, the start read off the scatter indices (signed, not clamped) plus the window coordinate
  equals `i`'s coordinate. An update whose start plus window coordinate leaves the operand on some axis
  lands on no element.
-/

namespace Idealize.ShloMosaic.ScatterLand

open Idealize.ShloMosaic

variable {s si u : Shape} (d : ScatterDims s si u)

/-- Update index `j` lands on operand element `i` if and only if, on every operand axis `a`, the start of
    the window plus the window coordinate is the coordinate of `i` on `a`. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hh =>
      have hi := congrFun (Option.some.inj h) a
      have hv := congrArg Fin.val hi
      have := hh a
      simp only at hv
      omega
    · cases h
  · intro h
    have hh : ∀ a, 0 ≤ d.start j idx a + d.window j a ∧ d.start j idx a + d.window j a < s.size a := by
      intro a
      have := h a
      have := (i a).isLt
      omega
    rw [dif_pos hh]
    refine congrArg some (funext fun a => Fin.ext ?_)
    have := h a
    show (d.start j idx a + d.window j a).toNat = (i a).val
    omega

/-- An update whose start plus window coordinate is outside the operand on some axis lands nowhere. -/
theorem resultIdx?_eq_none_of_outside {w : Nat} (j : u.Idx) (idx : IVec si w) (a : Fin s.rank)
    (h : d.start j idx a + (d.window j a : Int) < 0 ∨ (s.size a : Int) ≤ d.start j idx a + (d.window j a : Int)) :
    d.resultIdx? j idx = none := by
  unfold ScatterDims.resultIdx?
  rw [dif_neg]
  intro hh
  have := hh a
  omega

end Idealize.ShloMosaic.ScatterLand
-- ==== Proof.LibSumIdx.lean ====
/-
  A sum over the index set of an array of rank 1, 3 or 4 is the nested sum over its coordinates.

  The index set of a shape [n0, …, nk] is in bijection with the product of the coordinate ranges Fin n0 × … × Fin nk
  (an index is the tuple of its coordinates), so a sum over it in any commutative monoid is the iterated sum, one
  coordinate at a time, outermost axis first. The library states this for rank 2; these are the other ranks, in the same form.
-/
import Idealize.ShloMosaic.Lib.ValueIdx

open scoped BigOperators

namespace Idealize.ShloMosaic.ValueIdx

/-- A rank-1 index set is its coordinate range. -/
def idxEquiv1 {n0 : Nat} : (⟨1, ![n0]⟩ : Shape).Idx ≃ Fin n0 where
  toFun i := i 0
  invFun a := ix1 a
  left_inv i := (eq_ix1 i).symm
  right_inv _ := rfl

/-- A sum over a rank-1 index set is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Idealize.ShloMosaic.ValueIdx
-- ==== Proof.LibHostScatterAdd.lean ====
/-
  General facts for reading a host program with index wraps, gathers of single entries and accumulating scatters.

  Three float words and the reals they denote (1, 50000, 8).  A node number, read as a signed 32-bit word, is not
  negative, so the "add the table size to a negative index" step leaves it as it is.  Choosing a value where a degree is positive and 0 elsewhere is
  an if-then-else on the order of the extended reals.  A gather that takes single
  entries of a vector reads entry (start index, read signed and clamped into the vector).  An update of a scatter
  lands on the entry its start index names (read signed, not clamped) and, for a scatter of rows, in its own column;
  hence an accumulating scatter read at one entry is the entry's old value plus the sum, over all updates, of the
  update if its start index names that entry and 0 otherwise.
-/
import Idealize.ShloMosaic.Lib.ValueIdx
import Idealize.ShloMosaic.PureOps.Ideal
import Idealize.ShloMosaic.PureOps.Ideal.Laws
import proofs.«422883_j76115410420300_3_alg».proof.Proof.LibScatterLand
import proofs.«422883_j76115410420300_3_alg».proof.Proof.LibSumIdx

noncomputable section

open scoped BigOperators

namespace Cert.RefValue

open Idealize.ShloMosaic Idealize.ShloMosaic.ValueIdx

/-! ## The float words of the reference -/

/-- The word of 1.0 denotes 1. -/
theorem ofBits_one : Ideal.ofBits .f32 0x3F800000#32 = 1 := by
  simp [Ideal.ofBits, Ideal.ieee, -EReal.coe_mul]; norm_num

/-- The word of 50000.0 denotes 50000. -/
theorem ofBits_50000 : Ideal.ofBits .f32 0x47435000#32 = ((50000 : ℝ) : EReal) := by
  simp [Ideal.ofBits, Ideal.ieee, -EReal.coe_mul]; norm_num

/-- The word of 8.0 denotes 8. -/
theorem ofBits_8 : Ideal.ofBits .f32 0x41000000#32 = ((8 : ℝ) : EReal) := by
  simp [Ideal.ofBits, Ideal.ieee, -EReal.coe_mul]; norm_num

/-! ## Words that are node numbers -/

/-- A word that is not negative as a signed number is left alone by "if w < 0 then w + 50000 else w". -/
theorem wrap_node (w : BitVec 32) (h0 : 0 ≤ w.toInt) :
    Scalar.select (IntOp.cmpi .slt w 0#32) (IntOp.addi w 50000#32) w = w := by
  have h : IntOp.cmpi .slt w 0#32 = 0#1 := by
    have hs : w.slt 0#32 = false := by
      simp only [BitVec.slt, BitVec.toInt_zero]
      exact decide_eq_false (by omega)
    simp only [IntOp.cmpi, hs]
    rfl
  rw [h]
  exact select_zero _ _

/-- The 32-bit word of a number below 50000, read signed, is that number. -/
theorem toInt_ofNat_small (k : Nat) (hk : k < 50000) : (BitVec.ofNat 32 k).toInt = (k : Int) := by
  have h1 : (BitVec.ofNat 32 k).toNat = k := by rw [BitVec.toNat_ofNat]; omega
  rw [BitVec.toInt_eq_toNat_cond, h1, if_pos (by omega)]

/-! ## A select on "greater than zero" -/

/-- Choosing r where d > 0 and 0 elsewhere, as the comparison word and the select spell it. -/
theorem select_pos (d r : EReal) : Scalar.select (Ideal.cmp .ogt d 0) r 0 = if 0 < d then r else 0 := by
  unfold Ideal.cmp Scalar.select
  by_cases h : 0 < d
  · simp [h]
  · simp [h]

/-! ## A gather of single entries of a vector -/

/-- Entry r of a gather of single entries of a vector of length N, with a column of n start indices, is the vector's
    entry at start index r read signed and clamped into [0, N − 1]. -/
theorem gather_vec_clamp_apply {α : Type} {N n w : Nat}
    (d : GatherDims ⟨1, ![N]⟩ ⟨2, ![n, 1]⟩ ⟨1, ![n]⟩)
    (hoff : d.offsetDims = []) (hcol : d.collapsedSliceDims = [0]) (hob : d.operandBatchingDims = [])
    (hsb : d.startIndicesBatchingDims = []) (hmap : d.startIndexMap = [0]) (hiv : d.indexVectorDim = 1)
    (hsl : d.sliceSizes = ![1])
    (x : (⟨1, ![N]⟩ : Shape).Idx → α) (idx : IVec ⟨2, ![n, 1]⟩ w) (r : Fin n) (hN : 0 < N) :
    Host.gather d x idx (ix1 r)
      = x (ix1 (⟨min (idx (ix2 r (0 : Fin 1))).toInt.toNat (N - 1), by omega⟩ : Fin N)) := by
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the one axis is collapsed and start-indexed: no batching coordinate, no offset coordinate
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    -- the start index is read at (r, 0)
    generalize hX : GatherDims.siIdx _ (ix1 r) _ = X
    have hX' : X = ix2 r (0 : Fin 1) := by
      rw [← hX]
      funext b
      match b with
      | ⟨0, _⟩ => rfl
      | ⟨1, _⟩ => rfl
    rw [hX']
    rfl

/-! ## Where the updates of a scatter land -/

/-- Scatter into a vector, one start index per update: update e lands on entry k exactly when its start index, read
    signed, is k. -/
theorem scatter_vec_lands {N n w : Nat} (d : ScatterDims ⟨1, ![N]⟩ ⟨2, ![n, 1]⟩ ⟨1, ![n]⟩)
    (huw : d.updateWindowDims = []) (hins : d.insertedWindowDims = [0])
    (hmap : d.scatterDimsToOperandDims = [0]) (hiv : d.indexVectorDim = 1)
    (idx : IVec ⟨2, ![n, 1]⟩ w) (e : Fin n) (k : Fin N) :
    d.resultIdx? (ix1 e) idx = some (ix1 k) ↔ (idx (ix2 e (0 : Fin 1))).toInt = (k.val : Int) := by
  obtain ⟨uw, ins, sdo, ivd, wf⟩ := d
  dsimp only at huw hins hmap hiv
  subst huw hins hmap hiv
  rw [ScatterLand.resultIdx?_eq_some_iff]
  have hst : ∀ a : Fin 1,
      ScatterDims.start ⟨[], [0], [0], 1, wf⟩ (ix1 e) idx a = (idx (ix2 e (0 : Fin 1))).toInt := by
    intro a
    obtain rfl : a = 0 := Subsingleton.elim _ _
    unfold ScatterDims.start
    rw [dif_pos (by simp)]
    generalize hX : ScatterDims.siIdx _ (ix1 e) _ = X
    have hX' : X = ix2 e (0 : Fin 1) := by
      rw [← hX]
      funext b
      match b with
      | ⟨0, _⟩ => rfl
      | ⟨1, _⟩ => rfl
    rw [hX']
  have hwin : ∀ a : Fin 1, ScatterDims.window ⟨[], [0], [0], 1, wf⟩ (ix1 e) a = 0 := by
    intro a
    obtain rfl : a = 0 := Subsingleton.elim _ _
    unfold ScatterDims.window
    rw [dif_neg (by simp [ScatterDims.sKept, Shape.kept])]
  constructor
  · intro h
    have := h 0
    rw [hst, hwin, Nat.cast_zero, add_zero] at this
    exact this
  · intro h a
    obtain rfl : a = 0 := Subsingleton.elim _ _
    rw [hst, hwin, Nat.cast_zero, add_zero]
    exact h

/-- Scatter of rows into a table, one start index per row of updates: update (e, q) lands on entry (k, j) exactly when
    row e's start index, read signed, is k and the columns agree. -/
theorem scatter_rows_lands {N C n w : Nat} (d : ScatterDims ⟨2, ![N, C]⟩ ⟨2, ![n, 1]⟩ ⟨2, ![n, C]⟩)
    (huw : d.updateWindowDims = [1]) (hins : d.insertedWindowDims = [0])
    (hmap : d.scatterDimsToOperandDims = [0]) (hiv : d.indexVectorDim = 1)
    (idx : IVec ⟨2, ![n, 1]⟩ w) (e : Fin n) (q : Fin C) (k : Fin N) (j : Fin C) :
    d.resultIdx? (ix2 e q) idx = some (ix2 k j)
      ↔ (idx (ix2 e (0 : Fin 1))).toInt = (k.val : Int) ∧ q = j := by
  obtain ⟨uw, ins, sdo, ivd, wf⟩ := d
  dsimp only at huw hins hmap hiv
  subst huw hins hmap hiv
  rw [ScatterLand.resultIdx?_eq_some_iff]
  -- the row axis: the start index alone; the column axis: the update's column alone
  have hst0 : ScatterDims.start ⟨[1], [0], [0], 1, wf⟩ (ix2 e q) idx 0 = (idx (ix2 e (0 : Fin 1))).toInt := by
    unfold ScatterDims.start
    rw [dif_pos (by simp)]
    generalize hX : ScatterDims.siIdx _ (ix2 e q) _ = X
    have hX' : X = ix2 e (0 : Fin 1) := by
      rw [← hX]
      funext b
      match b with
      | ⟨0, _⟩ => rfl
      | ⟨1, _⟩ => rfl
    rw [hX']
  have hst1 : ScatterDims.start ⟨[1], [0], [0], 1, wf⟩ (ix2 e q) idx 1 = 0 := by
    unfold ScatterDims.start
    rw [dif_neg (by simp)]
  have hwin0 : ScatterDims.window ⟨[1], [0], [0], 1, wf⟩ (ix2 e q) 0 = 0 := by
    unfold ScatterDims.window
    rw [dif_neg (by simp [ScatterDims.sKept, Shape.kept])]
  have hwin1 : ScatterDims.window ⟨[1], [0], [0], 1, wf⟩ (ix2 e q) 1 = q.val := by
    unfold ScatterDims.window
    rw [dif_pos (by simp [ScatterDims.sKept, Shape.kept])]
    rfl
  constructor
  · intro h
    have h0 := h 0
    have h1 := h 1
    rw [hst0, hwin0, Nat.cast_zero, add_zero] at h0
    rw [hst1, hwin1, zero_add] at h1
    exact ⟨h0, Fin.ext (Int.ofNat_inj.mp h1)⟩
  · rintro ⟨h0, rfl⟩ a
    match a with
    | ⟨0, _⟩ =>
      show ScatterDims.start _ (ix2 e q) idx 0 + ((ScatterDims.window _ (ix2 e q) 0 : Nat) : Int) = _
      rw [hst0, hwin0, Nat.cast_zero, add_zero]
      exact h0
    | ⟨1, _⟩ =>
      show ScatterDims.start _ (ix2 e q) idx 1 + ((ScatterDims.window _ (ix2 e q) 1 : Nat) : Int) = _
      rw [hst1, hwin1, zero_add]

/-! ## An accumulating scatter read at one entry -/

/-- An accumulating scatter into a vector, at entry k: the old entry plus the updates whose start index is k. -/
theorem scatterAdd_vec_apply {N n w : Nat} (d : ScatterDims ⟨1, ![N]⟩ ⟨2, ![n, 1]⟩ ⟨1, ![n]⟩)
    (huw : d.updateWindowDims = []) (hins : d.insertedWindowDims = [0])
    (hmap : d.scatterDimsToOperandDims = [0]) (hiv : d.indexVectorDim = 1)
    (x : (⟨1, ![N]⟩ : Shape).Idx → EReal) (idx : IVec ⟨2, ![n, 1]⟩ w)
    (upd : (⟨1, ![n]⟩ : Shape).Idx → EReal) (k : Fin N) :
    Ideal.hostScatterAdd d x idx upd (ix1 k)
      = x (ix1 k) + ∑ e : Fin n, if (idx (ix2 e (0 : Fin 1))).toInt = (k.val : Int) then upd (ix1 e) else 0 := by
  unfold Ideal.hostScatterAdd
  refine congrArg (x (ix1 k) + ·) ?_
  rw [Finset.sum_filter, sum_idx1]
  exact Finset.sum_congr rfl fun e _ => if_congr (scatter_vec_lands d huw hins hmap hiv idx e k) rfl rfl

/-- An accumulating scatter of rows into a table, at entry (k, j): the old entry plus column j of the update rows whose
    start index is k. -/
theorem scatterAdd_rows_apply {N C n w : Nat} (d : ScatterDims ⟨2, ![N, C]⟩ ⟨2, ![n, 1]⟩ ⟨2, ![n, C]⟩)
    (huw : d.updateWindowDims = [1]) (hins : d.insertedWindowDims = [0])
    (hmap : d.scatterDimsToOperandDims = [0]) (hiv : d.indexVectorDim = 1)
    (x : (⟨2, ![N, C]⟩ : Shape).Idx → EReal) (idx : IVec ⟨2, ![n, 1]⟩ w)
    (upd : (⟨2, ![n, C]⟩ : Shape).Idx → EReal) (k : Fin N) (j : Fin C) :
    Ideal.hostScatterAdd d x idx upd (ix2 k j)
      = x (ix2 k j) + ∑ e : Fin n, if (idx (ix2 e (0 : Fin 1))).toInt = (k.val : Int) then upd (ix2 e j) else 0 := by
  unfold Ideal.hostScatterAdd
  refine congrArg (x (ix2 k j) + ·) ?_
  rw [Finset.sum_filter, sum_idx2]
  refine Finset.sum_congr rfl fun e _ => ?_
  rw [Finset.sum_congr rfl fun q _ => if_congr (scatter_rows_lands d huw hins hmap hiv idx e q k j) rfl rfl]
  by_cases hA : (idx (ix2 e (0 : Fin 1))).toInt = (k.val : Int)
  · -- the row lands on k: of its columns only column j lands on (k, j)
    rw [if_pos hA]
    simp only [hA, true_and]
    rw [Finset.sum_ite_eq' Finset.univ j (fun q => upd (ix2 e q)), if_pos (Finset.mem_univ j)]
  · rw [if_neg hA]
    exact Finset.sum_eq_zero fun q _ => if_neg fun h => hA h.1

/-- The host's accumulating scatter into a vector, at entry k: the old entry plus the updates whose start index is k. -/
theorem host_scatterAdd_vec_apply {N n w : Nat} (d : ScatterDims ⟨1, ![N]⟩ ⟨2, ![n, 1]⟩ ⟨1, ![n]⟩)
    (huw : d.updateWindowDims = []) (hins : d.insertedWindowDims = [0])
    (hmap : d.scatterDimsToOperandDims = [0]) (hiv : d.indexVectorDim = 1)
    (x : FVec Ideal ⟨1, ![N]⟩ .f32) (idx : IVec ⟨2, ![n, 1]⟩ w) (upd : FVec Ideal ⟨1, ![n]⟩ .f32) (k : Fin N) :
    Host.scatterAdd (F := Ideal) d x idx upd (ix1 k)
      = x (ix1 k) + ∑ e : Fin n, if (idx (ix2 e (0 : Fin 1))).toInt = (k.val : Int) then upd (ix1 e) else 0 :=
  scatterAdd_vec_apply d huw hins hmap hiv x idx upd k

/-- The host's accumulating scatter of rows into a table, at entry (k, j): the old entry plus column j of the update
    rows whose start index is k. -/
theorem host_scatterAdd_rows_apply {N C n w : Nat} (d : ScatterDims ⟨2, ![N, C]⟩ ⟨2, ![n, 1]⟩ ⟨2, ![n, C]⟩)
    (huw : d.updateWindowDims = [1]) (hins : d.insertedWindowDims = [0])
    (hmap : d.scatterDimsToOperandDims = [0]) (hiv : d.indexVectorDim = 1)
    (x : FVec Ideal ⟨2, ![N, C]⟩ .f32) (idx : IVec ⟨2, ![n, 1]⟩ w) (upd : FVec Ideal ⟨2, ![n, C]⟩ .f32)
    (k : Fin N) (j : Fin C) :
    Host.scatterAdd (F := Ideal) d x idx upd (ix2 k j)
      = x (ix2 k j) + ∑ e : Fin n, if (idx (ix2 e (0 : Fin 1))).toInt = (k.val : Int) then upd (ix2 e j) else 0 :=
  scatterAdd_rows_apply d huw hins hmap hiv x idx upd k j

end Cert.RefValue

end
-- ==== Proof.LibRowGatherClamp.lean ====
/-
  Taking rows of a table with the start index clamped: the gather that x[idx] of an [N × C] array lowers to, read
  at an entry, for an ARBITRARY start index.

  With the row axis collapsed and start-indexed and the column axis an offset axis of full width, entry (r, q) of
  the result is the table's entry (row, q), where row is start index r read as a signed integer and clamped to
  [0, N − 1]: a negative start index reads row 0, one past the end reads the last row.
-/
import Idealize.ShloMosaic.Lib.ValueIdx

noncomputable section

namespace Cert.LibRowGatherClamp

open Idealize.ShloMosaic Idealize.ShloMosaic.ValueIdx

/-- Entry (r, q) of a row gather is the table's entry (row, q), row being start index r read signed and clamped
    into [0, N − 1]. -/
theorem gather_rows_clamp_apply {α : Type} {N C n w : Nat}
    (d : GatherDims ⟨2, ![N, C]⟩ ⟨2, ![n, 1]⟩ ⟨2, ![n, C]⟩)
    (hoff : d.offsetDims = [1]) (hcol : d.collapsedSliceDims = [0]) (hob : d.operandBatchingDims = [])
    (hsb : d.startIndicesBatchingDims = []) (hmap : d.startIndexMap = [0]) (hiv : d.indexVectorDim = 1)
    (hsl : d.sliceSizes = ![1, C])
    (x : (⟨2, ![N, C]⟩ : Shape).Idx → α) (idx : IVec ⟨2, ![n, 1]⟩ w) (r : Fin n) (q : Fin C) (hN : 0 < N) :
    Host.gather d x idx (ix2 r q)
      = x (ix2 (⟨min (idx (ix2 r (0 : Fin 1))).toInt.toNat (N - 1), by omega⟩ : Fin N) q) := by
  -- the record's data are the seven printed lists: make them literal so that the axis bookkeeping computes
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the row axis: collapsed and start-indexed, so the operand's row is the clamped start index alone
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    -- the start index is read at (r, 0): r from the result's batch axis, 0 on the index vector's axis
    generalize hX : GatherDims.siIdx _ (ix2 r q) _ = X
    have hX' : X = ix2 r (0 : Fin 1) := by
      rw [← hX]
      funext b
      match b with
      | ⟨0, _⟩ => rfl
      | ⟨1, _⟩ => rfl
    rw [hX']
    rfl
  | ⟨1, _⟩ =>
    -- the column axis: an offset axis of full width, no start, so the operand's column is the result's
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl

end Cert.LibRowGatherClamp

end
-- ==== Proof.Spec.lean ====
import Idealize.ShloMosaic.PureOps.Ideal
import Idealize.ShloMosaic.Lib.ValueIdx

/-!
  What both programs compute, stated once over the three argument arrays: the samples `x` (262144 rows of 256 features),
  the class label of each row, and the table of 1000 class centers.

  Rows are numbered flat, 0 ≤ N < 262144. A label word names class k when its value is k. For each class k the
  segment sum is the sum of the rows labelled k, the segment count their number, and the distance of row N is the
  Euclidean distance from the row to the center its label names (to the zero row when the label names none, which
  is what a product with a one-hot row over zero-padded centers gives). The loss is the sum of the distances
  divided by the number of rows and halved; the new centers move each populated class half way to its mean.

  The sums run over ranges of natural numbers, so that the sum over the rows of consecutive tiles is a sum over
  consecutive intervals.
-/

noncomputable section

namespace Cert.CenterSpec

open Idealize.ShloMosaic Idealize.ShloMosaic.ValueIdx

abbrev SX : Shape := ⟨2, ![262144, 256]⟩
abbrev SLab : Shape := ⟨1, ![262144]⟩
abbrev SCen : Shape := ⟨2, ![1000, 256]⟩

variable (x : FVec Ideal SX .f32) (lab : IVec SLab 32) (cen : FVec Ideal SCen .f32)

/-- Feature d of row N (zero past the last row). -/
def xAt (N : ℕ) (d : Fin 256) : EReal := if h : N < 262144 then x (ix2 ⟨N, h⟩ d) else 0

/-- The label word of row N (the zero word past the last row). -/
def labAt (N : ℕ) : BitVec 32 := if h : N < 262144 then lab (ix1 ⟨N, h⟩) else 0#32

/-- Feature d of the center of class k (zero when k names no class). -/
def cenRow (k : ℕ) (d : Fin 256) : EReal := if h : k < 1000 then cen (ix2 ⟨k, h⟩ d) else 0

/-- Row N's contribution to feature d of class k's segment sum. -/
def sumTerm (k : ℕ) (d : Fin 256) (N : ℕ) : EReal := if (labAt lab N).toNat = k then xAt x N d else 0

/-- Row N's contribution to class k's count. -/
def cntTerm (k : ℕ) (N : ℕ) : EReal := if (labAt lab N).toNat = k then 1 else 0

/-- The distance from row N to the center its label names. -/
def distAt (N : ℕ) : EReal :=
  Ideal.sqrt (∑ d : Fin 256, (xAt x N d - cenRow cen (labAt lab N).toNat d) * (xAt x N d - cenRow cen (labAt lab N).toNat d))

/-- Feature d of the sum of the rows labelled k. -/
def segSum (k : ℕ) (d : Fin 256) : EReal := ∑ N ∈ Finset.range 262144, sumTerm x lab k d N

/-- The number of rows labelled k. -/
def segCnt (k : ℕ) : EReal := ∑ N ∈ Finset.range 262144, cntTerm lab k N

/-- The sum of all rows' distances. -/
def lossSum : EReal := ∑ N ∈ Finset.range 262144, distAt x lab cen N

/-- The segment sums as a table. -/
def segSumArr : FVec Ideal SCen .f32 := fun i => segSum x lab (i 0).val (i 1)

/-- The segment counts as a vector. -/
def segCntArr : FVec Ideal ⟨1, ![1000]⟩ .f32 := fun i => segCnt lab (i 0).val

/-- The loss from the summed distances: divided by the number of rows (the word of 262144.0), then by two. -/
def lossOf (s : EReal) : FVec Ideal ⟨0, ![]⟩ .f32 :=
  fun _ => Ideal.div (Ideal.div s (Ideal.ofBits .f32 0x48800000#32)) (Ideal.ofBits .f32 0x40000000#32)

end Cert.CenterSpec

end
-- ==== Proof.Tail.lean ====
import proofs.«422883_j76115410420300_3_alg».proof.Proof.Gen.ReferenceIdeal
import proofs.«422883_j76115410420300_3_alg».proof.Proof.Spec

/-!
  The last stretch of both programs is the same arithmetic on (segment sums, segment counts, old centers): divide each
  class's sum by its count (by one for an empty class), take the difference to the old center, and move a populated
  class half of that difference. It is stated once, over the reference's printed operations, and never opened.
-/

noncomputable section

namespace Cert.CenterTail

open Idealize.ShloMosaic Cert.ReferenceIdeal Cert.ReferenceIdeal.Gen

/-- The new centers from the segment sums, the segment counts and the old centers. -/
def newCenters (sums : FVec Ideal S1000x256 .f32) (cnt : FVec Ideal S1000 .f32) (cen : FVec Ideal S1000x256 .f32) :
    FVec Ideal S1000x256 .f32 :=
  select
    (broadcastInDim S1000x256 ![0, 1] bcast_S1000x1_S1000x256_0_1
      (cmpf (F := Ideal) .ogt (broadcastInDim S1000x1 ![0] bcast_S1000_S1000x1_0 cnt)
        (broadcastInDim S1000x1 ![] bcast_S_S1000x1 (constant (F := Ideal) S_ .f32 0x00000000#32))))
    (addf cen
      (mulf (broadcastInDim S1000x256 ![] bcast_S_S1000x256 (constant (F := Ideal) S_ .f32 0x3F000000#32))
        (subf
          (Host.divf sums
            (broadcastInDim S1000x256 ![0, 1] bcast_S1000x1_S1000x256_0_1
              (broadcastInDim S1000x1 ![0] bcast_S1000_S1000x1_0
                (maximumf cnt (broadcastInDim S1000 ![] bcast_S_S1000 (constant (F := Ideal) S_ .f32 0x3F800000#32))))))
          cen)))
    cen

end Cert.CenterTail

end
-- ==== Proof.RefValue.lean ====
import proofs.«422883_j76115410420300_3_alg».proof.Proof.RefRun
import proofs.«422883_j76115410420300_3_alg».proof.Proof.RefRead
import proofs.«422883_j76115410420300_3_alg».proof.Proof.LibHostScatterAdd
import proofs.«422883_j76115410420300_3_alg».proof.Proof.LibRowGatherClamp
import proofs.«422883_j76115410420300_3_alg».proof.Proof.Spec
import proofs.«422883_j76115410420300_3_alg».proof.Proof.Tail
import Mathlib.Algebra.BigOperators.Fin

/-!
  The reference's run, read back against the specification. With every label below 1000 the gather reads the row
  its label names (the wrap of a negative label and the clamp both leave such a label alone), so a row's distance
  is the specification's; the row-wise accumulating scatter of the samples is the segment sum and the scatter of
  ones the segment count; the last stretch is the shared arithmetic on those.
-/

noncomputable section

namespace Cert.CenterRef

open Idealize.ShloMosaic Idealize.ShloMosaic.TcCoe Idealize.SL.Sem Idealize.ShloMosaic.ValueIdx
open Cert.ReferenceIdeal Cert.ReferenceIdeal.Gen

/-! ## Label words -/

/-- A word whose value is below 1000 reads, as a signed number, as its value. -/
theorem toInt_label (w : BitVec 32) (h : w.toNat < 1000) : w.toInt = (w.toNat : Int) := by
  rw [BitVec.toInt_eq_toNat_cond, if_pos (by omega)]

/-- A word whose value is below 1000 is not negative, so "if w < 0 then a else w" is w. -/
theorem wrap_label (w a : BitVec 32) (h : w.toNat < 1000) :
    Scalar.select (IntOp.cmpi .slt w 0#32) a w = w := by
  have hc : IntOp.cmpi .slt w 0#32 = 0#1 := by
    have hs : w.slt 0#32 = false := by
      simp only [BitVec.slt, BitVec.toInt_zero]
      exact decide_eq_false (by rw [toInt_label w h]; omega)
    simp only [IntOp.cmpi, hs]
    rfl
  rw [hc]
  exact select_zero _ _

/-- For a word below 1000, naming class k as a signed number is having the value k. -/
theorem toInt_eq_iff (w : BitVec 32) (h : w.toNat < 1000) (k : Nat) : w.toInt = (k : Int) ↔ w.toNat = k := by
  rw [toInt_label w h]
  exact Int.ofNat_inj

section Stages

open Cert.ReferenceIdeal.ReadP

variable (X : FVec Ideal S262144x256 .f32) (L : IVec S262144 32) (C : FVec Ideal S1000x256 .f32)

/-! ## The gather and the two scatters at labels below 1000 -/

/-- The row gather at start indices that are labels below 1000 reads the row the label names: the signed reading of
    such a label is its value, and the clamp into [0, 999] leaves it. -/
theorem gather_label (idx : IVec S262144x1 32) (r : Fin 262144) (q : Fin 256)
    (hr : idx (ix2 r (0 : Fin 1)) = L (ix1 r)) (hl : (L (ix1 r)).toNat < 1000) :
    Host.gather gather_S1000x256_S262144x1_S262144x256_1_0_n_n_0_1_1256 C idx (ix2 r q)
      = Cert.CenterSpec.cenRow C (L (ix1 r)).toNat q := by
  rw [Cert.LibRowGatherClamp.gather_rows_clamp_apply _ rfl rfl rfl rfl rfl rfl rfl C idx r q (by norm_num)]
  unfold Cert.CenterSpec.cenRow
  rw [dif_pos hl]
  refine congrArg C (congrArg (fun a => ix2 a q) (Fin.ext ?_))
  show min (idx (ix2 r (0 : Fin 1))).toInt.toNat (1000 - 1) = (L (ix1 r)).toNat
  rw [hr, toInt_label _ hl, Int.toNat_natCast]
  omega

/-- The row-wise accumulating scatter of the samples into zeros, at the labels, is the table of segment sums: entry
    (k, j) collects column j of the rows whose label has the value k. -/
theorem scatter_rows_label (base : FVec Ideal S1000x256 .f32) (idx : IVec S262144x1 32)
    (hb : ∀ i, base i = 0) (hr : ∀ e : Fin 262144, idx (ix2 e (0 : Fin 1)) = L (ix1 e))
    (hl : ∀ i, (L i).toNat < 1000) :
    Host.scatterAdd (F := Ideal) scatter_S1000x256_S262144x1_S262144x256_1_0_0_1 base idx X
      = Cert.CenterSpec.segSumArr X L := by
  funext i
  obtain ⟨k, j, rfl⟩ : ∃ k j, i = ix2 k j := ⟨i 0, i 1, eq_ix2 i⟩
  rw [Cert.RefValue.host_scatterAdd_rows_apply _ rfl rfl rfl rfl, hb, zero_add]
  show _ = Cert.CenterSpec.segSum X L k.val j
  unfold Cert.CenterSpec.segSum
  rw [← Fin.sum_univ_eq_sum_range (fun N => Cert.CenterSpec.sumTerm X L k.val j N) 262144]
  refine Finset.sum_congr rfl fun e _ => ?_
  unfold Cert.CenterSpec.sumTerm Cert.CenterSpec.labAt Cert.CenterSpec.xAt
  rw [dif_pos e.isLt, dif_pos e.isLt, hr e]
  exact if_congr (toInt_eq_iff _ (hl _) _) rfl rfl

/-- The accumulating scatter of ones into zeros, at the labels, is the vector of segment counts. -/
theorem scatter_vec_label (base : FVec Ideal S1000 .f32) (idx : IVec S262144x1 32) (ones : FVec Ideal S262144 .f32)
    (hb : ∀ i, base i = 0) (ho : ∀ i, ones i = 1) (hr : ∀ e : Fin 262144, idx (ix2 e (0 : Fin 1)) = L (ix1 e))
    (hl : ∀ i, (L i).toNat < 1000) :
    Host.scatterAdd (F := Ideal) scatter_S1000_S262144x1_S262144_n_0_0_1 base idx ones
      = Cert.CenterSpec.segCntArr L := by
  funext i
  obtain ⟨k, rfl⟩ : ∃ k, i = ix1 k := ⟨i 0, eq_ix1 i⟩
  rw [Cert.RefValue.host_scatterAdd_vec_apply _ rfl rfl rfl rfl, hb, zero_add]
  show _ = Cert.CenterSpec.segCnt L k.val
  unfold Cert.CenterSpec.segCnt
  rw [← Fin.sum_univ_eq_sum_range (fun N => Cert.CenterSpec.cntTerm L k.val N) 262144]
  refine Finset.sum_congr rfl fun e _ => ?_
  unfold Cert.CenterSpec.cntTerm Cert.CenterSpec.labAt
  rw [dif_pos e.isLt, hr e, ho]
  exact if_congr (toInt_eq_iff _ (hl _) _) rfl rfl

/-! ## The reference's stages -/

/-- The column of wrapped labels at (r, 0) is row r's label. -/
theorem v5_at (hl : ∀ i, (L i).toNat < 1000) (r : Fin 262144) :
    val_main_v5 (F := Ideal) L (ix2 r (0 : Fin 1)) = L (ix1 r) := by
  have hi : idx_main_v5 (ix2 r (0 : Fin 1)) = ix1 r := by
    funext a
    match a with
    | ⟨0, _⟩ => rfl
  rw [val_main_v5_apply, hi, val_main_v4_apply, val_main_v1_apply, val_main_v0_apply, val_main_c_apply]
  exact wrap_label _ _ (hl _)

/-- The column of labels the first scatter takes, at (e, 0), is row e's label. -/
theorem v15_at (e : Fin 262144) : val_main_v15 (F := Ideal) L (ix2 e (0 : Fin 1)) = L (ix1 e) := by
  have hi : idx_main_v15 (ix2 e (0 : Fin 1)) = ix1 e := by
    funext a
    match a with
    | ⟨0, _⟩ => rfl
  rw [val_main_v15_apply, hi]

/-- The column of labels the second scatter takes, at (e, 0), is row e's label. -/
theorem v19_at (e : Fin 262144) : val_main_v19 (F := Ideal) L (ix2 e (0 : Fin 1)) = L (ix1 e) := by
  have hi : idx_main_v19 (ix2 e (0 : Fin 1)) = ix1 e := by
    funext a
    match a with
    | ⟨0, _⟩ => rfl
  rw [val_main_v19_apply, hi]

/-- Row r's root of the summed squares is the specification's distance of row r. -/
theorem v10_at (hl : ∀ i, (L i).toNat < 1000) (r : Fin 262144) :
    val_main_v10 (F := Ideal) X L C (ix1 r) = Cert.CenterSpec.distAt X L C r.val := by
  rw [val_main_v10_apply, Ideal.hostUnary_sqrt_def, val_main_v9_apply, val_main_cst_apply, Ideal.ofBits_def,
    Ideal.ofBits_zero_f32, zero_add]
  unfold Cert.CenterSpec.distAt Cert.CenterSpec.xAt Cert.CenterSpec.labAt
  simp only [dif_pos r.isLt]
  refine congrArg Ideal.sqrt (Finset.sum_congr rfl fun d _ => ?_)
  have hi : idx_main_v9 (ix1 r) d = ix2 r d := by
    funext a
    match a with
    | ⟨0, _⟩ => rfl
    | ⟨1, _⟩ => rfl
  rw [hi, val_main_v8_apply, val_main_v7_apply]
  unfold val_main_v6
  rw [gather_label L C _ r d (v5_at L hl r) (hl _)]
  rfl

/-- The sum of the rows' roots is the specification's sum of distances. -/
theorem v11_at (hl : ∀ i, (L i).toNat < 1000) (i : S_.Idx) :
    val_main_v11 (F := Ideal) X L C i = Cert.CenterSpec.lossSum X L C := by
  rw [val_main_v11_apply, val_main_cst_1_apply, Ideal.ofBits_def, Ideal.ofBits_zero_f32, zero_add, sum_idx1]
  unfold Cert.CenterSpec.lossSum
  rw [← Fin.sum_univ_eq_sum_range (fun N => Cert.CenterSpec.distAt X L C N) 262144]
  exact Finset.sum_congr rfl fun r _ => v10_at X L C hl r

/-- The first result is the loss of the summed distances. -/
theorem v13_eq (hl : ∀ i, (L i).toNat < 1000) :
    val_main_v13 (F := Ideal) X L C = Cert.CenterSpec.lossOf (Cert.CenterSpec.lossSum X L C) := by
  funext i
  rw [val_main_v13_apply, val_main_v12_apply, v11_at X L C hl, val_main_cst_2_apply, val_main_cst_3_apply]
  rfl

/-- The first scatter's result is the table of segment sums. -/
theorem v16_eq (hl : ∀ i, (L i).toNat < 1000) :
    val_main_v16 (F := Ideal) X L = Cert.CenterSpec.segSumArr X L := by
  unfold val_main_v16
  refine scatter_rows_label X L _ _ (fun i => ?_) (fun e => v15_at L e) hl
  rw [val_main_v14_apply, val_main_cst_4_apply, Ideal.ofBits_def, Ideal.ofBits_zero_f32]

/-- The second scatter's result is the vector of segment counts. -/
theorem v20_eq (hl : ∀ i, (L i).toNat < 1000) :
    val_main_v20 (F := Ideal) L = Cert.CenterSpec.segCntArr L := by
  unfold val_main_v20
  refine scatter_vec_label L _ _ _ (fun i => ?_) (fun i => ?_) (fun e => v19_at L e) hl
  · rw [val_main_v18_apply, val_main_cst_6_apply, Ideal.ofBits_def, Ideal.ofBits_zero_f32]
  · rw [val_main_v17_apply, val_main_cst_5_apply, Ideal.ofBits_def, Cert.RefValue.ofBits_one]

/-- The second result is the shared last stretch on the segment sums, the segment counts and the old centers. -/
theorem v33_eq (hl : ∀ i, (L i).toNat < 1000) :
    val_main_v33 (F := Ideal) X L C
      = Cert.CenterTail.newCenters (Cert.CenterSpec.segSumArr X L) (Cert.CenterSpec.segCntArr L) C := by
  rw [← v16_eq X L hl, ← v20_eq L hl]
  rfl

end Stages

variable (m : (ℓ : Loc nD τ sig) → Buf (Elt Ideal) ℓ) (ρ : Dev nD → PrngReg)

/-- The reference's run ends with the loss of the summed distances and the new centers of the segment sums and counts,
    its arguments unchanged. -/
theorem ref_run (hl : ∀ (c : Dev nD) (i : S262144.Idx), (m ((c.tc : Thread nD τ).loc main_arg1) i).toNat < 1000) :
    θ_run (defs (F := Ideal)) (onTc (τ := τ) (main (F := Ideal))) ⟨m, fun _ => 0, ρ⟩ (fun r => ∀ c : Dev nD,
      r.2.mem ((c.tc : Thread nD τ).loc main_v13)
          = Cert.CenterSpec.lossOf (Cert.CenterSpec.lossSum (m ((c.tc : Thread nD τ).loc main_arg0))
              (m ((c.tc : Thread nD τ).loc main_arg1)) (m ((c.tc : Thread nD τ).loc main_arg2)))
      ∧ r.2.mem ((c.tc : Thread nD τ).loc main_v33)
          = Cert.CenterTail.newCenters
              (Cert.CenterSpec.segSumArr (m ((c.tc : Thread nD τ).loc main_arg0)) (m ((c.tc : Thread nD τ).loc main_arg1)))
              (Cert.CenterSpec.segCntArr (m ((c.tc : Thread nD τ).loc main_arg1)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (defs (F := Ideal)) _ _).mono (fun _ h c => ⟨(h c).1.trans ?_, (h c).2.1.trans ?_, (h c).2.2⟩)
    (Cert.ReferenceIdeal.ValueP.run (F := Ideal) m ρ)
  · exact (Cert.ReferenceIdeal.ReadP.val_main_v13_eq (F := Ideal) _ _ _).trans (v13_eq _ _ _ (hl c))
  · exact (Cert.ReferenceIdeal.ReadP.val_main_v33_eq (F := Ideal) _ _ _).trans (v33_eq _ _ _ (hl c))

end Cert.CenterRef

end
-- ==== Proof.OutArrays.lean ====
import proofs.«422883_j76115410420300_3_alg».proof.Proof.Gen.KernelIdeal.Frame
import Idealize.ShloMosaic.Lib.ValueIdx

/-!
  The three arrays the region writes, after its last write-back, named at their literal types: per shard the
  segment sums (2 × 1024 × 256), the segment counts (2 × 1 × 1024) and the summed distances (2 × 1 × 1).
-/

noncomputable section

namespace Cert.CenterOut

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The per-shard segment sums after the region. -/
abbrev A3 (c : Dev nD) : FVec Ideal S2x1024x256 .f32 := (dats m 0 c).arrAt 3 cfg0.N
/-- The per-shard segment counts after the region. -/
abbrev A4 (c : Dev nD) : FVec Ideal S2x1x1024 .f32 := (dats m 0 c).arrAt 4 cfg0.N
/-- The per-shard summed distances after the region. -/
abbrev A5 (c : Dev nD) : FVec Ideal S2x1x1 .f32 := (dats m 0 c).arrAt 5 cfg0.N

end Cert.CenterOut

end
-- ==== Proof.KernelTail.lean ====
import proofs.«422883_j76115410420300_3_alg».proof.Proof.OutArrays
import proofs.«422883_j76115410420300_3_alg».proof.Proof.Tail
import Idealize.ShloMosaic.Lib.ValueIdx
import Idealize.ShloMosaic.Lib.Pipeline.Value
import Idealize.ShloMosaic.Lib.StableHlo.Run
import Idealize.ShloMosaic.PureOps.Ideal.Laws

/-!
  The kernel's program after its region: the two shards' blocks of each output are added, the sums and counts are cut
  back from 1024 padded classes to the 1000 classes, and the rest is the arithmetic shared with the reference. The
  run of the whole program is restated with the three output arrays named, so that its two results are those
  operations of them.
-/

set_option maxRecDepth 16384

noncomputable section

namespace Cert.CenterOut

open Idealize.ShloMosaic Idealize.ShloMosaic.TcCoe Idealize.SL.Sem Idealize.ShloMosaic.ValueIdx
open Cert.KernelIdeal Cert.KernelIdeal.Gen

/-- The segment sums from the per-shard ones: the two shards added, the 24 padding classes cut off. -/
def sumsOf (A : FVec Ideal S2x1024x256 .f32) : FVec Ideal S1000x256 .f32 :=
  extractStridedSlice S1000x256 ![0, 0]
    (Host.reduceAdd A (constant (F := Ideal) S_ .f32 0x00000000#32) reducesTo_S2x1024x256_S1024x256_d0 h_S_)
    slices_S1024x256_S1000x256_0_0

/-- The segment counts from the per-shard ones: the two shards added, the padding cut off, the unit axis dropped. -/
def cntOf (A : FVec Ideal S2x1x1024 .f32) : FVec Ideal S1000 .f32 :=
  shapeCast S1000
    (extractStridedSlice S1x1000 ![0, 0]
      (Host.reduceAdd A (constant (F := Ideal) S_ .f32 0x00000000#32) reducesTo_S2x1x1024_S1x1024_d0 h_S_)
      slices_S1x1024_S1x1000_0_0)
    shapeCasts_S1x1000_S1000

/-- The summed distances from the per-shard ones. -/
def lossSumOf (A : FVec Ideal S2x1x1 .f32) : FVec Ideal S_ .f32 :=
  Host.reduceAdd A (constant (F := Ideal) S_ .f32 0x00000000#32) reducesTo_S2x1x1_S_d0_1_2 h_S_

/-- Entry (k, d) of the segment sums is the sum of the two shards' entries. -/
theorem sumsOf_apply (A : FVec Ideal S2x1024x256 .f32) (k : Fin 1000) (d : Fin 256) :
    sumsOf A (ix2 k d)
      = A (ix3 (0 : Fin 2) (⟨k.val, by omega⟩ : Fin 1024) d) + A (ix3 (1 : Fin 2) (⟨k.val, by omega⟩ : Fin 1024) d) := by
  unfold sumsOf
  rw [extractStridedSlice_apply ![0, 0] _ slices_S1024x256_S1000x256_0_0 (ix2 k d) (ix2 (⟨k.val, by omega⟩ : Fin 1024) d)
    (fun a => by match a with | ⟨0, _⟩ => exact (Nat.zero_add _).symm | ⟨1, _⟩ => exact (Nat.zero_add _).symm)]
  simp only [Host.reduceAdd, Ideal.hostReduceAdd_def]
  rw [Ideal.hostReduceAdd_single reducesTo_S2x1024x256_S1024x256_d0 (by decide)]
  show Ideal.ofBits .f32 0x00000000#32 + ∑ s : Fin 2, A _ = _
  rw [Ideal.ofBits_zero_f32, zero_add, Fin.sum_univ_two]
  refine congrArg₂ (· + ·) (congrArg A ?_) (congrArg A ?_) <;>
    exact funext fun a => Fin.ext (by match a with | ⟨0, _⟩ => rfl | ⟨1, _⟩ => rfl | ⟨2, _⟩ => rfl)

/-- Entry k of the segment counts is the sum of the two shards' entries. -/
theorem cntOf_apply (A : FVec Ideal S2x1x1024 .f32) (k : Fin 1000) :
    cntOf A (ix1 k)
      = A (ix3 (0 : Fin 2) (0 : Fin 1) (⟨k.val, by omega⟩ : Fin 1024))
        + A (ix3 (1 : Fin 2) (0 : Fin 1) (⟨k.val, by omega⟩ : Fin 1024)) := by
  unfold cntOf
  rw [shapeCast_apply _ shapeCasts_S1x1000_S1000 (ix1 k) (ix2 (0 : Fin 1) k)
    (by rw [Shape.rowMajor_val_two, Shape.rowMajor_val_one]; show 0 * 1000 + k.val = k.val; omega)]
  rw [extractStridedSlice_apply ![0, 0] _ slices_S1x1024_S1x1000_0_0 (ix2 (0 : Fin 1) k) (ix2 (0 : Fin 1) (⟨k.val, by omega⟩ : Fin 1024))
    (fun a => by match a with | ⟨0, _⟩ => exact (Nat.zero_add _).symm | ⟨1, _⟩ => exact (Nat.zero_add _).symm)]
  simp only [Host.reduceAdd, Ideal.hostReduceAdd_def]
  rw [Ideal.hostReduceAdd_single reducesTo_S2x1x1024_S1x1024_d0 (by decide)]
  show Ideal.ofBits .f32 0x00000000#32 + ∑ s : Fin 2, A _ = _
  rw [Ideal.ofBits_zero_f32, zero_add, Fin.sum_univ_two]
  refine congrArg₂ (· + ·) (congrArg A ?_) (congrArg A ?_) <;>
    exact funext fun a => Fin.ext (by match a with | ⟨0, _⟩ => rfl | ⟨1, _⟩ => rfl | ⟨2, _⟩ => rfl)

/-- The indices of a 2 × 1 × 1 array are its two shards: the other two coordinates are 0. -/
def shardEquiv : Fin 2 ≃ S2x1x1.Idx where
  toFun s := ix3 s (0 : Fin 1) (0 : Fin 1)
  invFun j := ⟨(j 0).val, (j 0).isLt⟩
  left_inv s := rfl
  right_inv j := by
    funext a
    apply Fin.ext
    match a with
    | ⟨0, _⟩ => rfl
    | ⟨1, _⟩ =>
      have h : (j 1).val < 1 := (j 1).isLt
      show 0 = (j 1).val
      omega
    | ⟨2, _⟩ =>
      have h : (j 2).val < 1 := (j 2).isLt
      show 0 = (j 2).val
      omega

/-- The summed distances are the sum of the two shards'. -/
theorem lossSumOf_apply (A : FVec Ideal S2x1x1 .f32) (i : S_.Idx) :
    lossSumOf A i = A (ix3 (0 : Fin 2) (0 : Fin 1) (0 : Fin 1)) + A (ix3 (1 : Fin 2) (0 : Fin 1) (0 : Fin 1)) := by
  unfold lossSumOf
  simp only [Host.reduceAdd, Ideal.hostReduceAdd_def]
  rw [Ideal.hostReduceAdd_total reducesTo_S2x1x1_S_d0_1_2 (fun b => b.elim0)]
  show Ideal.ofBits .f32 0x00000000#32 + _ = _
  rw [Ideal.ofBits_zero_f32, zero_add, ← Equiv.sum_comp shardEquiv A, Fin.sum_univ_two]
  rfl

variable (m : (ℓ : Loc nD τ sig) → Buf (Elt Ideal) ℓ) (ρ : Dev nD → PrngReg)

/-- The contents the program's tail starts from: window w's array is what the region left there. -/
theorem tailStart_arr (c : Dev nD) (w : Fin 6) :
    Pipeline.withArrays (cfgs 0).spec c (V0 m c) (fun w => (dats (F := Ideal) m 0 c).arrAt w (cfgs 0).N)
        (Proc.devRef .tc (Pipeline.arrRef spec0 w)) = (dats (F := Ideal) m 0 c).arrAt w cfg0.N :=
  Pipeline.withArrays_arr spec0 launch0.win.arr_inj c _ _ w

/-- The tail starts from the centers as launched: no window stages them and no operation before the region writes them. -/
theorem tailStart_arg2 (c : Dev nD) :
    Pipeline.withArrays (cfgs 0).spec c (V0 m c) (fun w => (dats (F := Ideal) m 0 c).arrAt w (cfgs 0).N)
        (Proc.devRef .tc main_arg2) = m ((c.tc : Thread nD τ).loc main_arg2) :=
  (Pipeline.withArrays_of_ne _ c (V0 m c) _ main_arg2 (by exact (by decide : ∀ w, Pipeline.arrRef spec0 w ≠ main_arg2))).trans
    (V_main_arg2 m c)

/-- The loss buffer after the tail: of the tail's operations only the sum of the per-shard distances and the two
    divisions reach it. -/
theorem tail_v11 (c : Dev nD) :
    Pipeline.afterTail₀ cfgs (dats (F := Ideal) m) 0 (V0 m) [hostOps1, hostOps1_1] c main_v11
      = Host.divf (Host.divf (lossSumOf (A5 m c)) (constant (F := Ideal) S_ .f32 0x48800000#32))
              (constant (F := Ideal) S_ .f32 0x40000000#32) := by
  unfold Pipeline.afterTail₀
  simp only [List.flatten_cons, List.flatten_nil, List.append_nil, hostOps1, hostOps1_1, List.cons_append, List.nil_append]
  show StableHlo.after _ _ (Proc.devRef .tc main_v11) = _
  after_results
  have e5 : Pipeline.withArrays (cfgs 0).spec c (V0 m c) (fun w => (dats (F := Ideal) m 0 c).arrAt w (cfgs 0).N)
      (Proc.devRef .tc main_v3_2) = A5 m c := tailStart_arr m c 5
  rw [e5]
  rfl

/-- The new-centers buffer after the tail: the tail's operations composed, from the per-shard sums and counts the
    region left and the centers as launched. -/
theorem tail_v24 (c : Dev nD) :
    Pipeline.afterTail₀ cfgs (dats (F := Ideal) m) 0 (V0 m) [hostOps1, hostOps1_1] c main_v24
      = Cert.CenterTail.newCenters (sumsOf (A3 m c)) (cntOf (A4 m c)) (m ((c.tc : Thread nD τ).loc main_arg2)) := by
  unfold Pipeline.afterTail₀
  simp only [List.flatten_cons, List.flatten_nil, List.append_nil, hostOps1, hostOps1_1, List.cons_append, List.nil_append]
  show StableHlo.after _ _ (Proc.devRef .tc main_v24) = _
  open Idealize.ShloMosaic.StableHlo in after_results_simp
  have e3 : Pipeline.withArrays (cfgs 0).spec c (V0 m c) (fun w => (dats (F := Ideal) m 0 c).arrAt w (cfgs 0).N)
      (Proc.devRef .tc main_v3_0) = A3 m c := tailStart_arr m c 3
  have e4 : Pipeline.withArrays (cfgs 0).spec c (V0 m c) (fun w => (dats (F := Ideal) m 0 c).arrAt w (cfgs 0).N)
      (Proc.devRef .tc main_v3_1) = A4 m c := tailStart_arr m c 4
  rw [e3, e4, tailStart_arg2 m c]
  unfold Cert.CenterTail.newCenters sumsOf cntOf
  rfl

/-- The kernel's run with the three output arrays named: the loss is the summed distances divided by the number of
    rows and by two, the new centers the shared arithmetic of the summed sums and counts; the arguments unchanged. -/
theorem kernel_run_named :
    θ_run (defs (F := Ideal)) (onTc (τ := τ) (main (F := Ideal))) ⟨m, fun _ => 0, ρ⟩ (fun r => ∀ c : Dev nD,
      r.2.mem ((c.tc : Thread nD τ).loc main_v11)
          = Host.divf (Host.divf (lossSumOf (A5 m c)) (constant (F := Ideal) S_ .f32 0x48800000#32))
              (constant (F := Ideal) S_ .f32 0x40000000#32)
      ∧ r.2.mem ((c.tc : Thread nD τ).loc main_v24)
          = Cert.CenterTail.newCenters (sumsOf (A3 m c)) (cntOf (A4 m c)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v11 (Pipeline.mem_restRefs_of main_v11 (by decide) (by decide))).trans (tail_v11 m c),
     ((h c).2 main_v24 (Pipeline.mem_restRefs_of main_v24 (by decide) (by decide))).trans (tail_v24 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main (F := Ideal) m ρ)

end Cert.CenterOut

end
-- ==== Proof.PiecesBase.lean ====
import Idealize.ShloMosaic.Lib.Pipeline.Value
import Idealize.ShloMosaic.Lib.Pipeline.Value

set_option maxRecDepth 16384

noncomputable section

namespace Cert.CenterPieces

open Idealize.ShloMosaic Idealize.ShloMosaic.TcCoe Idealize.ShloMosaic.Tactic
open Idealize.SL Idealize.SL.Sem

variable {F : FTy → Type} [FloatOps F]

/-- The zero offsets of a rank-2 and of a rank-3 whole store. -/
theorem hz2 : (![0, 0] : Fin 2 → Nat) = fun _ => 0 := by funext a; fin_cases a <;> rfl
theorem hz3 : (![0, 0, 0] : Fin 3 → Nat) = fun _ => 0 := by funext a; fin_cases a <;> rfl

end Cert.CenterPieces

end
-- ==== Proof.PiecesA.lean ====
import proofs.«422883_j76115410420300_3_alg».proof.Proof.Gen.KernelIdeal.Frame
import proofs.«422883_j76115410420300_3_alg».proof.Proof.PiecesBase
import Idealize.ShloMosaic.Lib.Pipeline.Value

set_option maxRecDepth 16384

noncomputable section

/-!
  What each case of the body leaves in each buffer it carries to the next grid point, as the body's own stored value:
  a buffer stored whole holds the last value stored, and a load that follows a whole store in the same run reads
  that stored value back.
-/

namespace Cert.CenterPieces

open Idealize.ShloMosaic Idealize.ShloMosaic.TcCoe Idealize.ShloMosaic.Tactic
open Idealize.SL Idealize.SL.Sem
open Cert.KernelIdeal Cert.KernelIdeal.Gen

variable {F : FTy → Type} [FloatOps F]

/-! ## The first tile of a shard: the three accumulators are reset and then updated, the centers are split -/

theorem sout0_A_0_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : cond0_0 i) (hc1 : ¬cond0_1 i)
    (x0 : Vec F S1x2048x256 .f32) (x1 : Vec F S1x2048x1 .i32) (x2 : Vec F S1024x256 .f32) :
    sout0_A_0 c i arg2 harg2 arg3 harg3 arg4 harg4 arg5 harg5 arg6 harg6 arg7 harg7 arg8 harg8 arg9 harg9 arg10 harg10 arg11 harg11 arg12 harg12 hc0 hc1 x0 x1 x2 = k0_pay2 (k0_pay12 x0) (k0_pay14 x1) (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_cons_unit_zero (S := S1024x256) hz2]
  simp only [View.readAt_eq_ld, harg2.read_unread, harg3.read_unread, harg4.read_unread,
    View.ld_unit_zero (S := S1x2048x256) hz3, View.ld_unit_zero (S := S1x2048x1) hz3, View.ld_unit_zero (S := S1024x256) hz2,
    View.readCov_unit_zero (S := S1024x256) _ hz2, View.readCov_unit_zero (S := S1x1024) _ hz2, View.readCov_unit_zero (S := S1x1) _ hz2]

theorem sout0_A_1_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : cond0_0 i) (hc1 : ¬cond0_1 i)
    (x0 : Vec F S1x2048x256 .f32) (x1 : Vec F S1x2048x1 .i32) (x2 : Vec F S1024x256 .f32) :
    sout0_A_1 c i arg2 harg2 arg3 harg3 arg4 harg4 arg5 harg5 arg6 harg6 arg7 harg7 arg8 harg8 arg9 harg9 arg10 harg10 arg11 harg11 arg12 harg12 hc0 hc1 x0 x1 x2 = k0_pay15 x1 (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_cons_unit_zero (S := S1x1024) hz2]
  simp only [View.readAt_eq_ld, harg2.read_unread, harg3.read_unread, harg4.read_unread,
    View.ld_unit_zero (S := S1x2048x256) hz3, View.ld_unit_zero (S := S1x2048x1) hz3, View.ld_unit_zero (S := S1024x256) hz2,
    View.readCov_unit_zero (S := S1024x256) _ hz2, View.readCov_unit_zero (S := S1x1024) _ hz2, View.readCov_unit_zero (S := S1x1) _ hz2]

theorem sout0_A_2_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : cond0_0 i) (hc1 : ¬cond0_1 i)
    (x0 : Vec F S1x2048x256 .f32) (x1 : Vec F S1x2048x1 .i32) (x2 : Vec F S1024x256 .f32) :
    sout0_A_2 c i arg2 harg2 arg3 harg3 arg4 harg4 arg5 harg5 arg6 harg6 arg7 harg7 arg8 harg8 arg9 harg9 arg10 harg10 arg11 harg11 arg12 harg12 hc0 hc1 x0 x1 x2 = k0_pay1 (k0_pay16 x0 x1 (k0_pay10 x2) (k0_pay11 x2)) (k0_pay8 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_cons_unit_zero (S := S1x1) hz2]
  simp only [View.readAt_eq_ld, harg2.read_unread, harg3.read_unread, harg4.read_unread,
    View.ld_unit_zero (S := S1x2048x256) hz3, View.ld_unit_zero (S := S1x2048x1) hz3, View.ld_unit_zero (S := S1024x256) hz2,
    View.readCov_unit_zero (S := S1024x256) _ hz2, View.readCov_unit_zero (S := S1x1024) _ hz2, View.readCov_unit_zero (S := S1x1) _ hz2]

theorem sout0_A_3_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : cond0_0 i) (hc1 : ¬cond0_1 i)
    (x0 : Vec F S1x2048x256 .f32) (x1 : Vec F S1x2048x1 .i32) (x2 : Vec F S1024x256 .f32) :
    sout0_A_3 c i arg2 harg2 arg3 harg3 arg4 harg4 arg5 harg5 arg6 harg6 arg7 harg7 arg8 harg8 arg9 harg9 arg10 harg10 arg11 harg11 arg12 harg12 hc0 hc1 x0 x1 x2 = k0_pay10 x2 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_unit_zero (S := S1024x256) hz2]
  simp only [View.readAt_eq_ld, harg2.read_unread, harg3.read_unread, harg4.read_unread,
    View.ld_unit_zero (S := S1x2048x256) hz3, View.ld_unit_zero (S := S1x2048x1) hz3, View.ld_unit_zero (S := S1024x256) hz2,
    View.readCov_unit_zero (S := S1024x256) _ hz2, View.readCov_unit_zero (S := S1x1024) _ hz2, View.readCov_unit_zero (S := S1x1) _ hz2]

theorem sout0_A_4_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : cond0_0 i) (hc1 : ¬cond0_1 i)
    (x0 : Vec F S1x2048x256 .f32) (x1 : Vec F S1x2048x1 .i32) (x2 : Vec F S1024x256 .f32) :
    sout0_A_4 c i arg2 harg2 arg3 harg3 arg4 harg4 arg5 harg5 arg6 harg6 arg7 harg7 arg8 harg8 arg9 harg9 arg10 harg10 arg11 harg11 arg12 harg12 hc0 hc1 x0 x1 x2 = k0_pay11 x2 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_unit_zero (S := S1024x256) hz2]
  simp only [View.readAt_eq_ld, harg2.read_unread, harg3.read_unread, harg4.read_unread,
    View.ld_unit_zero (S := S1x2048x256) hz3, View.ld_unit_zero (S := S1x2048x1) hz3, View.ld_unit_zero (S := S1024x256) hz2,
    View.readCov_unit_zero (S := S1024x256) _ hz2, View.readCov_unit_zero (S := S1x1024) _ hz2, View.readCov_unit_zero (S := S1x1) _ hz2]

end Cert.CenterPieces

end
-- ==== Proof.PiecesB.lean ====
import proofs.«422883_j76115410420300_3_alg».proof.Proof.Gen.KernelIdeal.Frame
import proofs.«422883_j76115410420300_3_alg».proof.Proof.PiecesBase
import Idealize.ShloMosaic.Lib.Pipeline.Value

set_option maxRecDepth 16384

noncomputable section

/-!
  A tile that is neither the first nor the last of its shard: each accumulator is what the tile before left plus
  this tile's part, and the split centers are carried unchanged.
-/

namespace Cert.CenterPieces

open Idealize.ShloMosaic Idealize.ShloMosaic.TcCoe Idealize.ShloMosaic.Tactic
open Idealize.SL Idealize.SL.Sem
open Cert.KernelIdeal Cert.KernelIdeal.Gen

variable {F : FTy → Type} [FloatOps F]

theorem sout0_B_0_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : ¬cond0_0 i) (hc1 : ¬cond0_1 i)
    (x0 : Vec F S1x2048x256 .f32) (x1 : Vec F S1x2048x1 .i32) (x2 : Vec F S1024x256 .f32) (xs0 : Vec F S1024x256 .f32) (xs1 : Vec F S1x1024 .f32) (xs2 : Vec F S1x1 .f32) (xs3 : Vec F S1024x256 .bf16) (xs4 : Vec F S1024x256 .bf16) :
    sout0_B_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 = k0_pay2 (k0_pay12 x0) (k0_pay14 x1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4)]
  unfold kernelRun0_B
  dsimp only
  sl_unfold_words
  rw [View.canon_unit_zero (S := S1024x256) hz2]
  simp only [View.readAt_eq_ld, harg2.read_unread, harg3.read_unread, harg4.read_unread, harg8.read_unread, harg9.read_unread,
    harg10.read_unread, harg11.read_unread, harg12.read_unread,
    View.ld_unit_zero (S := S1x2048x256) hz3, View.ld_unit_zero (S := S1x2048x1) hz3, View.ld_unit_zero (S := S1024x256) hz2,
    View.ld_unit_zero (S := S1x1024) hz2, View.ld_unit_zero (S := S1x1) hz2,
    View.readCov_unit_zero (S := S1024x256) _ hz2, View.readCov_unit_zero (S := S1x1024) _ hz2, View.readCov_unit_zero (S := S1x1) _ hz2]

theorem sout0_B_1_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : ¬cond0_0 i) (hc1 : ¬cond0_1 i)
    (x0 : Vec F S1x2048x256 .f32) (x1 : Vec F S1x2048x1 .i32) (x2 : Vec F S1024x256 .f32) (xs0 : Vec F S1024x256 .f32) (xs1 : Vec F S1x1024 .f32) (xs2 : Vec F S1x1 .f32) (xs3 : Vec F S1024x256 .bf16) (xs4 : Vec F S1024x256 .bf16) :
    sout0_B_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 = k0_pay15 x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4)]
  unfold kernelRun0_B
  dsimp only
  sl_unfold_words
  rw [View.canon_unit_zero (S := S1x1024) hz2]
  simp only [View.readAt_eq_ld, harg2.read_unread, harg3.read_unread, harg4.read_unread, harg8.read_unread, harg9.read_unread,
    harg10.read_unread, harg11.read_unread, harg12.read_unread,
    View.ld_unit_zero (S := S1x2048x256) hz3, View.ld_unit_zero (S := S1x2048x1) hz3, View.ld_unit_zero (S := S1024x256) hz2,
    View.ld_unit_zero (S := S1x1024) hz2, View.ld_unit_zero (S := S1x1) hz2,
    View.readCov_unit_zero (S := S1024x256) _ hz2, View.readCov_unit_zero (S := S1x1024) _ hz2, View.readCov_unit_zero (S := S1x1) _ hz2]

theorem sout0_B_2_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : ¬cond0_0 i) (hc1 : ¬cond0_1 i)
    (x0 : Vec F S1x2048x256 .f32) (x1 : Vec F S1x2048x1 .i32) (x2 : Vec F S1024x256 .f32) (xs0 : Vec F S1024x256 .f32) (xs1 : Vec F S1x1024 .f32) (xs2 : Vec F S1x1 .f32) (xs3 : Vec F S1024x256 .bf16) (xs4 : Vec F S1024x256 .bf16) :
    sout0_B_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 = k0_pay1 (k0_pay16 x0 x1 xs3 xs4) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4)]
  unfold kernelRun0_B
  dsimp only
  sl_unfold_words
  rw [View.canon_unit_zero (S := S1x1) hz2]
  simp only [View.readAt_eq_ld, harg2.read_unread, harg3.read_unread, harg4.read_unread, harg8.read_unread, harg9.read_unread,
    harg10.read_unread, harg11.read_unread, harg12.read_unread,
    View.ld_unit_zero (S := S1x2048x256) hz3, View.ld_unit_zero (S := S1x2048x1) hz3, View.ld_unit_zero (S := S1024x256) hz2,
    View.ld_unit_zero (S := S1x1024) hz2, View.ld_unit_zero (S := S1x1) hz2,
    View.readCov_unit_zero (S := S1024x256) _ hz2, View.readCov_unit_zero (S := S1x1024) _ hz2, View.readCov_unit_zero (S := S1x1) _ hz2]

theorem sout0_B_3_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : ¬cond0_0 i) (hc1 : ¬cond0_1 i)
    (x0 : Vec F S1x2048x256 .f32) (x1 : Vec F S1x2048x1 .i32) (x2 : Vec F S1024x256 .f32) (xs0 : Vec F S1024x256 .f32) (xs1 : Vec F S1x1024 .f32) (xs2 : Vec F S1x1 .f32) (xs3 : Vec F S1024x256 .bf16) (xs4 : Vec F S1024x256 .bf16) :
    sout0_B_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 = xs3 := rfl

theorem sout0_B_4_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : ¬cond0_0 i) (hc1 : ¬cond0_1 i)
    (x0 : Vec F S1x2048x256 .f32) (x1 : Vec F S1x2048x1 .i32) (x2 : Vec F S1024x256 .f32) (xs0 : Vec F S1024x256 .f32) (xs1 : Vec F S1x1024 .f32) (xs2 : Vec F S1x1 .f32) (xs3 : Vec F S1024x256 .bf16) (xs4 : Vec F S1024x256 .bf16) :
    sout0_B_4 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 = xs4 := rfl

end Cert.CenterPieces

end
-- ==== Proof.PiecesC.lean ====
import proofs.«422883_j76115410420300_3_alg».proof.Proof.Gen.KernelIdeal.Frame
import proofs.«422883_j76115410420300_3_alg».proof.Proof.PiecesBase
import Idealize.ShloMosaic.Lib.Pipeline.Value

set_option maxRecDepth 16384

noncomputable section

/-!
  The last tile of a shard: the accumulators are updated as at any later tile, and each is then written out, with a
  leading unit axis, as the shard's block of its output.
-/

namespace Cert.CenterPieces

open Idealize.ShloMosaic Idealize.ShloMosaic.TcCoe Idealize.ShloMosaic.Tactic
open Idealize.SL Idealize.SL.Sem
open Cert.KernelIdeal Cert.KernelIdeal.Gen

variable {F : FTy → Type} [FloatOps F]

theorem sout0_C_0_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : ¬cond0_0 i) (hc1 : cond0_1 i)
    (x0 : Vec F S1x2048x256 .f32) (x1 : Vec F S1x2048x1 .i32) (x2 : Vec F S1024x256 .f32) (xs0 : Vec F S1024x256 .f32) (xs1 : Vec F S1x1024 .f32) (xs2 : Vec F S1x1 .f32) (xs3 : Vec F S1024x256 .bf16) (xs4 : Vec F S1024x256 .bf16) :
    sout0_C_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 = k0_pay2 (k0_pay12 x0) (k0_pay14 x1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4)]
  unfold kernelRun0_C
  dsimp only
  sl_unfold_words
  rw [View.canon_unit_zero (S := S1024x256) hz2]
  simp only [View.readAt_eq_ld, harg2.read_unread, harg3.read_unread, harg4.read_unread, harg8.read_unread, harg9.read_unread,
    harg10.read_unread, harg11.read_unread, harg12.read_unread,
    View.ld_unit_zero (S := S1x2048x256) hz3, View.ld_unit_zero (S := S1x2048x1) hz3, View.ld_unit_zero (S := S1024x256) hz2,
    View.ld_unit_zero (S := S1x1024) hz2, View.ld_unit_zero (S := S1x1) hz2,
    View.readCov_unit_zero (S := S1024x256) _ hz2, View.readCov_unit_zero (S := S1x1024) _ hz2, View.readCov_unit_zero (S := S1x1) _ hz2]

theorem sout0_C_1_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : ¬cond0_0 i) (hc1 : cond0_1 i)
    (x0 : Vec F S1x2048x256 .f32) (x1 : Vec F S1x2048x1 .i32) (x2 : Vec F S1024x256 .f32) (xs0 : Vec F S1024x256 .f32) (xs1 : Vec F S1x1024 .f32) (xs2 : Vec F S1x1 .f32) (xs3 : Vec F S1024x256 .bf16) (xs4 : Vec F S1024x256 .bf16) :
    sout0_C_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 = k0_pay15 x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4)]
  unfold kernelRun0_C
  dsimp only
  sl_unfold_words
  rw [View.canon_unit_zero (S := S1x1024) hz2]
  simp only [View.readAt_eq_ld, harg2.read_unread, harg3.read_unread, harg4.read_unread, harg8.read_unread, harg9.read_unread,
    harg10.read_unread, harg11.read_unread, harg12.read_unread,
    View.ld_unit_zero (S := S1x2048x256) hz3, View.ld_unit_zero (S := S1x2048x1) hz3, View.ld_unit_zero (S := S1024x256) hz2,
    View.ld_unit_zero (S := S1x1024) hz2, View.ld_unit_zero (S := S1x1) hz2,
    View.readCov_unit_zero (S := S1024x256) _ hz2, View.readCov_unit_zero (S := S1x1024) _ hz2, View.readCov_unit_zero (S := S1x1) _ hz2]

theorem sout0_C_2_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : ¬cond0_0 i) (hc1 : cond0_1 i)
    (x0 : Vec F S1x2048x256 .f32) (x1 : Vec F S1x2048x1 .i32) (x2 : Vec F S1024x256 .f32) (xs0 : Vec F S1024x256 .f32) (xs1 : Vec F S1x1024 .f32) (xs2 : Vec F S1x1 .f32) (xs3 : Vec F S1024x256 .bf16) (xs4 : Vec F S1024x256 .bf16) :
    sout0_C_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 = k0_pay1 (k0_pay16 x0 x1 xs3 xs4) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4)]
  unfold kernelRun0_C
  dsimp only
  sl_unfold_words
  rw [View.canon_unit_zero (S := S1x1) hz2]
  simp only [View.readAt_eq_ld, harg2.read_unread, harg3.read_unread, harg4.read_unread, harg8.read_unread, harg9.read_unread,
    harg10.read_unread, harg11.read_unread, harg12.read_unread,
    View.ld_unit_zero (S := S1x2048x256) hz3, View.ld_unit_zero (S := S1x2048x1) hz3, View.ld_unit_zero (S := S1024x256) hz2,
    View.ld_unit_zero (S := S1x1024) hz2, View.ld_unit_zero (S := S1x1) hz2,
    View.readCov_unit_zero (S := S1024x256) _ hz2, View.readCov_unit_zero (S := S1x1024) _ hz2, View.readCov_unit_zero (S := S1x1) _ hz2]

theorem sout0_C_3_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : ¬cond0_0 i) (hc1 : cond0_1 i)
    (x0 : Vec F S1x2048x256 .f32) (x1 : Vec F S1x2048x1 .i32) (x2 : Vec F S1024x256 .f32) (xs0 : Vec F S1024x256 .f32) (xs1 : Vec F S1x1024 .f32) (xs2 : Vec F S1x1 .f32) (xs3 : Vec F S1024x256 .bf16) (xs4 : Vec F S1024x256 .bf16) :
    sout0_C_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 = xs3 := rfl

theorem sout0_C_4_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : ¬cond0_0 i) (hc1 : cond0_1 i)
    (x0 : Vec F S1x2048x256 .f32) (x1 : Vec F S1x2048x1 .i32) (x2 : Vec F S1024x256 .f32) (xs0 : Vec F S1024x256 .f32) (xs1 : Vec F S1x1024 .f32) (xs2 : Vec F S1x1 .f32) (xs3 : Vec F S1024x256 .bf16) (xs4 : Vec F S1024x256 .bf16) :
    sout0_C_4 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 = xs4 := rfl

theorem out0_C_3_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : ¬cond0_0 i) (hc1 : cond0_1 i)
    (x0 : Vec F S1x2048x256 .f32) (x1 : Vec F S1x2048x1 .i32) (x2 : Vec F S1024x256 .f32) (xs0 : Vec F S1024x256 .f32) (xs1 : Vec F S1x1024 .f32) (xs2 : Vec F S1x1 .f32) (xs3 : Vec F S1024x256 .bf16) (xs4 : Vec F S1024x256 .bf16) :
    out0_C_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 = k0_pay3 (k0_pay2 (k0_pay12 x0) (k0_pay14 x1) xs0) := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4)]
  unfold kernelRun0_C
  dsimp only
  sl_unfold_words
  rw [View.canon_unit_zero (S := S1x1024x256) hz3]
  simp only [View.readAt_eq_ld, harg2.read_unread, harg3.read_unread, harg4.read_unread, harg8.read_unread, harg9.read_unread,
    harg10.read_unread, harg11.read_unread, harg12.read_unread,
    View.ld_unit_zero (S := S1x2048x256) hz3, View.ld_unit_zero (S := S1x2048x1) hz3, View.ld_unit_zero (S := S1024x256) hz2,
    View.ld_unit_zero (S := S1x1024) hz2, View.ld_unit_zero (S := S1x1) hz2,
    View.readCov_unit_zero (S := S1024x256) _ hz2, View.readCov_unit_zero (S := S1x1024) _ hz2, View.readCov_unit_zero (S := S1x1) _ hz2]

theorem out0_C_4_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : ¬cond0_0 i) (hc1 : cond0_1 i)
    (x0 : Vec F S1x2048x256 .f32) (x1 : Vec F S1x2048x1 .i32) (x2 : Vec F S1024x256 .f32) (xs0 : Vec F S1024x256 .f32) (xs1 : Vec F S1x1024 .f32) (xs2 : Vec F S1x1 .f32) (xs3 : Vec F S1024x256 .bf16) (xs4 : Vec F S1024x256 .bf16) :
    out0_C_4 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 = k0_pay4 (k0_pay15 x1 xs1) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4)]
  unfold kernelRun0_C
  dsimp only
  sl_unfold_words
  rw [View.canon_unit_zero (S := S1x1x1024) hz3]
  simp only [View.readAt_eq_ld, harg2.read_unread, harg3.read_unread, harg4.read_unread, harg8.read_unread, harg9.read_unread,
    harg10.read_unread, harg11.read_unread, harg12.read_unread,
    View.ld_unit_zero (S := S1x2048x256) hz3, View.ld_unit_zero (S := S1x2048x1) hz3, View.ld_unit_zero (S := S1024x256) hz2,
    View.ld_unit_zero (S := S1x1024) hz2, View.ld_unit_zero (S := S1x1) hz2,
    View.readCov_unit_zero (S := S1024x256) _ hz2, View.readCov_unit_zero (S := S1x1024) _ hz2, View.readCov_unit_zero (S := S1x1) _ hz2]

theorem out0_C_5_eq (c : Dev nD) (i : grid0.Coords) (arg2 : Memref sig .tc .vmem S1x2048x256 .f32) (harg2 : arg2.IsWhole) (arg3 : Memref sig .tc .vmem S1x2048x1 .i32) (harg3 : arg3.IsWhole) (arg4 : Memref sig .tc .vmem S1024x256 .f32) (harg4 : arg4.IsWhole) (arg5 : Memref sig .tc .vmem S1x1024x256 .f32) (harg5 : arg5.IsWhole) (arg6 : Memref sig .tc .vmem S1x1x1024 .f32) (harg6 : arg6.IsWhole) (arg7 : Memref sig .tc .vmem S1x1x1 .f32) (harg7 : arg7.IsWhole) (arg8 : Memref sig .tc .vmem S1024x256 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1024x256 .bf16) (harg11 : arg11.IsWhole) (arg12 : Memref sig .tc .vmem S1024x256 .bf16) (harg12 : arg12.IsWhole) (hc0 : ¬cond0_0 i) (hc1 : cond0_1 i)
    (x0 : Vec F S1x2048x256 .f32) (x1 : Vec F S1x2048x1 .i32) (x2 : Vec F S1024x256 .f32) (xs0 : Vec F S1024x256 .f32) (xs1 : Vec F S1x1024 .f32) (xs2 : Vec F S1x1 .f32) (xs3 : Vec F S1024x256 .bf16) (xs4 : Vec F S1024x256 .bf16) :
    out0_C_5 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 = k0_pay5 (k0_pay1 (k0_pay16 x0 x1 xs3 xs4) xs2) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4)]
  unfold kernelRun0_C
  dsimp only
  sl_unfold_words
  rw [View.canon_unit_zero (S := S1x1x1) hz3]
  simp only [View.readAt_eq_ld, harg2.read_unread, harg3.read_unread, harg4.read_unread, harg8.read_unread, harg9.read_unread,
    harg10.read_unread, harg11.read_unread, harg12.read_unread,
    View.ld_unit_zero (S := S1x2048x256) hz3, View.ld_unit_zero (S := S1x2048x1) hz3, View.ld_unit_zero (S := S1024x256) hz2,
    View.ld_unit_zero (S := S1x1024) hz2, View.ld_unit_zero (S := S1x1) hz2,
    View.readCov_unit_zero (S := S1024x256) _ hz2, View.readCov_unit_zero (S := S1x1024) _ hz2, View.readCov_unit_zero (S := S1x1) _ hz2]

end Cert.CenterPieces

end
-- ==== Proof.LibPlainDot.lean ====
/-
  The plain matrix product, rows times contraction by contraction times columns, read at an entry.

  For the dimension numbers "contract the left operand's axis 1 with the right operand's axis 0, no batch axis", the
  product of an M-by-K and a K-by-N matrix has at entry (p, q) the sum over k of left (p, k) times right (k, q).  At the
  exact values this holds of the host's product and of a kernel's product accumulated into a zero splat alike, on all
  extended reals, because only 0 + x = x is used.
-/
import Idealize.ShloMosaic.Lib.ValueIdx
import Idealize.ShloMosaic.Lib.KernelVsHost
import Idealize.ShloMosaic.PureOps.Ideal.Laws

noncomputable section

namespace Idealize.ShloMosaic.PlainDot

open Idealize.ShloMosaic.ValueIdx

variable {M K N : Nat} {φ₁ φ₂ : FTy}

/-- The left operand's index at output entry j and contraction step k: row of j, column k. -/
theorem lhsIdx_plain (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index at output entry j and contraction step k: row k, column of j. -/
theorem rhsIdx_plain (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- The host's plain product at an entry is the sum over the contraction of left (row, k) times right (k, column). -/
theorem dotGeneral_plain_apply (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [lhsIdx_plain, rhsIdx_plain]
  rfl

/-- A kernel's plain product accumulated into a zero splat, at an entry: the same sum. -/
theorem matmul_zero_plain_apply (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant ⟨2, ![M, N]⟩ .f32 0x00000000#32) j
      = ∑ k : Fin K, l (ix2 (j 0) k) * r (ix2 k (j 1)) := by
  rw [matmul_zero_eq_dotGeneral, dotGeneral_plain_apply]

end Idealize.ShloMosaic.PlainDot
-- ==== Proof.LibOneHotDot.lean ====
/-
  Selecting a row of a table by a matrix product: a 0/1 matrix whose row p compares one word w with the column
  numbers 0, 1, …, K − 1 has a single one, at column w, so row p of its product with a [K × N] table is row w of the
  table.

  The matrix is built the way a kernel builds it: the comparison bit widened to a word, converted to a float, and
  narrowed to bf16; at the exact values the bit reads 1 or 0 and the narrowing changes nothing. The sum over the
  contraction then has one term that is 1 · x and K − 1 terms that are 0 · x, and on the extended reals 0 · x = 0 for
  every x, the infinities included, so nothing is asked of the table's entries.
-/
import Idealize.ShloMosaic.Lib.ValueIdx
import Idealize.ShloMosaic.Lib.KernelVsHost
import Idealize.ShloMosaic.Lib.StableHlo.Predicate
import Idealize.ShloMosaic.PureOps.Ideal.Laws
import proofs.«422883_j76115410420300_3_alg».proof.Proof.LibPlainDot

noncomputable section

namespace Cert.LibOneHotDot

open Idealize.ShloMosaic Idealize.ShloMosaic.ValueIdx

/-- The comparison bit of two words, widened, read signed and converted: 1 when the words are equal, else 0. -/
theorem eq_bit_value (a b : BitVec 32) :
    ((((IntOp.cmpi .eq a b).setWidth 32).toInt : ℝ) : EReal) = if a = b then 1 else 0 := by
  rw [toInt_setWidth_bit]
  by_cases h : a = b
  · rw [if_pos h, StableHlo.Predicate.cmpi_eq_iff.2 h]
    simp
  · have h0 : IntOp.cmpi .eq a b = 0#1 :=
      eq_zero_of_ne_one fun h1 => h (StableHlo.Predicate.cmpi_eq_iff.1 h1)
    rw [if_neg h, h0]
    simp

/-- A word is the word of a column number below 2³² exactly when its value is that number. -/
theorem eq_ofNat_iff (w : BitVec 32) (k : Nat) (hk : k < 2 ^ 32) : w = BitVec.ofNat 32 k ↔ w.toNat = k := by
  constructor
  · intro h
    rw [h, BitVec.toNat_ofNat]
    exact Nat.mod_eq_of_lt hk
  · intro h
    apply BitVec.eq_of_toNat_eq
    rw [BitVec.toNat_ofNat, h]
    exact (Nat.mod_eq_of_lt hk).symm

variable {M K N : Nat} {φ : FTy}

/-- Row p of the product of the one-hot matrix of the word w with a table is row w of the table. A holds w all along
    its row p, B holds the column numbers along it, and w names the row r of the table. -/
theorem onehot_matmul_apply (hK : K ≤ 2 ^ 32) (A B : IVec ⟨2, ![M, K]⟩ 32) (feat : FVec Ideal ⟨2, ![K, N]⟩ φ)
    (h1 : 1 < 32) (hb : FTy.bits .bf16 < FTy.bits .f32) (p : Fin M) (q : Fin N) (w : BitVec 32) (r : Fin K)
    (hw : w.toNat = r.val)
    (hA : ∀ k : Fin K, A (ix2 p k) = w) (hB : ∀ k : Fin K, B (ix2 p k) = BitVec.ofNat 32 k.val) :
    matmul (DotDims.plain M K N) none
        (truncf .bf16 (sitofp .f32 (extui 32 (cmpi .eq A B) h1) : FVec Ideal ⟨2, ![M, K]⟩ .f32) hb)
        feat (constant ⟨2, ![M, N]⟩ .f32 0x00000000#32) (ix2 p q)
      = feat (ix2 r q) := by
  rw [PlainDot.matmul_zero_plain_apply]
  have entry : ∀ k : Fin K,
      (truncf .bf16 (sitofp .f32 (extui 32 (cmpi .eq A B) h1) : FVec Ideal ⟨2, ![M, K]⟩ .f32) hb) (ix2 p k)
        = if k = r then (1 : EReal) else 0 := by
    intro k
    show ((((IntOp.cmpi .eq (A (ix2 p k)) (B (ix2 p k))).setWidth 32).toInt : ℝ) : EReal) = _
    rw [eq_bit_value, hA, hB]
    have hk : k.val < 2 ^ 32 := lt_of_lt_of_le k.isLt hK
    by_cases hkr : k = r
    · rw [if_pos hkr, if_pos ((eq_ofNat_iff w k.val hk).2 (by rw [hw, hkr]))]
    · rw [if_neg hkr, if_neg fun h => hkr (Fin.ext ((eq_ofNat_iff w k.val hk).1 h ▸ hw ▸ rfl))]
  rw [Finset.sum_eq_single r]
  · show (truncf .bf16 (sitofp .f32 (extui 32 (cmpi .eq A B) h1) : FVec Ideal ⟨2, ![M, K]⟩ .f32) hb) (ix2 p r)
        * feat (ix2 r q) = _
    rw [entry, if_pos rfl, one_mul]
  · intro k _ hk
    show (truncf .bf16 (sitofp .f32 (extui 32 (cmpi .eq A B) h1) : FVec Ideal ⟨2, ![M, K]⟩ .f32) hb) (ix2 p k)
        * feat (ix2 k q) = 0
    rw [entry, if_neg hk, zero_mul]
  · intro h
    exact absurd (Finset.mem_univ r) h

end Cert.LibOneHotDot

end
-- ==== Proof.LibTransDot.lean ====
/-
  The matrix product with the right operand contracted on its last axis, read at an entry.

  For the dimension numbers "contract the left operand's axis 1 with the right operand's axis 1, no batch axis", the
  product of an M-by-K and an N-by-K matrix has at entry (p, q) the sum over k of left (p, k) times right (q, k): the
  left operand times the transpose of the right one.  At the exact values this holds of the host's product and of a
  kernel's product accumulated into a zero splat alike, on all extended reals, because only 0 + x = x is used.
-/
import Idealize.ShloMosaic.Lib.ValueIdx
import Idealize.ShloMosaic.Lib.KernelVsHost
import Idealize.ShloMosaic.PureOps.Ideal.Laws

noncomputable section

namespace Idealize.ShloMosaic.TransDot

open Idealize.ShloMosaic.ValueIdx

variable {M K N : Nat} {φ₁ φ₂ : FTy}

/-- The left operand's index at output entry j and contraction step k: row of j, column k. -/
theorem lhsIdx_trans (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl j _).trans hk

/-- The right operand's index at output entry j and contraction step k: row the column of j, column k. -/
theorem rhsIdx_trans (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl j _).trans hk

/-- The host's product at an entry is the sum over the contraction of left (row, k) times right (column, k). -/
theorem dotGeneral_trans_apply (prec : Option ContractPrecision) (l : FVec Ideal ⟨2, ![M, K]⟩ φ₁)
    (r : FVec Ideal ⟨2, ![N, K]⟩ φ₂) (j : (⟨2, ![M, N]⟩ : Shape).Idx) :
    Host.dotGeneral (DotDims.transposedRhs M K N) prec l r j = ∑ k : Fin K, l (ix2 (j 0) k) * r (ix2 (j 1) k) := by
  simp only [Host.dotGeneral]
  rw [Ideal.dotGeneral_apply, ← Equiv.sum_comp (contrEquiv1 (DotDims.transposedRhs M K N) K rfl rfl).symm]
  refine Finset.sum_congr rfl fun k _ => ?_
  rw [lhsIdx_trans, rhsIdx_trans]
  rfl

/-- A kernel's product accumulated into a zero splat, at an entry: the same sum. -/
theorem matmul_zero_trans_apply (prec : Option ContractPrecision) (l : FVec Ideal ⟨2, ![M, K]⟩ φ₁)
    (r : FVec Ideal ⟨2, ![N, K]⟩ φ₂) (j : (⟨2, ![M, N]⟩ : Shape).Idx) :
    matmul (DotDims.transposedRhs M K N) prec l r (constant ⟨2, ![M, N]⟩ .f32 0x00000000#32) j
      = ∑ k : Fin K, l (ix2 (j 0) k) * r (ix2 (j 1) k) := by
  rw [matmul_zero_eq_dotGeneral, dotGeneral_trans_apply]

end Idealize.ShloMosaic.TransDot

end
-- ==== Proof.PayAlg.lean ====
import proofs.«422883_j76115410420300_3_alg».proof.Proof.Gen.KernelIdeal.Skeleton
import proofs.«422883_j76115410420300_3_alg».proof.Proof.LibOneHotDot
import proofs.«422883_j76115410420300_3_alg».proof.Proof.LibTransDot
import Idealize.ShloMosaic.Lib.ValueIdx
import Idealize.ShloMosaic.Lib.ValueLayout
import Idealize.ShloMosaic.Lib.Pipeline.Value
import Idealize.ShloMosaic.PureOps.Ideal.Laws

/-!
  The body's arithmetic at the exact-real instance, one stored value at a time, read at an index, over a tile of 2048
  rows (its samples, its label words) and what the carried buffers held before.

  A change of float format is the identity there, so the high part of a split value is the value and the low part is
  the value minus itself: zero, for a real number. The one-hot entry (n, k) is 1 when row n's label word has value k and
  0 otherwise, so a product of the one-hot matrix with a table picks the row a label names (no row, hence zero, when
  the label names none of the 1024 columns), and the product of its transpose with the samples adds up, per column k,
  the rows labelled k.
-/

noncomputable section

namespace Cert.CenterPay

open Idealize.ShloMosaic Idealize.ShloMosaic.ValueIdx
open Cert.KernelIdeal Cert.KernelIdeal.Gen

/-- Feature d of row w of a 1024-row table (zero when w names no row). -/
def rowOf (tab : Vec Ideal S1024x256 .bf16) (w : ℕ) (d : Fin 256) : EReal :=
  if h : w < 1024 then tab (ix2 ⟨w, h⟩ d) else 0

/-! ## Columns: a vector cast to a column, a column spread along its rows -/

section Column
variable {α : Type}

/-- An `[a]` array cast to the column `[a, 1]` reads, at `(i, u)`, the operand at `i`: both have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## Sums along one axis of a matrix -/

/-- Summing down the rows: the source index over column `k` with row `n` put back is `(n, k)`. -/
theorem lift_rows {A B : ℕ} (h : (⟨2, ![A, B]⟩ : Shape).Reduces [0] ⟨1, ![B]⟩) (k : Fin B) (n : Fin A) :
    h.lift (ix1 k) n = ix2 n k := by
  funext c
  apply Fin.ext
  match c with
  | ⟨0, _⟩ => rfl
  | ⟨1, _⟩ => rfl

/-- Summing along the rows: the source index over row `n` with column `d` put back is `(n, d)`. -/
theorem lift_cols {A B : ℕ} (h : (⟨2, ![A, B]⟩ : Shape).Reduces [1] ⟨1, ![A]⟩) (n : Fin A) (d : Fin B) :
    h.lift (ix1 n) d = ix2 n d := by
  funext c
  apply Fin.ext
  match c with
  | ⟨0, _⟩ => rfl
  | ⟨1, _⟩ => rfl

/-- A sum over axis 0 from the zero word, at column `k`: the sum of the column's entries. -/
theorem sum_rows_apply {A B : ℕ} (src : FVec Ideal ⟨2, ![A, B]⟩ .f32)
    (h : (⟨2, ![A, B]⟩ : Shape).Reduces [0] ⟨1, ![B]⟩) (hφ : FKind.Formats .f32)
    (hacc : (0x00000000#32 : BitVec 32) = 0x00000000#32) (k : Fin B) :
    multiReduction (F := Ideal) .add [0] ⟨1, ![B]⟩ src 0x00000000#32 h hφ hacc (ix1 k)
      = ∑ n : Fin A, src (ix2 n k) :=
  (Ideal.multiReduction_add_single src 0x00000000#32 h hφ hacc (ix1 k)).trans
    (Finset.sum_congr rfl fun n _ => congrArg src (lift_rows h k n))

/-- A sum over axis 1 from the zero word, at row `n`: the sum of the row's entries. -/
theorem sum_cols_apply {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (n : Fin A) :
    multiReduction (F := Ideal) .add [1] ⟨1, ![A]⟩ src 0x00000000#32 h hφ hacc (ix1 n)
      = ∑ d : Fin B, src (ix2 n d) :=
  (Ideal.multiReduction_add_single src 0x00000000#32 h hφ hacc (ix1 n)).trans
    (Finset.sum_congr rfl fun d _ => congrArg src (lift_cols h n d))

/-! ## A real number minus itself -/

/-- On the extended reals `x - x` is zero only off the infinities: for a real number it is. -/
theorem real_sub_self {x : EReal} (h : ∃ r : ℝ, x = (r : EReal)) : x - x = 0 := by
  obtain ⟨r, rfl⟩ := h
  rw [← EReal.coe_sub, sub_self, EReal.coe_zero]

/-! ## The tile's samples without their leading unit axis -/

/-- The samples as a matrix: entry (n, d) is the block's entry (0, n, d). -/
theorem pay12_apply (xblk : Vec Ideal S1x2048x256 .f32) (n : Fin 2048) (d : Fin 256) :
    k0_pay12 (F := Ideal) xblk (ix2 n d) = xblk (ix3 (0 : Fin 1) n d) := by
  unfold k0_pay12
  exact shapeCast_1ab_ab_apply xblk _ n d

/-! ## The one-hot matrix of the label words -/

/-- Row n's label word, cast to a column and spread along the row, is that word at every column. -/
theorem label_spread_apply (lblk : Vec Ideal S1x2048x1 .i32) (h1 : S1x2048x1.ShapeCasts S2048x1)
    (h2 : S2048x1.Broadcasts S2048x1024) (n : Fin 2048) (k : Fin 1024) :
    broadcastTo S2048x1024 (shapeCast S2048x1 lblk h1) h2 (ix2 n k) = lblk (ix3 (0 : Fin 1) n (0 : Fin 1)) :=
  (broadcastTo_a1_ab_apply _ h2 n k).trans (shapeCast_1ab_ab_apply lblk h1 n 0)

/-- The comparison bit of row n's label word with the column number k, widened to a word and converted, is 1 when the
    word's value is k and 0 otherwise. -/
theorem bit_entry (lblk : Vec Ideal S1x2048x1 .i32) (h1 : 1 < 32) (n : Fin 2048) (k : Fin 1024) :
    (sitofp .f32 (extui 32 (k0_pay13 (F := Ideal) lblk) h1) : FVec Ideal S2048x1024 .f32) (ix2 n k)
      = if (lblk (ix3 (0 : Fin 1) n (0 : Fin 1))).toNat = k.val then (1 : EReal) else 0 := by
  unfold k0_pay13
  dsimp only
  show ((((IntOp.cmpi .eq (broadcastTo S2048x1024 (shapeCast S2048x1 lblk _) _ (ix2 n k))
      (iota .tc S2048x1024 32 [1] _ (ix2 n k))).setWidth 32).toInt : ℝ) : EReal) = _
  rw [Cert.LibOneHotDot.eq_bit_value, label_spread_apply, iota_single_apply]
  have hk : k.val < 2 ^ 32 := lt_of_lt_of_le k.isLt (by norm_num)
  show (if lblk (ix3 (0 : Fin 1) n (0 : Fin 1)) = BitVec.ofNat 32 k.val then (1 : EReal) else 0) = _
  by_cases hw : (lblk (ix3 (0 : Fin 1) n (0 : Fin 1))).toNat = k.val
  · rw [if_pos hw, if_pos ((Cert.LibOneHotDot.eq_ofNat_iff _ k.val hk).2 hw)]
  · rw [if_neg hw, if_neg fun h => hw ((Cert.LibOneHotDot.eq_ofNat_iff _ k.val hk).1 h)]

/-- Entry (n, k) of the one-hot matrix: 1 when row n's label word has value k, else 0 (the narrowing to bf16 changes
    nothing). -/
theorem onehot_entry (lblk : Vec Ideal S1x2048x1 .i32) (n : Fin 2048) (k : Fin 1024) :
    k0_pay14 (F := Ideal) lblk (ix2 n k)
      = if (lblk (ix3 (0 : Fin 1) n (0 : Fin 1))).toNat = k.val then (1 : EReal) else 0 := by
  unfold k0_pay14
  exact bit_entry lblk _ n k

/-! ## The product that contracts the rows of both operands

The kernel's second product contracts axis 0 of the left operand with axis 0 of the right one: entry (k, d) of the
result is the sum over the 2048 rows n of left (n, k) times right (n, d). -/

/-- On the left operand's axis 0 the index is the contraction position … -/
theorem lhs_dot_S2048x1024_S2048x256_S1024x256_0_0_1_1_n_n_0 (j : S1024x256.Idx) (n : Fin 2048) :
    ((dot_S2048x1024_S2048x256_S1024x256_0_0_1_1_n_n.lhsIdx j
      ((contrEquiv1 dot_S2048x1024_S2048x256_S1024x256_0_0_1_1_n_n 2048 rfl rfl).symm n)) 0).val = n.val :=
  (dot_S2048x1024_S2048x256_S1024x256_0_0_1_1_n_n.lhsIdx_val_of_single rfl j _).trans
    (contrEquiv1_symm_val dot_S2048x1024_S2048x256_S1024x256_0_0_1_1_n_n 2048 rfl rfl n)

/-- … and on its axis 1 the result's row. -/
theorem lhs_dot_S2048x1024_S2048x256_S1024x256_0_0_1_1_n_n_1 (j : S1024x256.Idx) (n : Fin 2048) :
    ((dot_S2048x1024_S2048x256_S1024x256_0_0_1_1_n_n.lhsIdx j
      ((contrEquiv1 dot_S2048x1024_S2048x256_S1024x256_0_0_1_1_n_n 2048 rfl rfl).symm n)) 1).val = (j 0).val :=
  rfl

/-- On the right operand's axis 0 the index is the contraction position … -/
theorem rhs_dot_S2048x1024_S2048x256_S1024x256_0_0_1_1_n_n_0 (j : S1024x256.Idx) (n : Fin 2048) :
    ((dot_S2048x1024_S2048x256_S1024x256_0_0_1_1_n_n.rhsIdx j
      ((contrEquiv1 dot_S2048x1024_S2048x256_S1024x256_0_0_1_1_n_n 2048 rfl rfl).symm n)) 0).val = n.val :=
  (dot_S2048x1024_S2048x256_S1024x256_0_0_1_1_n_n.rhsIdx_val_of_single rfl j _).trans
    (contrEquiv1_symm_val dot_S2048x1024_S2048x256_S1024x256_0_0_1_1_n_n 2048 rfl rfl n)

/-- … and on its axis 1 the result's column. -/
theorem rhs_dot_S2048x1024_S2048x256_S1024x256_0_0_1_1_n_n_1 (j : S1024x256.Idx) (n : Fin 2048) :
    ((dot_S2048x1024_S2048x256_S1024x256_0_0_1_1_n_n.rhsIdx j
      ((contrEquiv1 dot_S2048x1024_S2048x256_S1024x256_0_0_1_1_n_n 2048 rfl rfl).symm n)) 1).val = (j 1).val :=
  rfl

/-- The left operand's index at output entry (k, d) and contraction step n: row n, column k. -/
theorem lhsIdx_rows (k : Fin 1024) (d : Fin 256) (n : Fin 2048) :
    dot_S2048x1024_S2048x256_S1024x256_0_0_1_1_n_n.lhsIdx (ix2 k d)
      ((contrEquiv1 dot_S2048x1024_S2048x256_S1024x256_0_0_1_1_n_n 2048 rfl rfl).symm n) = ix2 n k := by
  funext a
  apply Fin.ext
  match a with
  | ⟨0, _⟩ => exact lhs_dot_S2048x1024_S2048x256_S1024x256_0_0_1_1_n_n_0 _ n
  | ⟨1, _⟩ => exact lhs_dot_S2048x1024_S2048x256_S1024x256_0_0_1_1_n_n_1 _ n

/-- The right operand's index at output entry (k, d) and contraction step n: row n, column d. -/
theorem rhsIdx_rows (k : Fin 1024) (d : Fin 256) (n : Fin 2048) :
    dot_S2048x1024_S2048x256_S1024x256_0_0_1_1_n_n.rhsIdx (ix2 k d)
      ((contrEquiv1 dot_S2048x1024_S2048x256_S1024x256_0_0_1_1_n_n 2048 rfl rfl).symm n) = ix2 n d := by
  funext a
  apply Fin.ext
  match a with
  | ⟨0, _⟩ => exact rhs_dot_S2048x1024_S2048x256_S1024x256_0_0_1_1_n_n_0 _ n
  | ⟨1, _⟩ => exact rhs_dot_S2048x1024_S2048x256_S1024x256_0_0_1_1_n_n_1 _ n

/-- That product accumulated into a zero splat, at entry (k, d): the sum over the rows. -/
theorem matmul_zero_rows_apply (l : FVec Ideal S2048x1024 .bf16) (r : FVec Ideal S2048x256 .bf16)
    (k : Fin 1024) (d : Fin 256) :
    matmul dot_S2048x1024_S2048x256_S1024x256_0_0_1_1_n_n none l r (constant (F := Ideal) S1024x256 .f32 0x00000000#32) (ix2 k d)
      = ∑ n : Fin 2048, l (ix2 n k) * r (ix2 n d) := by
  refine (Ideal.matmul_constant_zero_apply dot_S2048x1024_S2048x256_S1024x256_0_0_1_1_n_n none l r (ix2 k d)).trans ?_
  rw [← Equiv.sum_comp (contrEquiv1 dot_S2048x1024_S2048x256_S1024x256_0_0_1_1_n_n 2048 rfl rfl).symm]
  refine Finset.sum_congr rfl fun n _ => ?_
  rw [lhsIdx_rows, rhsIdx_rows]

/-- With the one-hot matrix on the left: column k of the result adds up the right operand's rows labelled k. On the
    extended reals 1 · x = x and 0 · x = 0 for every x, so nothing is asked of the right operand. -/
theorem onehot_cols_apply (lblk : Vec Ideal S1x2048x1 .i32) (r : FVec Ideal S2048x256 .bf16)
    (k : Fin 1024) (d : Fin 256) :
    matmul dot_S2048x1024_S2048x256_S1024x256_0_0_1_1_n_n none (k0_pay14 (F := Ideal) lblk) r
        (constant (F := Ideal) S1024x256 .f32 0x00000000#32) (ix2 k d)
      = ∑ n : Fin 2048,
          (if (lblk (ix3 (0 : Fin 1) n (0 : Fin 1))).toNat = k.val then r (ix2 n d) else 0) := by
  rw [matmul_zero_rows_apply]
  refine Finset.sum_congr rfl fun n _ => ?_
  rw [onehot_entry]
  by_cases hw : (lblk (ix3 (0 : Fin 1) n (0 : Fin 1))).toNat = k.val
  · rw [if_pos hw, if_pos hw, one_mul]
  · rw [if_neg hw, if_neg hw, zero_mul]

/-! ## The product of the one-hot matrix with a table

The kernel's first product is the plain one, rows times columns: row n of the one-hot matrix has its single one at the
column its label word names, or no one at all when the word names none of the 1024 columns. -/

/-- Row n of the one-hot matrix times a table: the table's row that row n's label names, zero when it names none. -/
theorem onehot_rows_apply (lblk : Vec Ideal S1x2048x1 .i32) (tab : FVec Ideal S1024x256 .bf16)
    (n : Fin 2048) (d : Fin 256) :
    matmul dot_S2048x1024_S1024x256_S2048x256_1_0_0_1_n_n none (k0_pay14 (F := Ideal) lblk) tab
        (constant (F := Ideal) S2048x256 .f32 0x00000000#32) (ix2 n d)
      = rowOf tab (lblk (ix3 (0 : Fin 1) n (0 : Fin 1))).toNat d := by
  have hplain : dot_S2048x1024_S1024x256_S2048x256_1_0_0_1_n_n = DotDims.plain 2048 1024 256 := rfl
  rw [hplain, PlainDot.matmul_zero_plain_apply]
  show ∑ k : Fin 1024, k0_pay14 (F := Ideal) lblk (ix2 n k) * tab (ix2 k d) = _
  unfold rowOf
  by_cases hw : (lblk (ix3 (0 : Fin 1) n (0 : Fin 1))).toNat < 1024
  · rw [dif_pos hw, Finset.sum_eq_single (⟨_, hw⟩ : Fin 1024)]
    · rw [onehot_entry, if_pos rfl, one_mul]
    · intro k _ hk
      rw [onehot_entry, if_neg fun h => hk (Fin.ext h.symm), zero_mul]
    · intro h
      exact absurd (Finset.mem_univ _) h
  · rw [dif_neg hw]
    refine Finset.sum_eq_zero fun k _ => ?_
    rw [onehot_entry, if_neg fun h => hw (by have := k.isLt; omega), zero_mul]

/-- The three reset values are zero everywhere. -/
theorem pay6_eq : k0_pay6 (F := Ideal) = fun _ => (0 : EReal) := by
  unfold k0_pay6
  dsimp only
  rw [shapeCast_self]
  funext i
  exact Ideal.ofBits_zero_f32
theorem pay7_eq : k0_pay7 (F := Ideal) = fun _ => (0 : EReal) := by
  unfold k0_pay7
  dsimp only
  rw [shapeCast_self]
  funext i
  exact Ideal.ofBits_zero_f32
theorem pay8_eq : k0_pay8 (F := Ideal) = fun _ => (0 : EReal) := by
  unfold k0_pay8
  dsimp only
  rw [shapeCast_self]
  funext i
  exact Ideal.ofBits_zero_f32

/-- The high part of the centers is the centers. -/
theorem pay10_eq (cen : Vec Ideal S1024x256 .f32) : k0_pay10 (F := Ideal) cen = cen := by
  unfold k0_pay10 k0_pay9
  dsimp only
  rw [shapeCast_self, shapeCast_self]
  rfl

/-- The low part of real centers is zero. -/
theorem pay11_eq (cen : Vec Ideal S1024x256 .f32) (hc : ∀ i, ∃ r : ℝ, cen i = (r : EReal)) :
    k0_pay11 (F := Ideal) cen = fun _ => (0 : EReal) := by
  unfold k0_pay11 k0_pay9
  dsimp only
  simp only [shapeCast_self]
  funext i
  rw [truncf_apply, subf_apply]
  exact real_sub_self (hc i)

/-- The counts after a tile: what was there plus, per column k, the number of the tile's rows labelled k. -/
theorem pay15_apply (lblk : Vec Ideal S1x2048x1 .i32) (prev : Vec Ideal S1x1024 .f32) (k : Fin 1024) :
    k0_pay15 (F := Ideal) lblk prev (ix2 (0 : Fin 1) k)
      = prev (ix2 (0 : Fin 1) k)
        + ∑ n : Fin 2048, (if (lblk (ix3 (0 : Fin 1) n (0 : Fin 1))).toNat = k.val then (1 : EReal) else 0) := by
  unfold k0_pay15
  rw [shapeCast_self, addf_apply, shapeCast_a_1a_apply]
  refine congrArg (prev (ix2 (0 : Fin 1) k) + ·) ?_
  refine (sum_rows_apply _ _ _ _ k).trans ?_
  exact Finset.sum_congr rfl fun n _ => bit_entry lblk _ n k

/-- The sums after a tile of real samples: what was there plus, per column k and feature d, the tile's rows labelled k. -/
theorem pay2_apply (xblk : Vec Ideal S1x2048x256 .f32) (lblk : Vec Ideal S1x2048x1 .i32) (prev : Vec Ideal S1024x256 .f32)
    (hx : ∀ i, ∃ r : ℝ, xblk i = (r : EReal)) (k : Fin 1024) (d : Fin 256) :
    k0_pay2 (F := Ideal) (k0_pay12 xblk) (k0_pay14 lblk) prev (ix2 k d)
      = prev (ix2 k d)
        + ∑ n : Fin 2048, (if (lblk (ix3 (0 : Fin 1) n (0 : Fin 1))).toNat = k.val then xblk (ix3 (0 : Fin 1) n d) else 0) := by
  unfold k0_pay2
  rw [shapeCast_self, addf_apply, addf_apply, onehot_cols_apply, onehot_cols_apply, ← Finset.sum_add_distrib]
  refine congrArg (prev (ix2 k d) + ·) (Finset.sum_congr rfl fun n _ => ?_)
  rw [truncf_apply, truncf_apply, subf_apply, pay12_apply, real_sub_self (hx _)]
  by_cases hw : (lblk (ix3 (0 : Fin 1) n (0 : Fin 1))).toNat = k.val
  · simp only [if_pos hw, add_zero]
  · simp only [if_neg hw, add_zero]

/-- A tile's distances, over a high table and a low table that is zero: row n's distance to the row of the high table
    its label names. -/
theorem pay16_apply (xblk : Vec Ideal S1x2048x256 .f32) (lblk : Vec Ideal S1x2048x1 .i32)
    (chi clo : Vec Ideal S1024x256 .bf16) (hlo : ∀ i, clo i = (0 : EReal)) (n : Fin 2048) :
    k0_pay16 (F := Ideal) xblk lblk chi clo (ix2 n (0 : Fin 1))
      = Ideal.sqrt (∑ d : Fin 256,
          (xblk (ix3 (0 : Fin 1) n d) - rowOf chi (lblk (ix3 (0 : Fin 1) n (0 : Fin 1))).toNat d)
          * (xblk (ix3 (0 : Fin 1) n d) - rowOf chi (lblk (ix3 (0 : Fin 1) n (0 : Fin 1))).toNat d)) := by
  unfold k0_pay16
  refine congrArg Ideal.sqrt ?_
  rw [shapeCast_a_a1_apply]
  refine (sum_cols_apply _ _ _ _ n).trans (Finset.sum_congr rfl fun d _ => ?_)
  have hz : rowOf clo (lblk (ix3 (0 : Fin 1) n (0 : Fin 1))).toNat d = 0 := by
    unfold rowOf
    split
    · exact hlo _
    · rfl
  rw [mulf_apply, subf_apply, addf_apply, onehot_rows_apply, onehot_rows_apply, pay12_apply, hz, add_zero]

/-- The summed distances after a tile: what was there plus the tile's distances. -/
theorem pay1_apply (dist : FVec Ideal S2048x1 .f32) (prev : Vec Ideal S1x1 .f32) :
    k0_pay1 (F := Ideal) dist prev (ix2 (0 : Fin 1) (0 : Fin 1))
      = prev (ix2 (0 : Fin 1) (0 : Fin 1)) + ∑ n : Fin 2048, dist (ix2 n (0 : Fin 1)) := by
  unfold k0_pay1
  rw [shapeCast_self, addf_apply, shapeCast_a_1a_apply]
  exact congrArg (prev (ix2 (0 : Fin 1) (0 : Fin 1)) + ·) (sum_rows_apply dist _ _ _ 0)

/-- The three written-out values are the carried buffers with a leading unit axis. -/
theorem pay3_apply (v : Vec Ideal S1024x256 .f32) (k : Fin 1024) (d : Fin 256) :
    k0_pay3 (F := Ideal) v (ix3 (0 : Fin 1) k d) = v (ix2 k d) := by
  unfold k0_pay3
  exact shapeCast_ab_1ab_apply v _ 0 k d
theorem pay4_apply (v : Vec Ideal S1x1024 .f32) (k : Fin 1024) :
    k0_pay4 (F := Ideal) v (ix3 (0 : Fin 1) (0 : Fin 1) k) = v (ix2 (0 : Fin 1) k) := by
  unfold k0_pay4
  exact shapeCast_ab_1ab_apply v _ 0 0 k
theorem pay5_apply (v : Vec Ideal S1x1 .f32) :
    k0_pay5 (F := Ideal) v (ix3 (0 : Fin 1) (0 : Fin 1) (0 : Fin 1)) = v (ix2 (0 : Fin 1) (0 : Fin 1)) := by
  unfold k0_pay5
  exact shapeCast_ab_1ab_apply v _ 0 0 0

end Cert.CenterPay

end
-- ==== Proof.Blocks.lean ====
import proofs.«422883_j76115410420300_3_alg».proof.Proof.Gen.KernelIdeal.Frame.Runs
import proofs.«422883_j76115410420300_3_alg».proof.Proof.Spec
import Idealize.ShloMosaic.Lib.ValueIdx
import Idealize.ShloMosaic.Lib.Pipeline.Value
import Idealize.ShloMosaic.Lib.KernelVsHost

/-!
  What a grid point's input blocks are. The samples are viewed as two shards of 131072 rows and cut into tiles of 2048
  rows, 64 to a shard, and the grid walks shard by shard, tile by tile: point t = 64·s + j stages rows
  131072·s + 2048·j + n = 2048·t + n (0 ≤ n < 2048) of the samples and of the labels. The centers window is the whole
  table padded with 24 zero rows, the same at every point.
-/

noncomputable section

namespace Cert.CenterBlocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The samples of core c. -/
abbrev X (c : Dev nD) : FVec Ideal Cert.CenterSpec.SX .f32 := m ((c.tc : Thread nD τ).loc main_arg0)
/-- The labels of core c. -/
abbrev L (c : Dev nD) : IVec Cert.CenterSpec.SLab 32 := m ((c.tc : Thread nD τ).loc main_arg1)
/-- The centers of core c. -/
abbrev C (c : Dev nD) : FVec Ideal Cert.CenterSpec.SCen .f32 := m ((c.tc : Thread nD τ).loc main_arg2)

/-- Point t's block of samples, of labels, and the padded centers, at their literal types. -/
abbrev xblk (c : Dev nD) (t : Fin cfg0.N) : Vec Ideal S1x2048x256 .f32 := iblk m c 0 t
abbrev lblk (c : Dev nD) (t : Fin cfg0.N) : Vec Ideal S1x2048x1 .i32 := iblk m c 1 t
abbrev cblk (c : Dev nD) (t : Fin cfg0.N) : Vec Ideal S1024x256 .f32 := iblk m c 2 t

/-! ### The arrays the region finds

  The host lines before the region view the samples and the labels as two shards (a change of shape: the same entries in
  row-major order) and pad the centers with 24 rows of the converted zero word. -/

/-- The region finds the samples viewed as 2 × 131072 × 256. -/
private theorem samples_viewed (c : Dev nD) : (V m c main_v0 : S2x131072x256.Idx → EReal)
    = shapeCast S2x131072x256 (X m c) Facts₀.shapeCasts_S262144x256_S2x131072x256 := by
  dsimp only [Gen.V, Gen.V0]
  simp only [Gen.hostOps0, Gen.hostOps0_1, List.flatten_cons, List.flatten_nil, List.append_nil, List.cons_append,
    List.nil_append]
  after_results
  rfl

/-- The region finds the labels viewed as 2 × 131072 × 1. -/
private theorem labels_viewed (c : Dev nD) : (V m c main_v1 : S2x131072x1.Idx → BitVec 32)
    = shapeCast S2x131072x1 (L m c) Facts₀.shapeCasts_S262144_S2x131072x1 := by
  dsimp only [Gen.V, Gen.V0]
  simp only [Gen.hostOps0, Gen.hostOps0_1, List.flatten_cons, List.flatten_nil, List.append_nil, List.cons_append,
    List.nil_append]
  after_results
  rfl

/-- The region finds the centers followed by 24 rows of the zero word converted to a float. -/
private theorem centers_padded (c : Dev nD) : (V m c main_v2 : S1024x256.Idx → EReal)
    = pad S1024x256 ![0, 0] ![24, 0] ![0, 0] (C m c) (sitofp (F := Ideal) .f32 (constantI S_ 32 0#32))
        Facts₀.pads_S1000x256_S1024x256_0240_000 Facts₀.h_S_ := by
  dsimp only [Gen.V, Gen.V0]
  simp only [Gen.hostOps0, Gen.hostOps0_1, List.flatten_cons, List.flatten_nil, List.append_nil, List.cons_append,
    List.nil_append]
  after_results
  rfl

/-! ### Where a block sits in its array

  Point t = 64·s + j takes block (s, j, 0) of the samples and of the labels and block (0, 0) of the centers; an entry
  of a block sits in the array, on each axis, at the block index times the block's extent plus its own coordinate. -/

private theorem samples_block_index : ∀ t : Fin cfg0.N, win0_0.index t (0 : Fin 3) = t.val / 64
    ∧ win0_0.index t (1 : Fin 3) = t.val % 64 ∧ win0_0.index t (2 : Fin 3) = 0 :=
  (by decide +kernel : ∀ t : Fin grid0.N, _)

private theorem labels_block_index : ∀ t : Fin cfg0.N, win0_1.index t (0 : Fin 3) = t.val / 64
    ∧ win0_1.index t (1 : Fin 3) = t.val % 64 ∧ win0_1.index t (2 : Fin 3) = 0 :=
  (by decide +kernel : ∀ t : Fin grid0.N, _)

private theorem centers_block_index : ∀ t : Fin cfg0.N, win0_2.index t (0 : Fin 2) = 0 ∧ win0_2.index t (1 : Fin 2) = 0 :=
  (by decide +kernel : ∀ t : Fin grid0.N, _)

/-- Entry (0, n, d) of point t's block of samples is entry (t / 64, 2048·(t % 64) + n, d) of the viewed samples. -/
private theorem samples_entry_at (t : Fin cfg0.N) (n : Fin 2048) (d : Fin 256) (h1 : t.val / 64 < 2)
    (h2 : t.val % 64 * 2048 + n.val < 131072) :
    ((cfg0.win 0).blk t).view.emb (ix3 (0 : Fin 1) n d) = ix3 ⟨t.val / 64, h1⟩ ⟨t.val % 64 * 2048 + n.val, h2⟩ d := by
  obtain ⟨e0, e1, e2⟩ := samples_block_index t
  funext a; apply Fin.ext
  match a with
  | ⟨0, _⟩ => show win0_0.index t (0 : Fin 3) * 1 + 1 * 0 = t.val / 64; omega
  | ⟨1, _⟩ => show win0_0.index t (1 : Fin 3) * 2048 + 1 * n.val = t.val % 64 * 2048 + n.val; omega
  | ⟨2, _⟩ => show win0_0.index t (2 : Fin 3) * 256 + 1 * d.val = d.val; omega

/-- Entry (0, n, 0) of point t's block of labels is entry (t / 64, 2048·(t % 64) + n, 0) of the viewed labels. -/
private theorem labels_entry_at (t : Fin cfg0.N) (n : Fin 2048) (h1 : t.val / 64 < 2)
    (h2 : t.val % 64 * 2048 + n.val < 131072) :
    ((cfg0.win 1).blk t).view.emb (ix3 (0 : Fin 1) n (0 : Fin 1))
      = ix3 ⟨t.val / 64, h1⟩ ⟨t.val % 64 * 2048 + n.val, h2⟩ (0 : Fin 1) := by
  obtain ⟨e0, e1, e2⟩ := labels_block_index t
  funext a; apply Fin.ext
  match a with
  | ⟨0, _⟩ => show win0_1.index t (0 : Fin 3) * 1 + 1 * 0 = t.val / 64; omega
  | ⟨1, _⟩ => show win0_1.index t (1 : Fin 3) * 2048 + 1 * n.val = t.val % 64 * 2048 + n.val; omega
  | ⟨2, _⟩ => show win0_1.index t (2 : Fin 3) * 1 + 1 * 0 = 0; omega

/-- The centers window is the whole padded table: an entry of the block is the same entry of the array. -/
private theorem centers_entry_at (t : Fin cfg0.N) (k : Fin 1024) (d : Fin 256) :
    ((cfg0.win 2).blk t).view.emb (ix2 k d) = ix2 k d := by
  obtain ⟨e0, e1⟩ := centers_block_index t
  funext a; apply Fin.ext
  match a with
  | ⟨0, _⟩ => show win0_2.index t (0 : Fin 2) * 1024 + 1 * k.val = k.val; omega
  | ⟨1, _⟩ => show win0_2.index t (1 : Fin 2) * 256 + 1 * d.val = d.val; omega

/-! ### The blocks over the argument arrays

  Row 2048·(t % 64) + n of shard t / 64 is flat row 131072·(t / 64) + 2048·(t % 64) + n = 2048·t + n. -/

private theorem xblk_row (c : Dev nD) (t : Fin cfg0.N) (n : Fin 2048) (d : Fin 256) (h : 2048 * t.val + n.val < 262144) :
    xblk m c t (ix3 (0 : Fin 1) n d) = X m c (ix2 ⟨2048 * t.val + n.val, h⟩ d) := by
  have ht : t.val < 128 := lt_of_lt_of_eq t.isLt N_0
  have hn := n.isLt
  show (V m c main_v0 : S2x131072x256.Idx → EReal) (((cfg0.win 0).blk t).view.emb (ix3 (0 : Fin 1) n d)) = _
  rw [samples_viewed, samples_entry_at t n d (by omega) (by omega)]
  refine shapeCast_apply _ _ _ _ ?_
  show (S262144x256.rowMajor (ix2 ⟨2048 * t.val + n.val, h⟩ d)).val
    = (S2x131072x256.rowMajor (ix3 ⟨t.val / 64, _⟩ ⟨t.val % 64 * 2048 + n.val, _⟩ d)).val
  rw [Shape.rowMajor_val_two, Shape.rowMajor_val_three]
  show (2048 * t.val + n.val) * 256 + d.val = (t.val / 64 * 131072 + (t.val % 64 * 2048 + n.val)) * 256 + d.val
  omega

private theorem lblk_row (c : Dev nD) (t : Fin cfg0.N) (n : Fin 2048) (h : 2048 * t.val + n.val < 262144) :
    lblk m c t (ix3 (0 : Fin 1) n (0 : Fin 1)) = L m c (ix1 ⟨2048 * t.val + n.val, h⟩) := by
  have ht : t.val < 128 := lt_of_lt_of_eq t.isLt N_0
  have hn := n.isLt
  show (V m c main_v1 : S2x131072x1.Idx → BitVec 32) (((cfg0.win 1).blk t).view.emb (ix3 (0 : Fin 1) n (0 : Fin 1))) = _
  rw [labels_viewed, labels_entry_at t n (by omega) (by omega)]
  refine shapeCast_apply _ _ _ _ ?_
  show (S262144.rowMajor (ix1 ⟨2048 * t.val + n.val, h⟩)).val
    = (S2x131072x1.rowMajor (ix3 ⟨t.val / 64, _⟩ ⟨t.val % 64 * 2048 + n.val, _⟩ (0 : Fin 1))).val
  rw [Shape.rowMajor_val_one, Shape.rowMajor_val_three]
  show 2048 * t.val + n.val = (t.val / 64 * 131072 + (t.val % 64 * 2048 + n.val)) * 1 + 0
  omega

/-- A row of the centers window below 1000 is that center. -/
private theorem cblk_center (c : Dev nD) (t : Fin cfg0.N) (k : Fin 1024) (d : Fin 256) (h : k.val < 1000) :
    cblk m c t (ix2 k d) = C m c (ix2 ⟨k.val, h⟩ d) := by
  show (V m c main_v2 : S1024x256.Idx → EReal) (((cfg0.win 2).blk t).view.emb (ix2 k d)) = _
  rw [centers_padded, centers_entry_at t k d]
  refine pad_apply_of_inside _ _ _ _ _ _ _ _ (ix2 ⟨k.val, h⟩ d) (fun a => ?_)
  match a with
  | ⟨0, _⟩ => show k.val = 0 + k.val * (0 + 1); omega
  | ⟨1, _⟩ => show d.val = 0 + d.val * (0 + 1); omega

/-- A row of the centers window from 1000 on is padding: the zero word converted, which is zero. -/
private theorem cblk_padding (c : Dev nD) (t : Fin cfg0.N) (k : Fin 1024) (d : Fin 256) (h : ¬k.val < 1000) :
    cblk m c t (ix2 k d) = 0 := by
  show (V m c main_v2 : S1024x256.Idx → EReal) (((cfg0.win 2).blk t).view.emb (ix2 k d)) = _
  rw [centers_padded, centers_entry_at t k d]
  refine (pad_apply_of_not_inside _ _ _ _ _ _ _ _ (0 : Fin 2) ?_).trans ?_
  · show ¬(0 ≤ k.val ∧ (k.val - 0) % (0 + 1) = 0 ∧ (k.val - 0) / (0 + 1) < 1000)
    omega
  · exact sitofp_zero (φ := .f32)

/-- Entry (n, d) of point t's block of samples is feature d of row 2048·t + n. -/
theorem xblk_apply (c : Dev nD) (t : Fin cfg0.N) (n : Fin 2048) (d : Fin 256) :
    xblk m c t (ix3 (0 : Fin 1) n d) = Cert.CenterSpec.xAt (X m c) (2048 * t.val + n.val) d := by
  have ht : t.val < 128 := lt_of_lt_of_eq t.isLt N_0
  have hn := n.isLt
  have h : 2048 * t.val + n.val < 262144 := by omega
  refine (xblk_row m c t n d h).trans ?_
  unfold Cert.CenterSpec.xAt
  rw [dif_pos h]

/-- Entry n of point t's block of labels is the label word of row 2048·t + n. -/
theorem lblk_apply (c : Dev nD) (t : Fin cfg0.N) (n : Fin 2048) :
    lblk m c t (ix3 (0 : Fin 1) n (0 : Fin 1)) = Cert.CenterSpec.labAt (L m c) (2048 * t.val + n.val) := by
  have ht : t.val < 128 := lt_of_lt_of_eq t.isLt N_0
  have hn := n.isLt
  have h : 2048 * t.val + n.val < 262144 := by omega
  refine (lblk_row m c t n h).trans ?_
  unfold Cert.CenterSpec.labAt
  rw [dif_pos h]

/-- Entry (k, d) of the centers window is feature d of the center of class k: zero on the 24 padding rows. -/
theorem cblk_apply (c : Dev nD) (t : Fin cfg0.N) (k : Fin 1024) (d : Fin 256) :
    cblk m c t (ix2 k d) = Cert.CenterSpec.cenRow (C m c) k.val d := by
  unfold Cert.CenterSpec.cenRow
  by_cases h : k.val < 1000
  · rw [dif_pos h]; exact cblk_center m c t k d h
  · rw [dif_neg h]; exact cblk_padding m c t k d h

/-- Output windows 3, 4 and 5 are written back exactly at the last tile of a shard. -/
theorem flush3_iff : ∀ t : Fin cfg0.N, (cfg0.win 3).flush t = true ↔ t.val % 64 = 63 := by
  exact flush0_3
theorem flush4_iff : ∀ t : Fin cfg0.N, (cfg0.win 4).flush t = true ↔ t.val % 64 = 63 := by
  exact flush0_4
theorem flush5_iff : ∀ t : Fin cfg0.N, (cfg0.win 5).flush t = true ↔ t.val % 64 = 63 := by
  exact flush0_5

end Cert.CenterBlocks

end
-- ==== Proof.Invariant.lean ====
import proofs.«422883_j76115410420300_3_alg».proof.Proof.PiecesA
import proofs.«422883_j76115410420300_3_alg».proof.Proof.PiecesB
import proofs.«422883_j76115410420300_3_alg».proof.Proof.PiecesC
import proofs.«422883_j76115410420300_3_alg».proof.Proof.PayAlg
import proofs.«422883_j76115410420300_3_alg».proof.Proof.Blocks
import proofs.«422883_j76115410420300_3_alg».proof.Proof.Spec

/-!
  What the carried buffers hold after each grid point, by induction over the points. Point t is tile t % 64 of shard
  t / 64 and works on rows 2048·t … 2048·t + 2047. After it the three accumulators hold the sums, over the rows of the
  shard up to and including this tile, of the per-row terms of the specification; the high part of the centers is
  the padded centers and the low part is zero. At a shard's last tile the three outputs' blocks are the accumulators.
-/

set_option maxRecDepth 16384

noncomputable section

namespace Cert.CenterInv

open Idealize.ShloMosaic Idealize.ShloMosaic.TcCoe Idealize.SL.Sem Idealize.ShloMosaic.ValueIdx
open Cert.KernelIdeal Cert.KernelIdeal.Gen
open Cert.CenterSpec Cert.CenterBlocks Cert.CenterPay Cert.CenterPieces

variable (m : (ℓ : Loc nD τ sig) → Buf (Elt Ideal) ℓ)

/-- The rows of point t's shard up to and including point t's tile. -/
abbrev rowsUpTo (t : ℕ) : Finset ℕ := Finset.Ico (131072 * (t / 64)) (2048 * (t + 1))

/-! ## Sums over a tile's rows -/

/-- A sum over the 2048 rows of tile t is the sum over the interval of their row numbers. -/
theorem tile_sum (f : ℕ → EReal) (t : ℕ) :
    ∑ n : Fin 2048, f (2048 * t + n.val) = ∑ N ∈ Finset.Ico (2048 * t) (2048 * (t + 1)), f N := by
  rw [Finset.sum_Ico_eq_sum_range, Fin.sum_univ_eq_sum_range (fun n => f (2048 * t + n)) 2048]
  have e : 2048 * (t + 1) - 2048 * t = 2048 := by omega
  rw [e]

/-- Extending a sum over rows lo … 2048·t − 1 by tile t. -/
theorem extend_sum (f : ℕ → EReal) (lo t : ℕ) (h : lo ≤ 2048 * t) :
    ∑ N ∈ Finset.Ico lo (2048 * t), f N + ∑ n : Fin 2048, f (2048 * t + n.val)
      = ∑ N ∈ Finset.Ico lo (2048 * (t + 1)), f N := by
  rw [tile_sum, Finset.sum_Ico_consecutive f h (by omega)]

/-- Every index of a 1 × 2048 × 256 block is (0, n, d). -/
theorem blk3_eta (i : S1x2048x256.Idx) : ∃ (n : Fin 2048) (d : Fin 256), i = ix3 (0 : Fin 1) n d :=
  ⟨i 1, i 2, by
    funext a
    match a with
    | ⟨0, _⟩ => exact Subsingleton.elim (α := Fin 1) _ _
    | ⟨1, _⟩ => rfl
    | ⟨2, _⟩ => rfl⟩

/-- A row of a table that is the padded centers is the center the word names (zero when it names none). -/
theorem rowOf_centers (c : Dev nD) (chi : Vec Ideal S1024x256 .bf16)
    (h : ∀ (k : Fin 1024) (d : Fin 256), chi (ix2 k d) = cenRow (C m c) k.val d) (w : ℕ) (d : Fin 256) :
    rowOf chi w d = cenRow (C m c) w d := by
  unfold rowOf
  by_cases hw : w < 1024
  · rw [dif_pos hw, h ⟨w, hw⟩ d]
  · rw [dif_neg hw]
    unfold cenRow
    rw [dif_neg (by omega)]

/-! ## One tile -/

/-- If before tile t the accumulators hold the sums over rows lo … 2048·t − 1 and the split centers are the padded
    centers and zero, then the tile's stored values hold the sums over rows lo … 2048·(t + 1) − 1. -/
theorem advance (hx : ∀ c i, ∃ r : ℝ, X m c i = (r : EReal)) (c : Dev nD) (t : Fin cfg0.N) (lo : ℕ) (hlo : lo ≤ 2048 * t.val)
    (p0 : Vec Ideal S1024x256 .f32) (p1 : Vec Ideal S1x1024 .f32) (p2 : Vec Ideal S1x1 .f32)
    (p3 p4 : Vec Ideal S1024x256 .bf16)
    (h0 : ∀ (k : Fin 1024) (d : Fin 256), p0 (ix2 k d) = ∑ N ∈ Finset.Ico lo (2048 * t.val), sumTerm (X m c) (L m c) k.val d N)
    (h1 : ∀ k : Fin 1024, p1 (ix2 (0 : Fin 1) k) = ∑ N ∈ Finset.Ico lo (2048 * t.val), cntTerm (L m c) k.val N)
    (h2 : p2 (ix2 (0 : Fin 1) (0 : Fin 1)) = ∑ N ∈ Finset.Ico lo (2048 * t.val), distAt (X m c) (L m c) (C m c) N)
    (h3 : ∀ (k : Fin 1024) (d : Fin 256), p3 (ix2 k d) = cenRow (C m c) k.val d)
    (h4 : ∀ i, p4 i = (0 : EReal)) :
    (∀ (k : Fin 1024) (d : Fin 256), k0_pay2 (F := Ideal) (k0_pay12 (xblk m c t)) (k0_pay14 (lblk m c t)) p0 (ix2 k d)
        = ∑ N ∈ Finset.Ico lo (2048 * (t.val + 1)), sumTerm (X m c) (L m c) k.val d N)
    ∧ (∀ k : Fin 1024, k0_pay15 (F := Ideal) (lblk m c t) p1 (ix2 (0 : Fin 1) k)
        = ∑ N ∈ Finset.Ico lo (2048 * (t.val + 1)), cntTerm (L m c) k.val N)
    ∧ (k0_pay1 (F := Ideal) (k0_pay16 (xblk m c t) (lblk m c t) p3 p4) p2 (ix2 (0 : Fin 1) (0 : Fin 1))
        = ∑ N ∈ Finset.Ico lo (2048 * (t.val + 1)), distAt (X m c) (L m c) (C m c) N) := by
  have hxb : ∀ i, ∃ r : ℝ, xblk m c t i = (r : EReal) := fun i => by
    obtain ⟨n, d, rfl⟩ := blk3_eta i
    rw [xblk_apply]
    unfold xAt
    split
    · exact hx c _
    · exact ⟨0, by simp⟩
  refine ⟨fun k d => ?_, fun k => ?_, ?_⟩
  · rw [pay2_apply (xblk m c t) (lblk m c t) p0 hxb k d, h0 k d, ← extend_sum _ lo t.val hlo]
    refine congrArg (_ + ·) (Finset.sum_congr rfl fun n _ => ?_)
    rw [lblk_apply, xblk_apply]
    rfl
  · rw [pay15_apply (lblk m c t) p1 k, h1 k, ← extend_sum _ lo t.val hlo]
    refine congrArg (_ + ·) (Finset.sum_congr rfl fun n _ => ?_)
    rw [lblk_apply]
    rfl
  · rw [pay1_apply, h2, ← extend_sum _ lo t.val hlo]
    refine congrArg (_ + ·) (Finset.sum_congr rfl fun n _ => ?_)
    rw [pay16_apply (xblk m c t) (lblk m c t) p3 p4 h4 n]
    unfold distAt
    refine congrArg Ideal.sqrt (Finset.sum_congr rfl fun d _ => ?_)
    rw [rowOf_centers m c p3 h3, lblk_apply, xblk_apply]

/-! ## All points -/

/-- What holds of the carried buffers (the last five components) after the point numbered t. -/
def Holds (c : Dev nD) (o : Vec Ideal S1x1024x256 .f32 × Vec Ideal S1x1x1024 .f32 × Vec Ideal S1x1x1 .f32 × Vec Ideal S1024x256 .f32 × Vec Ideal S1x1024 .f32 × Vec Ideal S1x1 .f32 × Vec Ideal S1024x256 .bf16 × Vec Ideal S1024x256 .bf16) (t : ℕ) : Prop :=
  (∀ (k : Fin 1024) (d : Fin 256), o.2.2.2.1 (ix2 k d) = ∑ N ∈ rowsUpTo t, sumTerm (X m c) (L m c) k.val d N)
  ∧ (∀ k : Fin 1024, o.2.2.2.2.1 (ix2 (0 : Fin 1) k) = ∑ N ∈ rowsUpTo t, cntTerm (L m c) k.val N)
  ∧ (o.2.2.2.2.2.1 (ix2 (0 : Fin 1) (0 : Fin 1)) = ∑ N ∈ rowsUpTo t, distAt (X m c) (L m c) (C m c) N)
  ∧ (∀ (k : Fin 1024) (d : Fin 256), o.2.2.2.2.2.2.1 (ix2 k d) = cenRow (C m c) k.val d)
  ∧ (∀ i, o.2.2.2.2.2.2.2 i = (0 : EReal))

/-- The padded centers are real numbers, so their low part is zero and their high part is themselves. -/
theorem split_centers (hc : ∀ c i, ∃ r : ℝ, C m c i = (r : EReal)) (c : Dev nD) (t : Fin cfg0.N) :
    (∀ (k : Fin 1024) (d : Fin 256), k0_pay10 (F := Ideal) (cblk m c t) (ix2 k d) = cenRow (C m c) k.val d)
    ∧ (∀ i, k0_pay11 (F := Ideal) (cblk m c t) i = (0 : EReal)) := by
  have hcb : ∀ i, ∃ r : ℝ, cblk m c t i = (r : EReal) := fun i => by
    obtain ⟨p, q, rfl⟩ : ∃ (p : Fin 1024) (q : Fin 256), i = ix2 p q := ⟨i 0, i 1, eq_ix2 i⟩
    rw [cblk_apply]
    unfold cenRow
    split
    · exact hc c _
    · exact ⟨0, by simp⟩
  refine ⟨fun k d => ?_, fun i => ?_⟩
  · rw [pay10_eq, cblk_apply]
  · rw [pay11_eq _ hcb]

/-- The first tile of a shard: the accumulators start from zero and the centers are split afresh. -/
theorem holds_A (hx : ∀ c i, ∃ r : ℝ, X m c i = (r : EReal)) (hc : ∀ c i, ∃ r : ℝ, C m c i = (r : EReal))
    (c : Dev nD) (t : Fin cfg0.N) (h0 : t.val % 64 = 0) : Holds m c (outsAt0 m c t.val t.isLt) t.val := by
  have h1 : ¬ t.val % 64 = 63 := by omega
  rw [outsAt0_A m c t h0 h1]
  unfold Holds
  dsimp only
  obtain ⟨s3, s4⟩ := split_centers m hc c t
  have e : rowsUpTo t.val = Finset.Ico (2048 * t.val) (2048 * (t.val + 1)) := by
    show Finset.Ico _ _ = _
    have lo : 131072 * (t.val / 64) = 2048 * t.val := by omega
    rw [lo]
  obtain ⟨a0, a1, a2⟩ := advance m hx c t (2048 * t.val) (le_refl _) (k0_pay6 (F := Ideal)) (k0_pay7 (F := Ideal))
    (k0_pay8 (F := Ideal)) (k0_pay10 (cblk m c t)) (k0_pay11 (cblk m c t))
    (fun k d => by rw [pay6_eq, Finset.Ico_self, Finset.sum_empty])
    (fun k => by rw [pay7_eq, Finset.Ico_self, Finset.sum_empty])
    (by rw [pay8_eq, Finset.Ico_self, Finset.sum_empty]) s3 s4
  rw [e]
  refine ⟨fun k d => ?_, fun k => ?_, ?_, fun k d => ?_, fun i => ?_⟩
  · exact (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t)) (ix2 k d)).trans (a0 k d)
  · exact (congrFun (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t)) (ix2 (0 : Fin 1) k)).trans (a1 k)
  · exact (congrFun (sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t)) (ix2 (0 : Fin 1) (0 : Fin 1))).trans a2
  · exact (congrFun (sout0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t)) (ix2 k d)).trans (s3 k d)
  · exact (congrFun (sout0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t)) i).trans (s4 i)

/-- What a later tile needs of the tile before, restated over the interval the next tile extends. -/
theorem prev_facts (c : Dev nD) (n : ℕ) (h0 : ¬ n % 64 = 0) (hn : 0 < n) (prev : Vec Ideal S1x1024x256 .f32 × Vec Ideal S1x1x1024 .f32 × Vec Ideal S1x1x1 .f32 × Vec Ideal S1024x256 .f32 × Vec Ideal S1x1024 .f32 × Vec Ideal S1x1 .f32 × Vec Ideal S1024x256 .bf16 × Vec Ideal S1024x256 .bf16)
    (ih : Holds m c prev (n - 1)) :
    (∀ (k : Fin 1024) (d : Fin 256), prev.2.2.2.1 (ix2 k d) = ∑ N ∈ Finset.Ico (131072 * (n / 64)) (2048 * n), sumTerm (X m c) (L m c) k.val d N)
    ∧ (∀ k : Fin 1024, prev.2.2.2.2.1 (ix2 (0 : Fin 1) k) = ∑ N ∈ Finset.Ico (131072 * (n / 64)) (2048 * n), cntTerm (L m c) k.val N)
    ∧ (prev.2.2.2.2.2.1 (ix2 (0 : Fin 1) (0 : Fin 1)) = ∑ N ∈ Finset.Ico (131072 * (n / 64)) (2048 * n), distAt (X m c) (L m c) (C m c) N)
    ∧ (∀ (k : Fin 1024) (d : Fin 256), prev.2.2.2.2.2.2.1 (ix2 k d) = cenRow (C m c) k.val d)
    ∧ (∀ i, prev.2.2.2.2.2.2.2 i = (0 : EReal)) := by
  have e : rowsUpTo (n - 1) = Finset.Ico (131072 * (n / 64)) (2048 * n) := by
    show Finset.Ico _ _ = _
    have lo : 131072 * ((n - 1) / 64) = 131072 * (n / 64) := by omega
    have hi : 2048 * (n - 1 + 1) = 2048 * n := by omega
    rw [lo, hi]
  unfold Holds at ih
  rw [e] at ih
  exact ih

/-- A tile that is neither first nor last of its shard extends what the tile before left. -/
theorem holds_B (hx : ∀ c i, ∃ r : ℝ, X m c i = (r : EReal)) (c : Dev nD) (t : Fin cfg0.N)
    (h0 : ¬ t.val % 64 = 0) (h1 : ¬ t.val % 64 = 63)
    (ih : Holds m c (outsAt0 m c (t.val - 1) (Nat.lt_of_le_of_lt (Nat.sub_le _ _) t.isLt)) (t.val - 1)) :
    Holds m c (outsAt0 m c t.val t.isLt) t.val := by
  rw [outsAt0_B m c t h0 h1]
  generalize outsAt0 m c (t.val - 1) _ = prev at ih ⊢
  obtain ⟨p0, p1, p2, p3, p4⟩ := prev_facts m c t.val h0 (by omega) prev ih
  obtain ⟨a0, a1, a2⟩ := advance m hx c t (131072 * (t.val / 64)) (by omega) prev.2.2.2.1 prev.2.2.2.2.1
    prev.2.2.2.2.2.1 prev.2.2.2.2.2.2.1 prev.2.2.2.2.2.2.2 p0 p1 p2 p3 p4
  unfold Holds
  dsimp only
  refine ⟨fun k d => ?_, fun k => ?_, ?_, fun k d => ?_, fun i => ?_⟩
  · exact (congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t) prev.2.2.2.1 prev.2.2.2.2.1 prev.2.2.2.2.2.1 prev.2.2.2.2.2.2.1 prev.2.2.2.2.2.2.2) (ix2 k d)).trans (a0 k d)
  · exact (congrFun (sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t) prev.2.2.2.1 prev.2.2.2.2.1 prev.2.2.2.2.2.1 prev.2.2.2.2.2.2.1 prev.2.2.2.2.2.2.2) (ix2 (0 : Fin 1) k)).trans (a1 k)
  · exact (congrFun (sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t) prev.2.2.2.1 prev.2.2.2.2.1 prev.2.2.2.2.2.1 prev.2.2.2.2.2.2.1 prev.2.2.2.2.2.2.2) (ix2 (0 : Fin 1) (0 : Fin 1))).trans a2
  · exact p3 k d
  · exact p4 i

/-- The last tile of a shard extends what the tile before left in the same way. -/
theorem holds_C (hx : ∀ c i, ∃ r : ℝ, X m c i = (r : EReal)) (c : Dev nD) (t : Fin cfg0.N)
    (h0 : ¬ t.val % 64 = 0) (h1 : t.val % 64 = 63)
    (ih : Holds m c (outsAt0 m c (t.val - 1) (Nat.lt_of_le_of_lt (Nat.sub_le _ _) t.isLt)) (t.val - 1)) :
    Holds m c (outsAt0 m c t.val t.isLt) t.val := by
  rw [outsAt0_C m c t h0 h1]
  generalize outsAt0 m c (t.val - 1) _ = prev at ih ⊢
  obtain ⟨p0, p1, p2, p3, p4⟩ := prev_facts m c t.val h0 (by omega) prev ih
  obtain ⟨a0, a1, a2⟩ := advance m hx c t (131072 * (t.val / 64)) (by omega) prev.2.2.2.1 prev.2.2.2.2.1
    prev.2.2.2.2.2.1 prev.2.2.2.2.2.2.1 prev.2.2.2.2.2.2.2 p0 p1 p2 p3 p4
  unfold Holds
  dsimp only
  refine ⟨fun k d => ?_, fun k => ?_, ?_, fun k d => ?_, fun i => ?_⟩
  · exact (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t) prev.2.2.2.1 prev.2.2.2.2.1 prev.2.2.2.2.2.1 prev.2.2.2.2.2.2.1 prev.2.2.2.2.2.2.2) (ix2 k d)).trans (a0 k d)
  · exact (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t) prev.2.2.2.1 prev.2.2.2.2.1 prev.2.2.2.2.2.1 prev.2.2.2.2.2.2.1 prev.2.2.2.2.2.2.2) (ix2 (0 : Fin 1) k)).trans (a1 k)
  · exact (congrFun (sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t) prev.2.2.2.1 prev.2.2.2.2.1 prev.2.2.2.2.2.1 prev.2.2.2.2.2.2.1 prev.2.2.2.2.2.2.2) (ix2 (0 : Fin 1) (0 : Fin 1))).trans a2
  · exact p3 k d
  · exact p4 i

/-- After every point the carried buffers are as described. -/
theorem holds (hx : ∀ c i, ∃ r : ℝ, X m c i = (r : EReal)) (hc : ∀ c i, ∃ r : ℝ, C m c i = (r : EReal)) (c : Dev nD) :
    ∀ (n : ℕ) (hn : n < cfg0.N), Holds m c (outsAt0 m c n hn) n := by
  intro n
  induction n with
  | zero => exact fun hn => holds_A m hx hc c ⟨0, hn⟩ rfl
  | succ n ih =>
    intro hn
    by_cases h0 : (n + 1) % 64 = 0
    · exact holds_A m hx hc c ⟨n + 1, hn⟩ h0
    · have ihn : Holds m c (outsAt0 m c n (Nat.lt_of_succ_lt hn)) n := ih _
      by_cases h1 : (n + 1) % 64 = 63
      · exact holds_C m hx c ⟨n + 1, hn⟩ h0 h1 ihn
      · exact holds_B m hx c ⟨n + 1, hn⟩ h0 h1 ihn

/-- After point t: the accumulators are the sums over the shard's rows so far, the split centers are (centers, 0). -/
theorem inv (hx : ∀ c i, ∃ r : ℝ, X m c i = (r : EReal)) (hc : ∀ c i, ∃ r : ℝ, C m c i = (r : EReal))
    (c : Dev nD) (t : Fin cfg0.N) :
    (∀ (k : Fin 1024) (d : Fin 256), (outsAt0 m c t.val t.isLt).2.2.2.1 (ix2 k d) = ∑ N ∈ rowsUpTo t.val, sumTerm (X m c) (L m c) k.val d N)
    ∧ (∀ k : Fin 1024, (outsAt0 m c t.val t.isLt).2.2.2.2.1 (ix2 (0 : Fin 1) k) = ∑ N ∈ rowsUpTo t.val, cntTerm (L m c) k.val N)
    ∧ ((outsAt0 m c t.val t.isLt).2.2.2.2.2.1 (ix2 (0 : Fin 1) (0 : Fin 1)) = ∑ N ∈ rowsUpTo t.val, distAt (X m c) (L m c) (C m c) N)
    ∧ (∀ (k : Fin 1024) (d : Fin 256), (outsAt0 m c t.val t.isLt).2.2.2.2.2.2.1 (ix2 k d) = cenRow (C m c) k.val d)
    ∧ (∀ i, (outsAt0 m c t.val t.isLt).2.2.2.2.2.2.2 i = (0 : EReal)) :=
  holds m hx hc c t.val t.isLt

/-! ## A shard's last tile writes the accumulators out -/

/-- At a shard's last tile each output's block is the accumulator it is cast from. -/
theorem outs_eq_accs (c : Dev nD) (t : Fin cfg0.N) (h0 : ¬ t.val % 64 = 0) (h63 : t.val % 64 = 63) :
    (∀ (k : Fin 1024) (d : Fin 256), (outsAt0 m c t.val t.isLt).1 (ix3 (0 : Fin 1) k d) = (outsAt0 m c t.val t.isLt).2.2.2.1 (ix2 k d))
    ∧ (∀ k : Fin 1024, (outsAt0 m c t.val t.isLt).2.1 (ix3 (0 : Fin 1) (0 : Fin 1) k) = (outsAt0 m c t.val t.isLt).2.2.2.2.1 (ix2 (0 : Fin 1) k))
    ∧ ((outsAt0 m c t.val t.isLt).2.2.1 (ix3 (0 : Fin 1) (0 : Fin 1) (0 : Fin 1)) = (outsAt0 m c t.val t.isLt).2.2.2.2.2.1 (ix2 (0 : Fin 1) (0 : Fin 1))) := by
  rw [outsAt0_C m c t h0 h63]
  generalize outsAt0 m c (t.val - 1) _ = prev
  dsimp only
  refine ⟨fun k d => ?_, fun k => ?_, ?_⟩
  · rw [out0_C_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t) prev.2.2.2.1 prev.2.2.2.2.1 prev.2.2.2.2.2.1 prev.2.2.2.2.2.2.1 prev.2.2.2.2.2.2.2, sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t) prev.2.2.2.1 prev.2.2.2.2.1 prev.2.2.2.2.2.1 prev.2.2.2.2.2.2.1 prev.2.2.2.2.2.2.2]
    exact pay3_apply _ k d
  · rw [out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t) prev.2.2.2.1 prev.2.2.2.2.1 prev.2.2.2.2.2.1 prev.2.2.2.2.2.2.1 prev.2.2.2.2.2.2.2, sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t) prev.2.2.2.1 prev.2.2.2.2.1 prev.2.2.2.2.2.1 prev.2.2.2.2.2.2.1 prev.2.2.2.2.2.2.2]
    exact pay4_apply _ k
  · rw [out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t) prev.2.2.2.1 prev.2.2.2.2.1 prev.2.2.2.2.2.1 prev.2.2.2.2.2.2.1 prev.2.2.2.2.2.2.2, sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) _ _ (iblk m c 0 t) (iblk m c 1 t) (iblk m c 2 t) prev.2.2.2.1 prev.2.2.2.2.1 prev.2.2.2.2.2.1 prev.2.2.2.2.2.2.1 prev.2.2.2.2.2.2.2]
    exact pay5_apply _

/-- At a shard's last tile the block written out for the segment sums is the accumulator. -/
theorem out3_at (hx : ∀ c i, ∃ r : ℝ, X m c i = (r : EReal)) (hc : ∀ c i, ∃ r : ℝ, C m c i = (r : EReal))
    (c : Dev nD) (t : Fin cfg0.N) (h63 : t.val % 64 = 63) (k : Fin 1024) (d : Fin 256) :
    (outsAt0 m c t.val t.isLt).1 (ix3 (0 : Fin 1) k d) = ∑ N ∈ rowsUpTo t.val, sumTerm (X m c) (L m c) k.val d N :=
  ((outs_eq_accs m c t (by omega) h63).1 k d).trans ((inv m hx hc c t).1 k d)

/-- At a shard's last tile the block written out for the segment counts is the accumulator. -/
theorem out4_at (hx : ∀ c i, ∃ r : ℝ, X m c i = (r : EReal)) (hc : ∀ c i, ∃ r : ℝ, C m c i = (r : EReal))
    (c : Dev nD) (t : Fin cfg0.N) (h63 : t.val % 64 = 63) (k : Fin 1024) :
    (outsAt0 m c t.val t.isLt).2.1 (ix3 (0 : Fin 1) (0 : Fin 1) k) = ∑ N ∈ rowsUpTo t.val, cntTerm (L m c) k.val N :=
  ((outs_eq_accs m c t (by omega) h63).2.1 k).trans ((inv m hx hc c t).2.1 k)

/-- At a shard's last tile the block written out for the summed distances is the accumulator. -/
theorem out5_at (hx : ∀ c i, ∃ r : ℝ, X m c i = (r : EReal)) (hc : ∀ c i, ∃ r : ℝ, C m c i = (r : EReal))
    (c : Dev nD) (t : Fin cfg0.N) (h63 : t.val % 64 = 63) :
    (outsAt0 m c t.val t.isLt).2.2.1 (ix3 (0 : Fin 1) (0 : Fin 1) (0 : Fin 1)) = ∑ N ∈ rowsUpTo t.val, distAt (X m c) (L m c) (C m c) N :=
  (outs_eq_accs m c t (by omega) h63).2.2.trans (inv m hx hc c t).2.2.1

end Cert.CenterInv

end
-- ==== Proof.Outputs.lean ====
import proofs.«422883_j76115410420300_3_alg».proof.Proof.Invariant
import proofs.«422883_j76115410420300_3_alg».proof.Proof.OutArrays
import Idealize.ShloMosaic.Lib.Pipeline.Value

/-!
  The three output arrays after the region. Each output's window is one block per shard, written back at the shard's
  last tile only, and the two blocks tile the array; so entry (s, …) of each array is what the accumulator held after
  the last tile of shard s: the sum of the per-row terms over the rows 131072·s … 131072·s + 131071 of that shard.
-/

set_option maxRecDepth 16384

noncomputable section

namespace Cert.CenterOut

open Idealize.ShloMosaic Idealize.ShloMosaic.TcCoe Idealize.SL.Sem Idealize.ShloMosaic.ValueIdx
open Cert.KernelIdeal Cert.KernelIdeal.Gen
open Cert.CenterSpec Cert.CenterBlocks

variable (m : (ℓ : Loc nD τ sig) → Buf (Elt Ideal) ℓ)

/-- The rows of shard s. -/
abbrev shardRows (s : ℕ) : Finset ℕ := Finset.Ico (131072 * s) (131072 * (s + 1))

/-! ## Shards and their last tiles -/

/-- At the last tile of a shard, the rows of the shard up to and including that tile are all the shard's rows. -/
theorem rows_at_last (t s : ℕ) (h63 : t % 64 = 63) (hs : t / 64 = s) : Cert.CenterInv.rowsUpTo t = shardRows s := by
  have e : 2048 * (t + 1) = 131072 * (s + 1) := by omega
  show Finset.Ico (131072 * (t / 64)) (2048 * (t + 1)) = Finset.Ico (131072 * s) (131072 * (s + 1))
  rw [e, hs]

/-! ## The segment sums -/

/-- The array of per-shard segment sums the statement describes. -/
def G3 (c : Dev nD) : FVec Ideal S2x1024x256 .f32 :=
  fun i => ∑ N ∈ shardRows (i 0).val, sumTerm (X m c) (L m c) (i 1).val (i 2) N

/-- The window's block at point t is block (t / 64, 0, 0). -/
theorem sums_block_index : ∀ t : Fin cfg0.N, win0_3.index t (0 : Fin 3) = t.val / 64
    ∧ win0_3.index t (1 : Fin 3) = 0 ∧ win0_3.index t (2 : Fin 3) = 0 :=
  (by decide +kernel : ∀ t : Fin grid0.N, _)

/-- Entry (0, k, d) of point t's block is entry (t / 64, k, d) of the array. -/
theorem sums_entry_at (t : Fin cfg0.N) (k : Fin 1024) (d : Fin 256) (h1 : t.val / 64 < 2) :
    ((cfg0.win 3).blk t).view.emb (ix3 (0 : Fin 1) k d) = ix3 ⟨t.val / 64, h1⟩ k d := by
  obtain ⟨e0, e1, e2⟩ := sums_block_index t
  funext a; apply Fin.ext
  match a with
  | ⟨0, _⟩ => show win0_3.index t (0 : Fin 3) * 1 + 1 * 0 = t.val / 64; omega
  | ⟨1, _⟩ => show win0_3.index t (1 : Fin 3) * 1024 + 1 * k.val = k.val; omega
  | ⟨2, _⟩ => show win0_3.index t (2 : Fin 3) * 256 + 1 * d.val = d.val; omega

/-- What a shard's last tile writes back is its block of the array of segment sums. -/
theorem flushed3_eq (hx : ∀ c i, ∃ r : ℝ, X m c i = (r : EReal)) (hc : ∀ c i, ∃ r : ℝ, C m c i = (r : EReal))
    (c : Dev nD) (t : Fin cfg0.N) (hf : (cfg0.win 3).flush t = true) :
    (dats m 0 c).flushed 3 t = ((cfg0.win 3).blk t).view.read (Elt Ideal) (G3 m c) := by
  have h63 : t.val % 64 = 63 := (flush3_iff t).mp hf
  have ht : t.val < 128 := lt_of_lt_of_eq t.isLt N_0
  show (cfg0.win 3).cut (grid0.coords t) ((dats m 0 c).after 3 t) = _
  rw [after0_3 m c t]
  funext y
  obtain ⟨a, k, d, rfl⟩ : ∃ (a : Fin 1) (k : Fin 1024) (d : Fin 256), y = ix3 a k d :=
    ⟨y 0, y 1, y 2, eq_ix3 (n0 := 1) (n1 := 1024) (n2 := 256) y⟩
  obtain rfl : a = 0 := Subsingleton.elim _ _
  show (outsAt0 m c t.val t.isLt).1 (ix3 (0 : Fin 1) k d) = G3 m c (((cfg0.win 3).blk t).view.emb (ix3 (0 : Fin 1) k d))
  rw [sums_entry_at t k d (by omega), Cert.CenterInv.out3_at m hx hc c t h63 k d, rows_at_last t.val (t.val / 64) h63 rfl]
  rfl

/-- An index of the array is in point t's block when each coordinate is in the block's range on its axis. -/
theorem mem_blk3 (t : Fin cfg0.N) (i : S2x1024x256.Idx) :
    i ∈ ((cfg0.win 3).blk t).view.set ↔ ∀ a : Fin 3, win0_3.index t a * S1x1024x256.size a ≤ (i a).val
      ∧ (i a).val < win0_3.index t a * S1x1024x256.size a + S1x1024x256.size a := by
  show i ∈ ((View.whole main_v3_0).slice (win0_3.rect t)).set ↔ _
  rw [View.set_slice_whole, Rect.mem_set_unit]
  exact Iff.rfl

/-- Every entry (s, k, d) is in the block the last tile of shard s writes back. -/
theorem cover3 (i : S2x1024x256.Idx) :
    ∃ t : Fin cfg0.N, (cfg0.win 3).flush t = true ∧ i ∈ ((cfg0.win 3).blk t).view.set := by
  have h0 : (i 0).val < 2 := (i 0).isLt
  have h1 : (i 1).val < 1024 := (i 1).isLt
  have h2 : (i 2).val < 256 := (i 2).isLt
  obtain ⟨t, et⟩ : ∃ t : Fin cfg0.N, t.val = 64 * (i 0).val + 63 :=
    ⟨⟨64 * (i 0).val + 63, lt_of_lt_of_eq (by omega) N_0.symm⟩, rfl⟩
  refine ⟨t, (flush3_iff t).mpr (by omega), ?_⟩
  rw [mem_blk3]
  obtain ⟨e0, e1, e2⟩ := sums_block_index t
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1024 ≤ (i 1).val ∧ (i 1).val < win0_3.index t (1 : Fin 3) * 1024 + 1024
    omega
  | ⟨2, _⟩ =>
    show win0_3.index t (2 : Fin 3) * 256 ≤ (i 2).val ∧ (i 2).val < win0_3.index t (2 : Fin 3) * 256 + 256
    omega

/-- After the region the array of segment sums is the one the statement describes. -/
theorem A3_eq (hx : ∀ c i, ∃ r : ℝ, X m c i = (r : EReal)) (hc : ∀ c i, ∃ r : ℝ, C m c i = (r : EReal)) (c : Dev nD) :
    A3 m c = G3 m c :=
  (dats m 0 c).arrAt_eq_of_cover 3 (G3 m c) (fun t hf => flushed3_eq m hx hc c t hf) cover3

/-! ## The segment counts -/

/-- The array of per-shard segment counts the statement describes. -/
def G4 (c : Dev nD) : FVec Ideal S2x1x1024 .f32 :=
  fun i => ∑ N ∈ shardRows (i 0).val, cntTerm (L m c) (i 2).val N

/-- The window's block at point t is block (t / 64, 0, 0). -/
theorem counts_block_index : ∀ t : Fin cfg0.N, win0_4.index t (0 : Fin 3) = t.val / 64
    ∧ win0_4.index t (1 : Fin 3) = 0 ∧ win0_4.index t (2 : Fin 3) = 0 :=
  (by decide +kernel : ∀ t : Fin grid0.N, _)

/-- Entry (0, 0, k) of point t's block is entry (t / 64, 0, k) of the array. -/
theorem counts_entry_at (t : Fin cfg0.N) (k : Fin 1024) (h1 : t.val / 64 < 2) :
    ((cfg0.win 4).blk t).view.emb (ix3 (0 : Fin 1) (0 : Fin 1) k) = ix3 ⟨t.val / 64, h1⟩ (0 : Fin 1) k := by
  obtain ⟨e0, e1, e2⟩ := counts_block_index t
  funext a; apply Fin.ext
  match a with
  | ⟨0, _⟩ => show win0_4.index t (0 : Fin 3) * 1 + 1 * 0 = t.val / 64; omega
  | ⟨1, _⟩ => show win0_4.index t (1 : Fin 3) * 1 + 1 * 0 = 0; omega
  | ⟨2, _⟩ => show win0_4.index t (2 : Fin 3) * 1024 + 1 * k.val = k.val; omega

/-- What a shard's last tile writes back is its block of the array of segment counts. -/
theorem flushed4_eq (hx : ∀ c i, ∃ r : ℝ, X m c i = (r : EReal)) (hc : ∀ c i, ∃ r : ℝ, C m c i = (r : EReal))
    (c : Dev nD) (t : Fin cfg0.N) (hf : (cfg0.win 4).flush t = true) :
    (dats m 0 c).flushed 4 t = ((cfg0.win 4).blk t).view.read (Elt Ideal) (G4 m c) := by
  have h63 : t.val % 64 = 63 := (flush4_iff t).mp hf
  have ht : t.val < 128 := lt_of_lt_of_eq t.isLt N_0
  show (cfg0.win 4).cut (grid0.coords t) ((dats m 0 c).after 4 t) = _
  rw [after0_4 m c t]
  funext y
  obtain ⟨a, b, k, rfl⟩ : ∃ (a : Fin 1) (b : Fin 1) (k : Fin 1024), y = ix3 a b k :=
    ⟨y 0, y 1, y 2, eq_ix3 (n0 := 1) (n1 := 1) (n2 := 1024) y⟩
  obtain rfl : a = 0 := Subsingleton.elim _ _
  obtain rfl : b = 0 := Subsingleton.elim _ _
  show (outsAt0 m c t.val t.isLt).2.1 (ix3 (0 : Fin 1) (0 : Fin 1) k)
    = G4 m c (((cfg0.win 4).blk t).view.emb (ix3 (0 : Fin 1) (0 : Fin 1) k))
  rw [counts_entry_at t k (by omega), Cert.CenterInv.out4_at m hx hc c t h63 k, rows_at_last t.val (t.val / 64) h63 rfl]
  rfl

/-- An index of the array is in point t's block when each coordinate is in the block's range on its axis. -/
theorem mem_blk4 (t : Fin cfg0.N) (i : S2x1x1024.Idx) :
    i ∈ ((cfg0.win 4).blk t).view.set ↔ ∀ a : Fin 3, win0_4.index t a * S1x1x1024.size a ≤ (i a).val
      ∧ (i a).val < win0_4.index t a * S1x1x1024.size a + S1x1x1024.size a := by
  show i ∈ ((View.whole main_v3_1).slice (win0_4.rect t)).set ↔ _
  rw [View.set_slice_whole, Rect.mem_set_unit]
  exact Iff.rfl

/-- Every entry (s, 0, k) is in the block the last tile of shard s writes back. -/
theorem cover4 (i : S2x1x1024.Idx) :
    ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 1024 := (i 2).isLt
  obtain ⟨t, et⟩ : ∃ t : Fin cfg0.N, t.val = 64 * (i 0).val + 63 :=
    ⟨⟨64 * (i 0).val + 63, lt_of_lt_of_eq (by omega) N_0.symm⟩, rfl⟩
  refine ⟨t, (flush4_iff t).mpr (by omega), ?_⟩
  rw [mem_blk4]
  obtain ⟨e0, e1, e2⟩ := counts_block_index t
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1 ≤ (i 1).val ∧ (i 1).val < win0_4.index t (1 : Fin 3) * 1 + 1
    omega
  | ⟨2, _⟩ =>
    show win0_4.index t (2 : Fin 3) * 1024 ≤ (i 2).val ∧ (i 2).val < win0_4.index t (2 : Fin 3) * 1024 + 1024
    omega

/-- After the region the array of segment counts is the one the statement describes. -/
theorem A4_eq (hx : ∀ c i, ∃ r : ℝ, X m c i = (r : EReal)) (hc : ∀ c i, ∃ r : ℝ, C m c i = (r : EReal)) (c : Dev nD) :
    A4 m c = G4 m c :=
  (dats m 0 c).arrAt_eq_of_cover 4 (G4 m c) (fun t hf => flushed4_eq m hx hc c t hf) cover4

/-! ## The summed distances -/

/-- The array of per-shard summed distances the statement describes. -/
def G5 (c : Dev nD) : FVec Ideal S2x1x1 .f32 :=
  fun i => ∑ N ∈ shardRows (i 0).val, distAt (X m c) (L m c) (C m c) N

/-- The window's block at point t is block (t / 64, 0, 0). -/
theorem dists_block_index : ∀ t : Fin cfg0.N, win0_5.index t (0 : Fin 3) = t.val / 64
    ∧ win0_5.index t (1 : Fin 3) = 0 ∧ win0_5.index t (2 : Fin 3) = 0 :=
  (by decide +kernel : ∀ t : Fin grid0.N, _)

/-- Entry (0, 0, 0) of point t's block is entry (t / 64, 0, 0) of the array. -/
theorem dists_entry_at (t : Fin cfg0.N) (h1 : t.val / 64 < 2) :
    ((cfg0.win 5).blk t).view.emb (ix3 (0 : Fin 1) (0 : Fin 1) (0 : Fin 1)) = ix3 ⟨t.val / 64, h1⟩ (0 : Fin 1) (0 : Fin 1) := by
  obtain ⟨e0, e1, e2⟩ := dists_block_index t
  funext a; apply Fin.ext
  match a with
  | ⟨0, _⟩ => show win0_5.index t (0 : Fin 3) * 1 + 1 * 0 = t.val / 64; omega
  | ⟨1, _⟩ => show win0_5.index t (1 : Fin 3) * 1 + 1 * 0 = 0; omega
  | ⟨2, _⟩ => show win0_5.index t (2 : Fin 3) * 1 + 1 * 0 = 0; omega

/-- What a shard's last tile writes back is its block of the array of summed distances. -/
theorem flushed5_eq (hx : ∀ c i, ∃ r : ℝ, X m c i = (r : EReal)) (hc : ∀ c i, ∃ r : ℝ, C m c i = (r : EReal))
    (c : Dev nD) (t : Fin cfg0.N) (hf : (cfg0.win 5).flush t = true) :
    (dats m 0 c).flushed 5 t = ((cfg0.win 5).blk t).view.read (Elt Ideal) (G5 m c) := by
  have h63 : t.val % 64 = 63 := (flush5_iff t).mp hf
  have ht : t.val < 128 := lt_of_lt_of_eq t.isLt N_0
  show (cfg0.win 5).cut (grid0.coords t) ((dats m 0 c).after 5 t) = _
  rw [after0_5 m c t]
  funext y
  obtain ⟨a, b, e, rfl⟩ : ∃ (a : Fin 1) (b : Fin 1) (e : Fin 1), y = ix3 a b e :=
    ⟨y 0, y 1, y 2, eq_ix3 (n0 := 1) (n1 := 1) (n2 := 1) y⟩
  obtain rfl : a = 0 := Subsingleton.elim _ _
  obtain rfl : b = 0 := Subsingleton.elim _ _
  obtain rfl : e = 0 := Subsingleton.elim _ _
  show (outsAt0 m c t.val t.isLt).2.2.1 (ix3 (0 : Fin 1) (0 : Fin 1) (0 : Fin 1))
    = G5 m c (((cfg0.win 5).blk t).view.emb (ix3 (0 : Fin 1) (0 : Fin 1) (0 : Fin 1)))
  rw [dists_entry_at t (by omega), Cert.CenterInv.out5_at m hx hc c t h63, rows_at_last t.val (t.val / 64) h63 rfl]
  rfl

/-- An index of the array is in point t's block when each coordinate is in the block's range on its axis. -/
theorem mem_blk5 (t : Fin cfg0.N) (i : S2x1x1.Idx) :
    i ∈ ((cfg0.win 5).blk t).view.set ↔ ∀ a : Fin 3, win0_5.index t a * S1x1x1.size a ≤ (i a).val
      ∧ (i a).val < win0_5.index t a * S1x1x1.size a + S1x1x1.size a := by
  show i ∈ ((View.whole main_v3_2).slice (win0_5.rect t)).set ↔ _
  rw [View.set_slice_whole, Rect.mem_set_unit]
  exact Iff.rfl

/-- Every entry (s, 0, 0) is in the block the last tile of shard s writes back. -/
theorem cover5 (i : S2x1x1.Idx) :
    ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 1 := (i 2).isLt
  obtain ⟨t, et⟩ : ∃ t : Fin cfg0.N, t.val = 64 * (i 0).val + 63 :=
    ⟨⟨64 * (i 0).val + 63, lt_of_lt_of_eq (by omega) N_0.symm⟩, rfl⟩
  refine ⟨t, (flush5_iff t).mpr (by omega), ?_⟩
  rw [mem_blk5]
  obtain ⟨e0, e1, e2⟩ := dists_block_index t
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1 ≤ (i 1).val ∧ (i 1).val < win0_5.index t (1 : Fin 3) * 1 + 1
    omega
  | ⟨2, _⟩ =>
    show win0_5.index t (2 : Fin 3) * 1 ≤ (i 2).val ∧ (i 2).val < win0_5.index t (2 : Fin 3) * 1 + 1
    omega

/-- After the region the array of summed distances is the one the statement describes. -/
theorem A5_eq (hx : ∀ c i, ∃ r : ℝ, X m c i = (r : EReal)) (hc : ∀ c i, ∃ r : ℝ, C m c i = (r : EReal)) (c : Dev nD) :
    A5 m c = G5 m c :=
  (dats m 0 c).arrAt_eq_of_cover 5 (G5 m c) (fun t hf => flushed5_eq m hx hc c t hf) cover5

/-! ## The three arrays at an entry -/

/-- Entry (s, k, d) of the per-shard segment sums: the rows of shard s labelled k, feature d. -/
theorem A3_apply (hx : ∀ c i, ∃ r : ℝ, X m c i = (r : EReal)) (hc : ∀ c i, ∃ r : ℝ, C m c i = (r : EReal))
    (c : Dev nD) (s : Fin 2) (k : Fin 1024) (d : Fin 256) :
    A3 m c (ix3 s k d) = ∑ N ∈ shardRows s.val, sumTerm (X m c) (L m c) k.val d N := by
  rw [A3_eq m hx hc c]
  rfl

/-- Entry (s, 0, k) of the per-shard segment counts: the number of rows of shard s labelled k. -/
theorem A4_apply (hx : ∀ c i, ∃ r : ℝ, X m c i = (r : EReal)) (hc : ∀ c i, ∃ r : ℝ, C m c i = (r : EReal))
    (c : Dev nD) (s : Fin 2) (k : Fin 1024) :
    A4 m c (ix3 s (0 : Fin 1) k) = ∑ N ∈ shardRows s.val, cntTerm (L m c) k.val N := by
  rw [A4_eq m hx hc c]
  rfl

/-- Entry (s, 0, 0) of the per-shard summed distances. -/
theorem A5_apply (hx : ∀ c i, ∃ r : ℝ, X m c i = (r : EReal)) (hc : ∀ c i, ∃ r : ℝ, C m c i = (r : EReal))
    (c : Dev nD) (s : Fin 2) :
    A5 m c (ix3 s (0 : Fin 1) (0 : Fin 1)) = ∑ N ∈ shardRows s.val, distAt (X m c) (L m c) (C m c) N := by
  rw [A5_eq m hx hc c]
  rfl

end Cert.CenterOut

end
-- ==== Proof.KernelValue.lean ====
import proofs.«422883_j76115410420300_3_alg».proof.Proof.KernelTail
import proofs.«422883_j76115410420300_3_alg».proof.Proof.Outputs
import proofs.«422883_j76115410420300_3_alg».proof.Proof.Spec
import proofs.«422883_j76115410420300_3_alg».proof.Proof.Tail

/-!
  The kernel's two results against the specification. Adding the two shards' blocks gives, for each class and
  feature, the sum over rows 0 … 131071 plus the sum over rows 131072 … 262143 of the per-row terms: the sum over all
  rows. So the summed sums, counts and distances are the specification's, and the last stretch of the program is the
  shared arithmetic on them.
-/

noncomputable section

namespace Cert.CenterKernel

open Idealize.ShloMosaic Idealize.ShloMosaic.TcCoe Idealize.SL.Sem Idealize.ShloMosaic.ValueIdx
open Cert.KernelIdeal Cert.KernelIdeal.Gen
open Cert.CenterSpec Cert.CenterBlocks Cert.CenterOut

variable (m : (ℓ : Loc nD τ sig) → Buf (Elt Ideal) ℓ) (ρ : Dev nD → PrngReg)

/-- The two shards' rows together are all rows. -/
theorem shards_sum (f : ℕ → EReal) :
    ∑ N ∈ shardRows ((0 : Fin 2).val), f N + ∑ N ∈ shardRows ((1 : Fin 2).val), f N = ∑ N ∈ Finset.range 262144, f N := by
  have e0 : shardRows ((0 : Fin 2).val) = Finset.Ico 0 131072 := by
    show Finset.Ico _ _ = _
    norm_num
  have e1 : shardRows ((1 : Fin 2).val) = Finset.Ico 131072 262144 := by
    show Finset.Ico _ _ = _
    norm_num
  rw [e0, e1, Finset.range_eq_Ico, Finset.sum_Ico_consecutive f (by norm_num) (by norm_num)]

/-- The summed per-shard sums are the segment sums. -/
theorem sums_eq (hx : ∀ c i, ∃ r : ℝ, X m c i = (r : EReal)) (hc : ∀ c i, ∃ r : ℝ, C m c i = (r : EReal)) (c : Dev nD) :
    sumsOf (A3 m c) = segSumArr (X m c) (L m c) := by
  funext i
  obtain ⟨k, d, rfl⟩ : ∃ (k : Fin 1000) (d : Fin 256), i = ix2 k d := ⟨i 0, i 1, eq_ix2 i⟩
  rw [sumsOf_apply, A3_apply m hx hc c 0, A3_apply m hx hc c 1]
  exact shards_sum _

/-- The summed per-shard counts are the segment counts. -/
theorem cnt_eq (hx : ∀ c i, ∃ r : ℝ, X m c i = (r : EReal)) (hc : ∀ c i, ∃ r : ℝ, C m c i = (r : EReal)) (c : Dev nD) :
    cntOf (A4 m c) = segCntArr (L m c) := by
  funext i
  obtain ⟨k, rfl⟩ : ∃ k : Fin 1000, i = ix1 k := ⟨i 0, eq_ix1 i⟩
  rw [cntOf_apply, A4_apply m hx hc c 0, A4_apply m hx hc c 1]
  exact shards_sum _

/-- The summed per-shard distances, divided by the number of rows and by two, are the loss. -/
theorem loss_eq (hx : ∀ c i, ∃ r : ℝ, X m c i = (r : EReal)) (hc : ∀ c i, ∃ r : ℝ, C m c i = (r : EReal)) (c : Dev nD) :
    Host.divf (Host.divf (lossSumOf (A5 m c)) (constant (F := Ideal) S_ .f32 0x48800000#32))
        (constant (F := Ideal) S_ .f32 0x40000000#32)
      = lossOf (lossSum (X m c) (L m c) (C m c)) := by
  funext i
  show Ideal.div (Ideal.div (lossSumOf (A5 m c) i) _) _ = Ideal.div (Ideal.div _ _) _
  rw [lossSumOf_apply, A5_apply m hx hc c 0, A5_apply m hx hc c 1, shards_sum]
  rfl

/-- The kernel's run ends with the loss of the summed distances and the new centers of the segment sums and counts,
    its arguments unchanged. -/
theorem kernel_run (hx : ∀ c i, ∃ r : ℝ, X m c i = (r : EReal)) (hc : ∀ c i, ∃ r : ℝ, C m c i = (r : EReal)) :
    θ_run (defs (F := Ideal)) (onTc (τ := τ) (main (F := Ideal))) ⟨m, fun _ => 0, ρ⟩ (fun r => ∀ c : Dev nD,
      r.2.mem ((c.tc : Thread nD τ).loc main_v11) = lossOf (lossSum (X m c) (L m c) (C m c))
      ∧ r.2.mem ((c.tc : Thread nD τ).loc main_v24)
          = Cert.CenterTail.newCenters (segSumArr (X m c) (L m c)) (segCntArr (L m c)) (C m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono
    (fun r h c => ⟨(h c).1.trans (loss_eq m hx hc c),
      (h c).2.1.trans (by rw [sums_eq m hx hc c, cnt_eq m hx hc c]),
      (h c).2.2⟩)
    (kernel_run_named m ρ)

end Cert.CenterKernel

end
-- ==== Proof.lean ====
/-
  The kernel computes a center loss and a center update over 262144 samples of 256 features, 1000 classes: the mean
  distance of a sample to the center of its class, halved, and for every populated class its center moved half way to
  the mean of its samples. It does both with a one-hot matrix of the labels over 1024 padded classes, tile by tile
  (2048 rows), two shards of 64 tiles: the one-hot matrix times the padded centers picks each row's center, its
  transpose times the samples adds up the rows of each class, and its column sums count them; each product is taken
  over a high and a low part of its table, which at exact real arithmetic are the table and zero. The reference gathers
  the centers by label and scatter-adds the samples and ones by label.

  Under the precondition (samples and centers finite, every label in 0 … 999) both are the same function of the
  arguments: a label below 1000 names exactly one of the 1024 columns, that column's center is the reference's
  gathered row, a class's column of the transposed product is the reference's scattered sum, and the tiles' and
  shards' partial sums add up to the sums over all rows. The last stretch of both programs is the same arithmetic on
  the sums and counts. The frames of the two kernel programs are the generated ones; the reference's frame is its
  run with the results dropped; the two format round trips the idealization removed are the rule's own statement.
-/
import proofs.«422883_j76115410420300_3_alg».proof.Defs
import proofs.«422883_j76115410420300_3_alg».proof.Proof.Gen.Kernel
import proofs.«422883_j76115410420300_3_alg».proof.Proof.Gen.Kernel.Frame
import proofs.«422883_j76115410420300_3_alg».proof.Proof.Gen.KernelIdeal
import proofs.«422883_j76115410420300_3_alg».proof.Proof.Gen.KernelIdeal.Frame
import proofs.«422883_j76115410420300_3_alg».proof.Proof.Gen.ReferenceIdeal
import proofs.«422883_j76115410420300_3_alg».proof.Proof.Gen.Pre_finite_inputs
import proofs.«422883_j76115410420300_3_alg».proof.Proof.RefRun
import proofs.«422883_j76115410420300_3_alg».proof.Proof.PreFacts
import proofs.«422883_j76115410420300_3_alg».proof.Proof.RefValue
import proofs.«422883_j76115410420300_3_alg».proof.Proof.KernelValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.ValueP.run (F := Ideal) m ρ)

/-- The two format round trips the idealization removed (of the padded centers and of a tile of samples). -/
theorem preserves : Cert.preserves_Kernel_KernelIdeal :=
  ⟨IdealRules.truncf_extf.statement _ .f32 .bf16, IdealRules.truncf_extf.statement _ .f32 .bf16⟩

/-- Both programs end with the loss of the summed distances and the new centers of the segment sums and counts of
    the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hx := fun c i => Cert.CenterPre.x_real m hpre c i
  have hc := fun c i => Cert.CenterPre.cen_real m hpre c i
  have hl := fun c i => Cert.CenterPre.lab_lt m hpre c i
  have hl' : ∀ (c : Dev Cert.ReferenceIdeal.nD) (i : Cert.ReferenceIdeal.S262144.Idx),
      (m' ((c.tc : Thread Cert.ReferenceIdeal.nD Cert.ReferenceIdeal.τ).loc Cert.ReferenceIdeal.main_arg1) i).toNat < 1000 :=
    fun c i => by rw [(hagree c).2.1]; exact hl c i
  refine ⟨_, _, Cert.CenterKernel.kernel_run m ρ hx hc, ?_⟩
  refine (θ_run Cert.ReferenceIdeal.defs _ _).mono (fun r h c => ?_) (Cert.CenterRef.ref_run m' ρ' hl')
  obtain ⟨h1, h2, h3⟩ := h c
  refine ⟨?_, ?_, h3⟩
  · rw [h1, (hagree c).1, (hagree c).2.1, (hagree c).2.2]
  · rw [h2, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
